-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1024 : Shape := ⟨2, ![8192, 1024]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024x4096 : Shape := ⟨2, ![1024, 4096]⟩
abbrev S4096x8192 : Shape := ⟨2, ![4096, 8192]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S4096 .f32) (main_arg8 : FVec F S4096x8192 .f32) (main_arg9 : FVec F S8192 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x8192 .f32 := Host.absf main_arg8
  let main_cst_14 : FVec F S_ .f32 := constant S_ .f32 0x7F800000#32
  let main_v40 : FVec F S4096x8192 .f32 := broadcastInDim S4096x8192 ![] bcast_S_S4096x8192 main_cst_14
  let main_v41 : IVec S4096x8192 1 := cmpf .olt main_v39 main_v40
  let main_c_15 : IVec S_ 1 := constantI S_ 1 1#1
  let main_v42 : IVec S_ 1 := (fun x v => Host.reduce IntOp.andi x v reducesTo_S4096x8192_S_d0_1 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  main_v48

def fn_part1 {F : FTy → Type} [FloatOps F] (main_arg4 : FVec F S4096x2048 .f32) (main_arg5 : FVec F S2048 .f32) (main_arg6 : FVec F S1024x4096 .f32) (main_arg7 : FVec F S4096 .f32) (main_arg8 : FVec F S4096x8192 .f32) (main_arg9 : FVec F S8192 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x4096 .f32) (main_arg1 : FVec F S8192x1024 .f32) (main_arg2 : FVec F S4096x4096 .f32) (main_arg3 : FVec F S4096 .f32) (main_arg4 : FVec F S4096x2048 .f32) (main_arg5 : FVec F S2048 .f32) (main_arg6 : FVec F S1024x4096 .f32) (main_arg7 : FVec F S4096 .f32) (main_arg8 : FVec F S4096x8192 .f32) (main_arg9 : FVec F S8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S8192x4096 : Shape := ⟨2, ![8192, 4096]⟩
abbrev S8192x1024 : Shape := ⟨2, ![8192, 1024]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024x4096 : Shape := ⟨2, ![1024, 4096]⟩
abbrev S4096x8192 : Shape := ⟨2, ![4096, 8192]⟩
abbrev S8192 : Shape := ⟨1, ![8192]⟩
abbrev S1x4096 : Shape := ⟨2, ![1, 4096]⟩
abbrev S1024x1024 : Shape := ⟨2, ![1024, 1024]⟩
abbrev S1x1024 : Shape := ⟨2, ![1, 1024]⟩
abbrev S1x2048 : Shape := ⟨2, ![1, 2048]⟩
abbrev S8192x2048 : Shape := ⟨2, ![8192, 2048]⟩
abbrev S1x8192 : Shape := ⟨2, ![1, 8192]⟩
abbrev S8192x8192 : Shape := ⟨2, ![8192, 8192]⟩
abbrev S_ : Shape := ⟨0, ![]⟩

abbrev nBuf : Space → Nat
  | .hbm => 72
  | .vmem => 36
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x4096, .f32⟩
  | .hbm, ⟨3, _⟩ => ⟨S4096, .f32⟩
  | .hbm, ⟨4, _⟩ => ⟨S4096x2048, .f32⟩
  | .hbm, ⟨5, _⟩ => ⟨S2048, .f32⟩
  | .hbm, ⟨6, _⟩ => ⟨S1024x4096, .f32⟩
  | .hbm, ⟨7, _⟩ => ⟨S4096, .f32⟩
  | .hbm, ⟨8, _⟩ => ⟨S4096x8192, .f32⟩
  | .hbm, ⟨9, _⟩ => ⟨S8192, .f32⟩
  | .hbm, ⟨10, _⟩ => ⟨S8192x4096, .bf16⟩
  | .hbm, ⟨11, _⟩ => ⟨S4096x4096, .bf16⟩
  | .hbm, ⟨12, _⟩ => ⟨S1x4096, .f32⟩
  | .hbm, ⟨13, _⟩ => ⟨S8192x4096, .bf16⟩
  | .hbm, ⟨14, _⟩ => ⟨S4096x2048, .bf16⟩
  | .hbm, ⟨15, _⟩ => ⟨S1x2048, .f32⟩
  | .hbm, ⟨16, _⟩ => ⟨S8192x2048, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x4096, .bf16⟩
  | .hbm, ⟨24, _⟩ => ⟨S1x4096, .f32⟩
  | .hbm, ⟨25, _⟩ => ⟨S8192x4096, .bf16⟩
  | .hbm, ⟨26, _⟩ => ⟨S4096x8192, .bf16⟩
  | .hbm, ⟨27, _⟩ => ⟨S1x8192, .f32⟩
  | .hbm, ⟨28, _⟩ => ⟨S8192x8192, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 1], ![false, false, false]⟩

def k2_cond2 (i : grid2.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 8, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048_S1x2048 : S2048.ShapeCasts S1x2048
  slices_S8192x2048_S8192x1024_0_0 : S8192x2048.Slices ![0, 0] S8192x1024
  slices_S8192x2048_S8192x1024_0_1024 : S8192x2048.Slices ![0, 1024] S8192x1024
  shapeCasts_S8192_S1x8192 : S8192.ShapeCasts S1x8192
  slices_S8192x8192_S8192x4096_0_0 : S8192x8192.Slices ![0, 0] S8192x4096
  slices_S8192x8192_S8192x4096_0_4096 : S8192x8192.Slices ![0, 4096] S8192x4096
  bcast_S_S8192x4096 : S_.BroadcastsInDim S8192x4096 (![] : Fin 0 → Fin S8192x4096.rank)
  reducesTo_S8192x4096_S8192_d1 : S8192x4096.ReducesTo [1] S8192
  h_S_ : 0 < S_.numel
  reducesTo_S8192_S_d0 : S8192.ReducesTo [0] S_
  bcast_S_S8192x1024 : S_.BroadcastsInDim S8192x1024 (![] : Fin 0 → Fin S8192x1024.rank)
  reducesTo_S8192x1024_S8192_d1 : S8192x1024.ReducesTo [1] S8192
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x2048.size a
  hwx1_1 : ∀ i : grid1.Coords, EltTy.bits .bf16 = 32 ∨ (Rect.block (s := S4096x2048) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x2048.size a
  hwx1_3 : ∀ i : grid1.Coords, EltTy.bits .f32 = 32 ∨ (Rect.block (s := S8192x2048) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .bf16 = 32 ∨ (Rect.block (s := S1024x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .bf16 = 32 ∨ (Rect.block (s := S8192x4096) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x4096.size a
  hwx3_0 : ∀ i : grid3.Coords, EltTy.bits .bf16 = 32 ∨ (Rect.block (s := S8192x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x8192.size a
  hwx3_1 : ∀ i : grid3.Coords, EltTy.bits .bf16 = 32 ∨ (Rect.block (s := S4096x8192) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x8192.size a
  hwx3_2 : ∀ i : grid3.Coords, EltTy.bits .f32 = 32 ∨ (Rect.block (s := S1x8192) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x8192.size a
  hwx3_3 : ∀ i : grid3.Coords, EltTy.bits .f32 = 32 ∨ (Rect.block (s := S8192x8192) S1024x1024.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v15) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x1024 : Shape := ⟨2, ![8192, 1024]⟩
abbrev S4096x4096 : Shape := ⟨2, ![4096, 4096]⟩
abbrev S4096 : Shape := ⟨1, ![4096]⟩
abbrev S4096x2048 : Shape := ⟨2, ![4096, 2048]⟩
abbrev S2048 : Shape := ⟨1, ![2048]⟩
abbrev S1024x4096 : Shape := ⟨2, ![1024, 4096]⟩
abbrev S4096x8192 : Shape := ⟨2, ![4096, 8192]⟩
abbrev S8192 : Shape := ⟨1, ![8192]⟩
abbrev S1x4096 : Shape := ⟨2, ![1, 4096]⟩
abbrev S_ : Shape := ⟨0, ![]⟩
abbrev S8192x2048 : Shape := ⟨2, ![8192, 2048]⟩
abbrev S1x2048 : Shape := ⟨2, ![1, 2048]⟩
abbrev S8192x8192 : Shape := ⟨2, ![8192, 8192]⟩
abbrev S1x8192 : Shape := ⟨2, ![1, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4096x4096, .f32⟩
  | .hbm, ⟨3, _⟩ => ⟨S4096, .f32⟩
  | .hbm, ⟨4, _⟩ => ⟨S4096x2048, .f32⟩
  | .hbm, ⟨5, _⟩ => ⟨S2048, .f32⟩
  | .hbm, ⟨6, _⟩ => ⟨S1024x4096, .f32⟩
  | .hbm, ⟨7, _⟩ => ⟨S4096, .f32⟩
  | .hbm, ⟨8, _⟩ => ⟨S4096x8192, .f32⟩
  | .hbm, ⟨9, _⟩ => ⟨S8192, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x1024_0_0 : S8192x2048.Slices ![0, 0] S8192x1024
  slices_S8192x2048_S8192x1024_0_1024 : S8192x2048.Slices ![0, 1024] S8192x1024
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x4096_0_0 : S8192x8192.Slices ![0, 0] S8192x4096
  slices_S8192x8192_S8192x4096_0_4096 : S8192x8192.Slices ![0, 4096] S8192x4096
  reducesTo_S8192x4096_S8192_d1 : S8192x4096.ReducesTo [1] S8192
  h_S_ : 0 < S_.numel
  reducesTo_S8192_S_d0 : S8192.ReducesTo [0] S_
  bcast_S_S8192x1024 : S_.BroadcastsInDim S8192x1024 (![] : Fin 0 → Fin S8192x1024.rank)
  reducesTo_S8192x1024_S8192_d1 : S8192x1024.ReducesTo [1] S8192
  dot_S8192x4096_S4096x4096_S8192x4096_1_0_0_1_n_n_wf : DotDims.WF S8192x4096 S4096x4096 S8192x4096 [1] [0] [0] [1] [] []
  dot_S8192x4096_S4096x2048_S8192x2048_1_0_0_1_n_n_wf : DotDims.WF S8192x4096 S4096x2048 S8192x2048 [1] [0] [0] [1] [] []
  dot_S8192x1024_S1024x4096_S8192x4096_1_0_0_1_n_n_wf : DotDims.WF S8192x1024 S1024x4096 S8192x4096 [1] [0] [0] [1] [] []
  dot_S8192x4096_S4096x8192_S8192x8192_1_0_0_1_n_n_wf : DotDims.WF S8192x4096 S4096x8192 S8192x8192 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.LibTile.lean ====
/-
  Whole-tile stores and loads.

  A store through the rectangle that starts at the origin and has the buffer's own extents overwrites every
  element. So, whatever was written before it and whatever the buffer held: reading the buffer back gives the
  stored tile; a load of that rectangle after such a store reads the stored tile; and a load of that rectangle
  from a buffer nothing has written reads the buffer's contents.
-/
import Idealize.ShloMosaic.Lib.Pipeline.FrameBody
import Idealize.ShloMosaic.Lib.Pipeline.Value
import Idealize.ShloMosaic.Lib.Pipeline.Frame

noncomputable section

namespace Cert.LibTile

open Idealize.ShloMosaic

variable {sig : RefSig} {κ : Kind} {sp : Space} {S : Shape} {e : EltTy} {Val : EltTy → Type} [∀ e, Nonempty (Val e)]

/-- A list of writes whose last one goes through the whole rectangle covers every index. -/
theorem cover_tile {off : Fin S.rank → Nat} (hz : off = fun _ => 0) (inb : ∀ a, off a + S.size a ≤ S.size a)
    (w : S.Idx → Val e) (L : List (View.Piece Val S e)) :
    ∀ y, ∃ p ∈ ((⟨Rect.unit off S.size inb, w⟩ : View.Piece Val S e) :: L), y ∈ p.1.set :=
  fun y => ⟨_, List.mem_cons_self, View.mem_set_unit_zero hz inb y⟩

/-- Reading a buffer back after writes that end with a whole-tile store gives that tile. -/
theorem read_writes_tile (v : View sig κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_tile hz inb w L), View.canon_cons_unit_zero hz inb w L]

/-- A load of the whole rectangle after writes that end with a whole-tile store reads that tile. -/
theorem readCov_tile (v : View sig κ sp S e) {off : Fin S.rank → Nat} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_tile hz inb w L), View.canon_cons_unit_zero hz inb w L, View.ld_unit_zero hz]

/-- A load of the whole rectangle from contents read as `X` reads `X`. -/
theorem readAt_tile (v : View sig κ sp S e) (f : v.ty.Contents Val) {off : Fin S.rank → Nat} (hz : off = fun _ => 0)
    (inb : ∀ a, off a + S.size a ≤ S.size a) (X : S.Idx → Val e) (hX : v.read Val f = X) :
    v.readAt Val (Rect.unit off S.size inb).toLoadRect f = X := by
  rw [View.readAt_eq_ld, hX, View.ld_unit_zero hz]

/-- The offset of a two-axis rectangle at the origin. -/
theorem zero2 : (![0, 0] : Fin 2 → Nat) = fun _ => 0 := by
  funext a; match a with | ⟨0, _⟩ => rfl | ⟨1, _⟩ => rfl

end Cert.LibTile

end
-- ==== Proof.Kernel.R0.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.Kernel.Launch
import proofs.«177351_j58944131170770_1_alg».proof.Proof.Gen.Kernel.Skeleton
import proofs.«177351_j58944131170770_1_alg».proof.Proof.Gen.Kernel.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The element type of the region's output tile. -/
abbrev OutTy : EltTy := .bf16

/-- The point is a first step of the contraction axis: the body's first branch condition, as printed. -/
abbrev isFirst (i : grid0.Coords) : Prop :=
  Scalar.cmpi .ne (Scalar.extui (Scalar.cmpi .eq (BitVec.ofNat 32 (i 2).val) 0#32)) 0#32 = 1#1

/-- The point is a last step: the body's second branch condition. -/
abbrev isLast (i : grid0.Coords) : Prop := k0_cond2 i = 1#1

/-- The accumulator after the point: the tile product added to zero (first step) or to what was there. -/
def accNext (i : grid0.Coords) (acc : Vec F S1024x1024 .f32) (a b : Vec F S1024x1024 .bf16) : Vec F S1024x1024 .f32 :=
  k0_pay2 (if isFirst i then k0_pay1 (F := F) else acc) a b

/-- The output tile after the point: finished at a last step, else as it was. -/
def outNext (i : grid0.Coords) (acc : Vec F S1024x1024 .f32) (a b : Vec F S1024x1024 .bf16) (bias : Vec F S1x1024 .f32)
    (o : Vec F S1024x1024 OutTy) : Vec F S1024x1024 OutTy :=
  if isLast i then k0_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc0__mm_kernel i a3 h3 a4 h4 a5 h5 a6 h6 a7 h7) K := by
  simp only [cc0__mm_kernel_eq_skeleton]; unfold cc0__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.Kernel.R0

end
-- ==== Proof.Kernel.R0.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.Kernel.R0.Run

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem N_pos : 0 < cfg0.N := by decide

/-- The grid point numbered `n` (numbers past the grid wrap around; only numbers inside it are used). -/
def pt (n : ℕ) : Fin cfg0.N := ⟨n % cfg0.N, Nat.mod_lt _ N_pos⟩

theorem pt_val (t : Fin cfg0.N) : pt t.val = t := Fin.ext (Nat.mod_eq_of_lt t.isLt)

/-- The accumulator after point `n`. -/
def accAt (c : Dev nD) : ℕ → Vec F S1024x1024 .f32
  | 0 => accNext (grid0.coords (pt 0)) (k0_pay1 (F := F)) (iblk V c 0 (pt 0)) (iblk V c 1 (pt 0))
  | n + 1 => accNext (grid0.coords (pt (n + 1))) (accAt c n) (iblk V c 0 (pt (n + 1))) (iblk V c 1 (pt (n + 1)))

/-- The finished tile of point `t` (what the body stores at a last step). -/
def outAt (c : Dev nD) (t : Fin cfg0.N) : Vec F S1024x1024 OutTy := k0_pay3 (accAt V c t.val) (iblk V c 2 t)

/-- The first point is a first contraction step. -/
theorem first_zero : isFirst (grid0.coords (pt 0)) := by decide +kernel

/-- Only a last contraction step writes the output tile back. -/
theorem flush_last : ∀ t : Fin cfg0.N, (cfg0.win 3).flush t = true → isLast (grid0.coords t) :=
  (by decide +kernel : ∀ t : Fin grid0.N, win0_3.flush t = true → k0_cond2 (grid0.coords t) = 1#1)

/-- One step of the accumulator from what the scratch holds before point `t`. -/
theorem accAt_step (c : Dev nD) (t : Fin cfg0.N) (f : Vec F S1024x1024 .f32) (hf : t.val ≠ 0 → f = accAt V c (t.val - 1)) :
    accNext (grid0.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid0.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid0.coords (pt (n + 1))) _ _ _
    rw [e]; rfl

/-- The region's invariant before point `t`: the scratch at the accumulator so far, every other scoped buffer that is
    no staging buffer at some contents, the generator register at some state. -/
def inv (c : Dev nD) (t : Fin (cfg0.N + 1)) : sProp 𝕄 :=
  iprop((∃ f : Vec F S1024x1024 .f32, ⌜t.val ≠ 0 → f = accAt V c (t.val - 1)⌝ ∗ owns (c : Thread nD τ) (Memref.whole cc0_scratch0) fullShare f)
    ∗ Pipeline.scopedRestBut (Ix := Unit) (Name := ℕ) (U := UR sig nD τ) (Lvl := ℕ) (Val := Elt F) spec0 c [cc0_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

/-- An input's staging buffer holds its tile at every point, fetched there or not: the body leaves it in place, and
    where it is not fetched the tile's index has not moved. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg0.N) : sProp 𝕄 :=
  match cfg0.idle 3 (cfg0.grid.coords t) with
  | true =>
    match (cfg0.win 3).flush t with
    | false => iprop(∃ d, owns (c : Thread nD τ) ((cfg0.win 3).stage (cfg0.slots t 3)) fullShare ((dat V c).before 3 t d))
    | true => owns (c : Thread nD τ) ((cfg0.win 3).stage (cfg0.slots t 3)) fullShare ((dat V c).after 3 t)
  | false => owns (c : Thread nD τ) ((cfg0.win 3).stage (cfg0.slots t 3)) fullShare ((dat V c).after 3 t)

set_option maxHeartbeats 1600000 in
/-- The body at any point. -/
theorem sound_body (c : Dev nD) (t : Fin cfg0.N) :
    iprop((dat V c).Φ t.castSucc ∗ (dat V c).owesAt () t.castSucc
      ∗ (∃ d, owns (c : Thread nD τ) ((cfg0.win 0).stage (cfg0.slots t 0)) fullShare ((dat V c).before 0 t d))
      ∗ (∃ d, owns (c : Thread nD τ) ((cfg0.win 1).stage (cfg0.slots t 1)) fullShare ((dat V c).before 1 t d))
      ∗ (∃ d, owns (c : Thread nD τ) ((cfg0.win 2).stage (cfg0.slots t 2)) fullShare ((dat V c).before 2 t d))
      ∗ (∃ d, owns (c : Thread nD τ) ((cfg0.win 3).stage (cfg0.slots t 3)) fullShare ((dat V c).before 3 t d)))
    ⊢ wp frame (wpE (defs₀ (F := F)) Variants.none c none) Set.univ (bodyAt0 t) (fun _ =>
        iprop((dat V c).Φ t.succ ∗ (dat V c).owesAt () t.succ
          ∗ owns (c : Thread nD τ) ((cfg0.win 0).stage (cfg0.slots t 0)) fullShare ((dat V c).after 0 t)
          ∗ owns (c : Thread nD τ) ((cfg0.win 1).stage (cfg0.slots t 1)) fullShare ((dat V c).after 1 t)
          ∗ owns (c : Thread nD τ) ((cfg0.win 2).stage (cfg0.slots t 2)) fullShare ((dat V c).after 2 t)
          ∗ post3 V c t)) := by
  unfold bodyAt0
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid0.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid0.coords t)
  · have hidle : cfg0.idle 3 (cfg0.grid.coords t) = false := by
      show (!(k0_cond2 (grid0.coords t) == 1#1)) = false
      rw [hl]; rfl
    rw [hidle, after3]
    unfold outNext; rw [if_pos hl, accAt_step V c t f hf]
    unfold outAt
    iexact H3
  · have hidle : cfg0.idle 3 (cfg0.grid.coords t) = true := by
      show (!(k0_cond2 (grid0.coords t) == 1#1)) = true
      rw [Bool.not_eq_true', beq_eq_false_iff_ne]; exact hl
    have hflush : (cfg0.win 3).flush t = false := by
      cases h : (cfg0.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.Kernel.R1.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.Kernel.Launch
import proofs.«177351_j58944131170770_1_alg».proof.Proof.Gen.Kernel.Skeleton
import proofs.«177351_j58944131170770_1_alg».proof.Proof.Gen.Kernel.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The element type of the region's output tile. -/
abbrev OutTy : EltTy := .f32

/-- The point is a first step of the contraction axis: the body's first branch condition, as printed. -/
abbrev isFirst (i : grid1.Coords) : Prop :=
  Scalar.cmpi .ne (Scalar.extui (Scalar.cmpi .eq (BitVec.ofNat 32 (i 2).val) 0#32)) 0#32 = 1#1

/-- The point is a last step: the body's second branch condition. -/
abbrev isLast (i : grid1.Coords) : Prop := k1_cond2 i = 1#1

/-- The accumulator after the point: the tile product added to zero (first step) or to what was there. -/
def accNext (i : grid1.Coords) (acc : Vec F S1024x1024 .f32) (a b : Vec F S1024x1024 .bf16) : Vec F S1024x1024 .f32 :=
  k1_pay2 (if isFirst i then k1_pay1 (F := F) else acc) a b

/-- The output tile after the point: finished at a last step, else as it was. -/
def outNext (i : grid1.Coords) (acc : Vec F S1024x1024 .f32) (a b : Vec F S1024x1024 .bf16) (bias : Vec F S1x1024 .f32)
    (o : Vec F S1024x1024 OutTy) : Vec F S1024x1024 OutTy :=
  if isLast i then k1_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid1.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc1__mm_kernel i a3 h3 a4 h4 a5 h5 a6 h6 a7 h7) K := by
  simp only [cc1__mm_kernel_eq_skeleton]; unfold cc1__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.Kernel.R1

end
-- ==== Proof.Kernel.R1.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.Kernel.R1.Run

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N_pos : 0 < cfg1.N := by decide

/-- The grid point numbered `n` (numbers past the grid wrap around; only numbers inside it are used). -/
def pt (n : ℕ) : Fin cfg1.N := ⟨n % cfg1.N, Nat.mod_lt _ N_pos⟩

theorem pt_val (t : Fin cfg1.N) : pt t.val = t := Fin.ext (Nat.mod_eq_of_lt t.isLt)

/-- The accumulator after point `n`. -/
def accAt (c : Dev nD) : ℕ → Vec F S1024x1024 .f32
  | 0 => accNext (grid1.coords (pt 0)) (k1_pay1 (F := F)) (iblk V c 0 (pt 0)) (iblk V c 1 (pt 0))
  | n + 1 => accNext (grid1.coords (pt (n + 1))) (accAt c n) (iblk V c 0 (pt (n + 1))) (iblk V c 1 (pt (n + 1)))

/-- The finished tile of point `t` (what the body stores at a last step). -/
def outAt (c : Dev nD) (t : Fin cfg1.N) : Vec F S1024x1024 OutTy := k1_pay3 (accAt V c t.val) (iblk V c 2 t)

/-- The first point is a first contraction step. -/
theorem first_zero : isFirst (grid1.coords (pt 0)) := by decide +kernel

/-- Only a last contraction step writes the output tile back. -/
theorem flush_last : ∀ t : Fin cfg1.N, (cfg1.win 3).flush t = true → isLast (grid1.coords t) :=
  (by decide +kernel : ∀ t : Fin grid1.N, win1_3.flush t = true → k1_cond2 (grid1.coords t) = 1#1)

/-- One step of the accumulator from what the scratch holds before point `t`. -/
theorem accAt_step (c : Dev nD) (t : Fin cfg1.N) (f : Vec F S1024x1024 .f32) (hf : t.val ≠ 0 → f = accAt V c (t.val - 1)) :
    accNext (grid1.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid1.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid1.coords (pt (n + 1))) _ _ _
    rw [e]; rfl

/-- The region's invariant before point `t`: the scratch at the accumulator so far, every other scoped buffer that is
    no staging buffer at some contents, the generator register at some state. -/
def inv (c : Dev nD) (t : Fin (cfg1.N + 1)) : sProp 𝕄 :=
  iprop((∃ f : Vec F S1024x1024 .f32, ⌜t.val ≠ 0 → f = accAt V c (t.val - 1)⌝ ∗ owns (c : Thread nD τ) (Memref.whole cc1_scratch0) fullShare f)
    ∗ Pipeline.scopedRestBut (Ix := Unit) (Name := ℕ) (U := UR sig nD τ) (Lvl := ℕ) (Val := Elt F) spec1 c [cc1_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

/-- An input's staging buffer holds its tile at every point, fetched there or not: the body leaves it in place, and
    where it is not fetched the tile's index has not moved. -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg1.N) : sProp 𝕄 :=
  match cfg1.idle 3 (cfg1.grid.coords t) with
  | true =>
    match (cfg1.win 3).flush t with
    | false => iprop(∃ d, owns (c : Thread nD τ) ((cfg1.win 3).stage (cfg1.slots t 3)) fullShare ((dat V c).before 3 t d))
    | true => owns (c : Thread nD τ) ((cfg1.win 3).stage (cfg1.slots t 3)) fullShare ((dat V c).after 3 t)
  | false => owns (c : Thread nD τ) ((cfg1.win 3).stage (cfg1.slots t 3)) fullShare ((dat V c).after 3 t)

set_option maxHeartbeats 1600000 in
/-- The body at any point. -/
theorem sound_body (c : Dev nD) (t : Fin cfg1.N) :
    iprop((dat V c).Φ t.castSucc ∗ (dat V c).owesAt () t.castSucc
      ∗ (∃ d, owns (c : Thread nD τ) ((cfg1.win 0).stage (cfg1.slots t 0)) fullShare ((dat V c).before 0 t d))
      ∗ (∃ d, owns (c : Thread nD τ) ((cfg1.win 1).stage (cfg1.slots t 1)) fullShare ((dat V c).before 1 t d))
      ∗ (∃ d, owns (c : Thread nD τ) ((cfg1.win 2).stage (cfg1.slots t 2)) fullShare ((dat V c).before 2 t d))
      ∗ (∃ d, owns (c : Thread nD τ) ((cfg1.win 3).stage (cfg1.slots t 3)) fullShare ((dat V c).before 3 t d)))
    ⊢ wp frame (wpE (defs₀ (F := F)) Variants.none c none) Set.univ (bodyAt1 t) (fun _ =>
        iprop((dat V c).Φ t.succ ∗ (dat V c).owesAt () t.succ
          ∗ owns (c : Thread nD τ) ((cfg1.win 0).stage (cfg1.slots t 0)) fullShare ((dat V c).after 0 t)
          ∗ owns (c : Thread nD τ) ((cfg1.win 1).stage (cfg1.slots t 1)) fullShare ((dat V c).after 1 t)
          ∗ owns (c : Thread nD τ) ((cfg1.win 2).stage (cfg1.slots t 2)) fullShare ((dat V c).after 2 t)
          ∗ post3 V c t)) := by
  unfold bodyAt1
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid1.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid1.coords t)
  · have hidle : cfg1.idle 3 (cfg1.grid.coords t) = false := by
      show (!(k1_cond2 (grid1.coords t) == 1#1)) = false
      rw [hl]; rfl
    rw [hidle, after3]
    unfold outNext; rw [if_pos hl, accAt_step V c t f hf]
    unfold outAt
    iexact H3
  · have hidle : cfg1.idle 3 (cfg1.grid.coords t) = true := by
      show (!(k1_cond2 (grid1.coords t) == 1#1)) = true
      rw [Bool.not_eq_true', beq_eq_false_iff_ne]; exact hl
    have hflush : (cfg1.win 3).flush t = false := by
      cases h : (cfg1.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.Kernel.R2.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.Kernel.Launch
import proofs.«177351_j58944131170770_1_alg».proof.Proof.Gen.Kernel.Skeleton
import proofs.«177351_j58944131170770_1_alg».proof.Proof.Gen.Kernel.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The element type of the region's output tile. -/
abbrev OutTy : EltTy := .bf16

/-- The point is a first step of the contraction axis: the body's first branch condition, as printed. -/
abbrev isFirst (i : grid2.Coords) : Prop :=
  Scalar.cmpi .ne (Scalar.extui (Scalar.cmpi .eq (BitVec.ofNat 32 (i 2).val) 0#32)) 0#32 = 1#1

/-- The point is a last step: the body's second branch condition. -/
abbrev isLast (i : grid2.Coords) : Prop := k2_cond2 i = 1#1

/-- The accumulator after the point: the tile product added to zero (first step) or to what was there. -/
def accNext (i : grid2.Coords) (acc : Vec F S1024x1024 .f32) (a b : Vec F S1024x1024 .bf16) : Vec F S1024x1024 .f32 :=
  k2_pay2 (if isFirst i then k2_pay1 (F := F) else acc) a b

/-- The output tile after the point: finished at a last step, else as it was. -/
def outNext (i : grid2.Coords) (acc : Vec F S1024x1024 .f32) (a b : Vec F S1024x1024 .bf16) (bias : Vec F S1x1024 .f32)
    (o : Vec F S1024x1024 OutTy) : Vec F S1024x1024 OutTy :=
  if isLast i then k2_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid2.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc2__mm_kernel i a3 h3 a4 h4 a5 h5 a6 h6 a7 h7) K := by
  simp only [cc2__mm_kernel_eq_skeleton]; unfold cc2__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.Kernel.R2

end
-- ==== Proof.Kernel.R2.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.Kernel.R2.Run

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N_pos : 0 < cfg2.N := by decide

/-- The grid point numbered `n` (numbers past the grid wrap around; only numbers inside it are used). -/
def pt (n : ℕ) : Fin cfg2.N := ⟨n % cfg2.N, Nat.mod_lt _ N_pos⟩

theorem pt_val (t : Fin cfg2.N) : pt t.val = t := Fin.ext (Nat.mod_eq_of_lt t.isLt)

/-- The accumulator after point `n`. -/
def accAt (c : Dev nD) : ℕ → Vec F S1024x1024 .f32
  | 0 => accNext (grid2.coords (pt 0)) (k2_pay1 (F := F)) (iblk V c 0 (pt 0)) (iblk V c 1 (pt 0))
  | n + 1 => accNext (grid2.coords (pt (n + 1))) (accAt c n) (iblk V c 0 (pt (n + 1))) (iblk V c 1 (pt (n + 1)))

/-- The finished tile of point `t` (what the body stores at a last step). -/
def outAt (c : Dev nD) (t : Fin cfg2.N) : Vec F S1024x1024 OutTy := k2_pay3 (accAt V c t.val) (iblk V c 2 t)

/-- The first point is a first contraction step. -/
theorem first_zero : isFirst (grid2.coords (pt 0)) := by decide +kernel

/-- Only a last contraction step writes the output tile back. -/
theorem flush_last : ∀ t : Fin cfg2.N, (cfg2.win 3).flush t = true → isLast (grid2.coords t) :=
  (by decide +kernel : ∀ t : Fin grid2.N, win2_3.flush t = true → k2_cond2 (grid2.coords t) = 1#1)

/-- One step of the accumulator from what the scratch holds before point `t`. -/
theorem accAt_step (c : Dev nD) (t : Fin cfg2.N) (f : Vec F S1024x1024 .f32) (hf : t.val ≠ 0 → f = accAt V c (t.val - 1)) :
    accNext (grid2.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid2.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid2.coords (pt (n + 1))) _ _ _
    rw [e]; rfl

/-- The region's invariant before point `t`: the scratch at the accumulator so far, every other scoped buffer that is
    no staging buffer at some contents, the generator register at some state. -/
def inv (c : Dev nD) (t : Fin (cfg2.N + 1)) : sProp 𝕄 :=
  iprop((∃ f : Vec F S1024x1024 .f32, ⌜t.val ≠ 0 → f = accAt V c (t.val - 1)⌝ ∗ owns (c : Thread nD τ) (Memref.whole cc2_scratch0) fullShare f)
    ∗ Pipeline.scopedRestBut (Ix := Unit) (Name := ℕ) (U := UR sig nD τ) (Lvl := ℕ) (Val := Elt F) spec2 c [cc2_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = outAt V c t := by dsimp only [dat]

/-- An input's staging buffer holds its tile at every point, fetched there or not: the body leaves it in place, and
    where it is not fetched the tile's index has not moved. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg2.N) : sProp 𝕄 :=
  match cfg2.idle 3 (cfg2.grid.coords t) with
  | true =>
    match (cfg2.win 3).flush t with
    | false => iprop(∃ d, owns (c : Thread nD τ) ((cfg2.win 3).stage (cfg2.slots t 3)) fullShare ((dat V c).before 3 t d))
    | true => owns (c : Thread nD τ) ((cfg2.win 3).stage (cfg2.slots t 3)) fullShare ((dat V c).after 3 t)
  | false => owns (c : Thread nD τ) ((cfg2.win 3).stage (cfg2.slots t 3)) fullShare ((dat V c).after 3 t)

set_option maxHeartbeats 1600000 in
/-- The body at any point. -/
theorem sound_body (c : Dev nD) (t : Fin cfg2.N) :
    iprop((dat V c).Φ t.castSucc ∗ (dat V c).owesAt () t.castSucc
      ∗ (∃ d, owns (c : Thread nD τ) ((cfg2.win 0).stage (cfg2.slots t 0)) fullShare ((dat V c).before 0 t d))
      ∗ (∃ d, owns (c : Thread nD τ) ((cfg2.win 1).stage (cfg2.slots t 1)) fullShare ((dat V c).before 1 t d))
      ∗ (∃ d, owns (c : Thread nD τ) ((cfg2.win 2).stage (cfg2.slots t 2)) fullShare ((dat V c).before 2 t d))
      ∗ (∃ d, owns (c : Thread nD τ) ((cfg2.win 3).stage (cfg2.slots t 3)) fullShare ((dat V c).before 3 t d)))
    ⊢ wp frame (wpE (defs₀ (F := F)) Variants.none c none) Set.univ (bodyAt2 t) (fun _ =>
        iprop((dat V c).Φ t.succ ∗ (dat V c).owesAt () t.succ
          ∗ owns (c : Thread nD τ) ((cfg2.win 0).stage (cfg2.slots t 0)) fullShare ((dat V c).after 0 t)
          ∗ owns (c : Thread nD τ) ((cfg2.win 1).stage (cfg2.slots t 1)) fullShare ((dat V c).after 1 t)
          ∗ owns (c : Thread nD τ) ((cfg2.win 2).stage (cfg2.slots t 2)) fullShare ((dat V c).after 2 t)
          ∗ post3 V c t)) := by
  unfold bodyAt2
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid2.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid2.coords t)
  · have hidle : cfg2.idle 3 (cfg2.grid.coords t) = false := by
      show (!(k2_cond2 (grid2.coords t) == 1#1)) = false
      rw [hl]; rfl
    rw [hidle, after3]
    unfold outNext; rw [if_pos hl, accAt_step V c t f hf]
    unfold outAt
    iexact H3
  · have hidle : cfg2.idle 3 (cfg2.grid.coords t) = true := by
      show (!(k2_cond2 (grid2.coords t) == 1#1)) = true
      rw [Bool.not_eq_true', beq_eq_false_iff_ne]; exact hl
    have hflush : (cfg2.win 3).flush t = false := by
      cases h : (cfg2.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.Kernel.R3.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.Kernel.Launch
import proofs.«177351_j58944131170770_1_alg».proof.Proof.Gen.Kernel.Skeleton
import proofs.«177351_j58944131170770_1_alg».proof.Proof.Gen.Kernel.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The element type of the region's output tile. -/
abbrev OutTy : EltTy := .f32

/-- The point is a first step of the contraction axis: the body's first branch condition, as printed. -/
abbrev isFirst (i : grid3.Coords) : Prop :=
  Scalar.cmpi .ne (Scalar.extui (Scalar.cmpi .eq (BitVec.ofNat 32 (i 2).val) 0#32)) 0#32 = 1#1

/-- The point is a last step: the body's second branch condition. -/
abbrev isLast (i : grid3.Coords) : Prop := k3_cond2 i = 1#1

/-- The accumulator after the point: the tile product added to zero (first step) or to what was there. -/
def accNext (i : grid3.Coords) (acc : Vec F S1024x1024 .f32) (a b : Vec F S1024x1024 .bf16) : Vec F S1024x1024 .f32 :=
  k3_pay2 (if isFirst i then k3_pay1 (F := F) else acc) a b

/-- The output tile after the point: finished at a last step, else as it was. -/
def outNext (i : grid3.Coords) (acc : Vec F S1024x1024 .f32) (a b : Vec F S1024x1024 .bf16) (bias : Vec F S1x1024 .f32)
    (o : Vec F S1024x1024 OutTy) : Vec F S1024x1024 OutTy :=
  if isLast i then k3_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid3.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc3__mm_kernel i a3 h3 a4 h4 a5 h5 a6 h6 a7 h7) K := by
  simp only [cc3__mm_kernel_eq_skeleton]; unfold cc3__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.Kernel.R3

end
-- ==== Proof.Kernel.R3.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.Kernel.R3.Run

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem N_pos : 0 < cfg3.N := by decide

/-- The grid point numbered `n` (numbers past the grid wrap around; only numbers inside it are used). -/
def pt (n : ℕ) : Fin cfg3.N := ⟨n % cfg3.N, Nat.mod_lt _ N_pos⟩

theorem pt_val (t : Fin cfg3.N) : pt t.val = t := Fin.ext (Nat.mod_eq_of_lt t.isLt)

/-- The accumulator after point `n`. -/
def accAt (c : Dev nD) : ℕ → Vec F S1024x1024 .f32
  | 0 => accNext (grid3.coords (pt 0)) (k3_pay1 (F := F)) (iblk V c 0 (pt 0)) (iblk V c 1 (pt 0))
  | n + 1 => accNext (grid3.coords (pt (n + 1))) (accAt c n) (iblk V c 0 (pt (n + 1))) (iblk V c 1 (pt (n + 1)))

/-- The finished tile of point `t` (what the body stores at a last step). -/
def outAt (c : Dev nD) (t : Fin cfg3.N) : Vec F S1024x1024 OutTy := k3_pay3 (accAt V c t.val) (iblk V c 2 t)

/-- The first point is a first contraction step. -/
theorem first_zero : isFirst (grid3.coords (pt 0)) := by decide +kernel

/-- Only a last contraction step writes the output tile back. -/
theorem flush_last : ∀ t : Fin cfg3.N, (cfg3.win 3).flush t = true → isLast (grid3.coords t) :=
  (by decide +kernel : ∀ t : Fin grid3.N, win3_3.flush t = true → k3_cond2 (grid3.coords t) = 1#1)

/-- One step of the accumulator from what the scratch holds before point `t`. -/
theorem accAt_step (c : Dev nD) (t : Fin cfg3.N) (f : Vec F S1024x1024 .f32) (hf : t.val ≠ 0 → f = accAt V c (t.val - 1)) :
    accNext (grid3.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid3.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid3.coords (pt (n + 1))) _ _ _
    rw [e]; rfl

/-- The region's invariant before point `t`: the scratch at the accumulator so far, every other scoped buffer that is
    no staging buffer at some contents, the generator register at some state. -/
def inv (c : Dev nD) (t : Fin (cfg3.N + 1)) : sProp 𝕄 :=
  iprop((∃ f : Vec F S1024x1024 .f32, ⌜t.val ≠ 0 → f = accAt V c (t.val - 1)⌝ ∗ owns (c : Thread nD τ) (Memref.whole cc3_scratch0) fullShare f)
    ∗ Pipeline.scopedRestBut (Ix := Unit) (Name := ℕ) (U := UR sig nD τ) (Lvl := ℕ) (Val := Elt F) spec3 c [cc3_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg3.W) : (dat V c).A w = V c (Pipeline.arrRef spec3 w) := by dsimp only [dat]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = outAt V c t := by dsimp only [dat]

/-- An input's staging buffer holds its tile at every point, fetched there or not: the body leaves it in place, and
    where it is not fetched the tile's index has not moved. -/
theorem before0 (c : Dev nD) (t : Fin cfg3.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg3.N) : sProp 𝕄 :=
  match cfg3.idle 3 (cfg3.grid.coords t) with
  | true =>
    match (cfg3.win 3).flush t with
    | false => iprop(∃ d, owns (c : Thread nD τ) ((cfg3.win 3).stage (cfg3.slots t 3)) fullShare ((dat V c).before 3 t d))
    | true => owns (c : Thread nD τ) ((cfg3.win 3).stage (cfg3.slots t 3)) fullShare ((dat V c).after 3 t)
  | false => owns (c : Thread nD τ) ((cfg3.win 3).stage (cfg3.slots t 3)) fullShare ((dat V c).after 3 t)

set_option maxHeartbeats 1600000 in
/-- The body at any point. -/
theorem sound_body (c : Dev nD) (t : Fin cfg3.N) :
    iprop((dat V c).Φ t.castSucc ∗ (dat V c).owesAt () t.castSucc
      ∗ (∃ d, owns (c : Thread nD τ) ((cfg3.win 0).stage (cfg3.slots t 0)) fullShare ((dat V c).before 0 t d))
      ∗ (∃ d, owns (c : Thread nD τ) ((cfg3.win 1).stage (cfg3.slots t 1)) fullShare ((dat V c).before 1 t d))
      ∗ (∃ d, owns (c : Thread nD τ) ((cfg3.win 2).stage (cfg3.slots t 2)) fullShare ((dat V c).before 2 t d))
      ∗ (∃ d, owns (c : Thread nD τ) ((cfg3.win 3).stage (cfg3.slots t 3)) fullShare ((dat V c).before 3 t d)))
    ⊢ wp frame (wpE (defs₀ (F := F)) Variants.none c none) Set.univ (bodyAt3 t) (fun _ =>
        iprop((dat V c).Φ t.succ ∗ (dat V c).owesAt () t.succ
          ∗ owns (c : Thread nD τ) ((cfg3.win 0).stage (cfg3.slots t 0)) fullShare ((dat V c).after 0 t)
          ∗ owns (c : Thread nD τ) ((cfg3.win 1).stage (cfg3.slots t 1)) fullShare ((dat V c).after 1 t)
          ∗ owns (c : Thread nD τ) ((cfg3.win 2).stage (cfg3.slots t 2)) fullShare ((dat V c).after 2 t)
          ∗ post3 V c t)) := by
  unfold bodyAt3
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid3.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid3.coords t)
  · have hidle : cfg3.idle 3 (cfg3.grid.coords t) = false := by
      show (!(k3_cond2 (grid3.coords t) == 1#1)) = false
      rw [hl]; rfl
    rw [hidle, after3]
    unfold outNext; rw [if_pos hl, accAt_step V c t f hf]
    unfold outAt
    iexact H3
  · have hidle : cfg3.idle 3 (cfg3.grid.coords t) = true := by
      show (!(k3_cond2 (grid3.coords t) == 1#1)) = true
      rw [Bool.not_eq_true', beq_eq_false_iff_ne]; exact hl
    have hflush : (cfg3.win 3).flush t = false := by
      cases h : (cfg3.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.R3

end
-- ==== Proof.Kernel.Pdats.lean ====
/-
  The buffers between the items of @main, with each region's output array named.

  @main is five stretches of host operations with the four matmul regions between them. A region changes one
  array, its output; what it leaves there is what its proof data compute from the contents it was entered with
  (the tiles written back, laid over the array). So the contents at every boundary are a function of the launch
  memory alone: after a host stretch, the stretch applied to the contents before it; after a region, the contents
  before it with the output array replaced.
-/
import proofs.«177351_j58944131170770_1_alg».proof.Proof.Kernel.Regions
import proofs.«177351_j58944131170770_1_alg».proof.Proof.Kernel.R0.Data
import proofs.«177351_j58944131170770_1_alg».proof.Proof.Kernel.R1.Data
import proofs.«177351_j58944131170770_1_alg».proof.Proof.Kernel.R2.Data
import proofs.«177351_j58944131170770_1_alg».proof.Proof.Kernel.R3.Data

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What region 0 is entered with: the launch memory after the first host stretch. -/
abbrev X1 (c : Dev nD) : Valuation τ sig (Elt F) := V1 m c
/-- After region 0: its output array at what the region leaves. -/
def X2 (c : Dev nD) : Valuation τ sig (Elt F) :=
  Function.update (X1 m c) main_v3 ((R0.dat (fun c b => X1 m c b) c).arrAt 3 cfg0.N)
/-- What region 1 is entered with. -/
def X3 (c : Dev nD) : Valuation τ sig (Elt F) := StableHlo.after hostOps1 (X2 m c)
/-- After region 1. -/
def X4 (c : Dev nD) : Valuation τ sig (Elt F) :=
  Function.update (X3 m c) main_v6 ((R1.dat (fun c b => X3 m c b) c).arrAt 3 cfg1.N)
/-- What region 2 is entered with. -/
def X5 (c : Dev nD) : Valuation τ sig (Elt F) := StableHlo.after hostOps2 (X4 m c)
/-- After region 2. -/
def X6 (c : Dev nD) : Valuation τ sig (Elt F) :=
  Function.update (X5 m c) main_v15 ((R2.dat (fun c b => X5 m c b) c).arrAt 3 cfg2.N)
/-- What region 3 is entered with. -/
def X7 (c : Dev nD) : Valuation τ sig (Elt F) := StableHlo.after hostOps3 (X6 m c)
/-- After region 3. -/
def X8 (c : Dev nD) : Valuation τ sig (Elt F) :=
  Function.update (X7 m c) main_v18 ((R3.dat (fun c b => X7 m c b) c).arrAt 3 cfg3.N)

/-- The contents the regions leave, as the conditional frame takes them: item by item, the boundary's contents. -/
def outs : Outs (F := F) := fun J r c =>
  match J with
  | 2 => X2 m c r
  | 4 => X4 m c r
  | 6 => X6 m c r
  | _ => X8 m c r

theorem V2_eq (c : Dev nD) : V2 m (outs m) c = X2 m c := by
  show Function.update (V1 m c) main_v3 (X2 m c main_v3) = X2 m c
  unfold X2; rw [Function.update_self]
theorem V3_eq (c : Dev nD) : V3 m (outs m) c = X3 m c := by
  show StableHlo.after hostOps1 (V2 m (outs m) c) = _; rw [V2_eq]; rfl
theorem V4_eq (c : Dev nD) : V4 m (outs m) c = X4 m c := by
  show Function.update (V3 m (outs m) c) main_v6 (X4 m c main_v6) = X4 m c
  rw [V3_eq]; unfold X4; rw [Function.update_self]
theorem V5_eq (c : Dev nD) : V5 m (outs m) c = X5 m c := by
  show StableHlo.after hostOps2 (V4 m (outs m) c) = _; rw [V4_eq]; rfl
theorem V6_eq (c : Dev nD) : V6 m (outs m) c = X6 m c := by
  show Function.update (V5 m (outs m) c) main_v15 (X6 m c main_v15) = X6 m c
  rw [V5_eq]; unfold X6; rw [Function.update_self]
theorem V7_eq (c : Dev nD) : V7 m (outs m) c = X7 m c := by
  show StableHlo.after hostOps3 (V6 m (outs m) c) = _; rw [V6_eq]; rfl
theorem V8_eq (c : Dev nD) : V8 m (outs m) c = X8 m c := by
  show Function.update (V7 m (outs m) c) main_v18 (X8 m c main_v18) = X8 m c
  rw [V7_eq]; unfold X8; rw [Function.update_self]

/-! ## The same, region by region: what region K is entered with, what it leaves, and that it changes one array -/

abbrev Xin0 (c : Dev nD) : Valuation τ sig (Elt F) := X1 m c
abbrev Xout0 (c : Dev nD) : Valuation τ sig (Elt F) := X2 m c
theorem entry_eq0 (c : Dev nD) : V1 m c = Xin0 m c := rfl
theorem exit_eq0 (c : Dev nD) : V2 m (outs m) c = Xout0 m c := V2_eq m c
theorem exit_of0 (c : Dev nD) (r : Ref sig .tc) (h : r ∉ ([main_v3] : List (Ref sig .tc))) : Xout0 m c r = Xin0 m c r := by
  rw [← exit_eq0, ← entry_eq0]; exact V2_of m (outs m) c r h
theorem exit_self0 (c : Dev nD) : Xout0 m c main_v3 = (R0.dat (fun c b => Xin0 m c b) c).arrAt 3 cfg0.N := by
  show X2 m c main_v3 = _; unfold X2; rw [Function.update_self]

abbrev Xin1 (c : Dev nD) : Valuation τ sig (Elt F) := X3 m c
abbrev Xout1 (c : Dev nD) : Valuation τ sig (Elt F) := X4 m c
theorem entry_eq1 (c : Dev nD) : V3 m (outs m) c = Xin1 m c := V3_eq m c
theorem exit_eq1 (c : Dev nD) : V4 m (outs m) c = Xout1 m c := V4_eq m c
theorem exit_of1 (c : Dev nD) (r : Ref sig .tc) (h : r ∉ ([main_v6] : List (Ref sig .tc))) : Xout1 m c r = Xin1 m c r := by
  rw [← exit_eq1, ← entry_eq1]; exact V4_of m (outs m) c r h
theorem exit_self1 (c : Dev nD) : Xout1 m c main_v6 = (R1.dat (fun c b => Xin1 m c b) c).arrAt 3 cfg1.N := by
  show X4 m c main_v6 = _; unfold X4; rw [Function.update_self]

abbrev Xin2 (c : Dev nD) : Valuation τ sig (Elt F) := X5 m c
abbrev Xout2 (c : Dev nD) : Valuation τ sig (Elt F) := X6 m c
theorem entry_eq2 (c : Dev nD) : V5 m (outs m) c = Xin2 m c := V5_eq m c
theorem exit_eq2 (c : Dev nD) : V6 m (outs m) c = Xout2 m c := V6_eq m c
theorem exit_of2 (c : Dev nD) (r : Ref sig .tc) (h : r ∉ ([main_v15] : List (Ref sig .tc))) : Xout2 m c r = Xin2 m c r := by
  rw [← exit_eq2, ← entry_eq2]; exact V6_of m (outs m) c r h
theorem exit_self2 (c : Dev nD) : Xout2 m c main_v15 = (R2.dat (fun c b => Xin2 m c b) c).arrAt 3 cfg2.N := by
  show X6 m c main_v15 = _; unfold X6; rw [Function.update_self]

abbrev Xin3 (c : Dev nD) : Valuation τ sig (Elt F) := X7 m c
abbrev Xout3 (c : Dev nD) : Valuation τ sig (Elt F) := X8 m c
theorem entry_eq3 (c : Dev nD) : V7 m (outs m) c = Xin3 m c := V7_eq m c
theorem exit_eq3 (c : Dev nD) : V8 m (outs m) c = Xout3 m c := V8_eq m c
theorem exit_of3 (c : Dev nD) (r : Ref sig .tc) (h : r ∉ ([main_v18] : List (Ref sig .tc))) : Xout3 m c r = Xin3 m c r := by
  rw [← exit_eq3, ← entry_eq3]; exact V8_of m (outs m) c r h
theorem exit_self3 (c : Dev nD) : Xout3 m c main_v18 = (R3.dat (fun c b => Xin3 m c b) c).arrAt 3 cfg3.N := by
  show X8 m c main_v18 = _; unfold X8; rw [Function.update_self]

/-- Every region's proof data, each at the contents its region is entered with. -/
def pdats : (p : Fin 4) → (c : Dev nD) → Dat τ (Elt F) Unit ℕ (UR sig nD τ) ℕ (Pipeline.pin (pcfgs (F := F)) adm p) c
  | ⟨0, _⟩ => fun c => R0.dat (fun c b => Xin0 m c b) c
  | ⟨1, _⟩ => fun c => R1.dat (fun c b => Xin1 m c b) c
  | ⟨2, _⟩ => fun c => R2.dat (fun c b => Xin2 m c b) c
  | ⟨3, _⟩ => fun c => R3.dat (fun c b => Xin3 m c b) c

/-- No level is assigned: no core owes another anything. -/
abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev Rst (c : Dev nD) : sProp 𝕄 :=
  iprop((∃ r, prngReg c r) ∗ ∃ W, owes (c : Thread nD τ) (0 : CellTallies nD τ sig Unit) W)

end Cert.Kernel.Whole

end
-- ==== Proof.Kernel.Reg0.lean ====
/-
  Region 0 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.Kernel.Pdats
import Idealize.ShloMosaic.Lib.Pipeline.RegionsLoop
import Idealize.ShloMosaic.Lib.Pipeline.FrameBody

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin0 (c : Dev nD) (b : Ref sig .tc) : Buf (Elt F) ((c : Thread nD τ).loc b) := Xin0 m c b
abbrev xout0 (c : Dev nD) (b : Ref sig .tc) : Buf (Elt F) ((c : Thread nD τ).loc b) := Xout0 m c b

/-- At the exit each of the region's arrays holds what the pipeline leaves: an input what it held, the output the
    tiles written back. -/
theorem exitF0 (c : Dev nD) (w : Fin cfg0.W) : (pdats m (0 : Fin 4) c).arrAt w cfg0.N = xout0 m c (Pipeline.arrRef spec0 w) :=
  match w with
  | ⟨0, _⟩ => ((pdats m (0 : Fin 4) c).arrAt_in 0 rfl _).trans
      (show (pdats m (0 : Fin 4) c).A 0 = xout0 m c (Pipeline.arrRef spec0 0) from (exit_of0 m c (Pipeline.arrRef spec0 0) (by decide)).symm)
  | ⟨1, _⟩ => ((pdats m (0 : Fin 4) c).arrAt_in 1 rfl _).trans
      (show (pdats m (0 : Fin 4) c).A 1 = xout0 m c (Pipeline.arrRef spec0 1) from (exit_of0 m c (Pipeline.arrRef spec0 1) (by decide)).symm)
  | ⟨2, _⟩ => ((pdats m (0 : Fin 4) c).arrAt_in 2 rfl _).trans
      (show (pdats m (0 : Fin 4) c).A 2 = xout0 m c (Pipeline.arrRef spec0 2) from (exit_of0 m c (Pipeline.arrRef spec0 2) (by decide)).symm)
  | ⟨3, _⟩ => (exit_self0 m c).symm

/-- Every other unscoped buffer holds what it held. -/
theorem exitRest0 (c : Dev nD) : ∀ b, b ∉ Finset.univ.image (Pipeline.arrRef spec0) → xout0 m c b = xin0 m c b :=
  fun b hb => exit_of0 m c b fun h => hb (by
    rw [List.mem_singleton] at h; subst h
    exact Finset.mem_image.mpr ⟨3, Finset.mem_univ _, rfl⟩)

set_option backward.isDefEq.respectTransparency.types false in
/-- The region's record. -/
def reg0 : Pipeline.RegionSeg (pcfgs (F := F)) adm (pdats m) () defs₀ 𝒱₀ L lv (0 : Fin 4) where
  win := launch0.win.to₀
  block_pos := launch0.block_pos
  stage_whole := launch0.stage_whole
  K := PEmpty
  osem k := k.elim
  ho := Pipeline.OwnSemFacts.none _
  hbody c := (R0.body_obligation (fun c b => Xin0 m c b) c).loose
  hwaits := Pipeline.hwaits_of_owed_zero _ _ _ _ L lv (0 : Fin 4) fun _ _ => rfl
  pre c := iprop(StableHlo.held (c : Thread nD τ) (Pipeline.ucRefs τ sig) (Xin0 m c) ∗ Rst c)
  post c := iprop(StableHlo.held (c : Thread nD τ) (Pipeline.ucRefs τ sig) (Xout0 m c) ∗ Rst c)
  X c := iprop(∃ r, prngReg c r)
  Y c := iprop(∃ r, prngReg c r)
  Z c := Pipeline.unscopedRest (Ix := Unit) (Name := ℕ) (U := UR sig nD τ) (Lvl := ℕ) spec0 c (xin0 m c)
  hentry c := by
    rw [Pipeline.ownSems0_none]
    have hsplit := Pipeline.arrays_of_unscopedBufs (p := (0 : Fin 4)) (pcfgs (F := F)) adm (pdats m) launch0.win launch0.arr_whole c
      ((pdats m (0 : Fin 4) c).share_full fun _ => rfl) (xin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest0_split (Ix := Unit) (Val := Elt F) (Name := ℕ) (U := UR sig nD τ) (Lvl := ℕ) c
    rw [show (pdats m (0 : Fin 4) c).Φ 0 = R0.inv (fun c b => Xin0 m c b) c 0 from rfl,
      show (Pipeline.scopedRest (Pipeline.pin (pcfgs (F := F)) adm (0 : Fin 4)).spec c : sProp 𝕄) = _ from hs]
    unfold R0.inv
    iintro ⟨Hp, -, ⟨%f, Hs⟩, Hr⟩
    isplitl [Hs]
    · iexists f; isplitr; · ipureintro; intro h; exact absurd rfl h
      iapply (Entails.of_eq (owns_whole (c : Thread nD τ) cc0_scratch0 fullShare f).symm)
      iexact Hs
    isplitl [Hr]; · iexact Hr
    iexact Hp
  hout c := by
    have hs := scopedRest0_split (Ix := Unit) (Val := Elt F) (Name := ℕ) (U := UR sig nD τ) (Lvl := ℕ) c
    rw [Pipeline.ownSems0_none, show (pdats m (0 : Fin 4) c).Φ (Fin.last _) = R0.inv (fun c b => Xin0 m c b) c (Fin.last _) from rfl,
      show (Pipeline.scopedRest (Pipeline.pin (pcfgs (F := F)) adm (0 : Fin 4)).spec c : sProp 𝕄) = _ from hs]
    unfold R0.inv
    iintro ⟨⟨%f, -, Hs⟩, Hr, Hp⟩
    isplitl [Hp]; · iexact Hp
    isplitr; · iempintro
    isplitl [Hs]
    · iexists f
      iapply (Entails.of_eq (owns_whole (c : Thread nD τ) cc0_scratch0 fullShare f))
      iexact Hs
    iexact Hr
  hexit c := by
    have hjoin := Pipeline.unscopedBufs_of_arrays (p := (0 : Fin 4)) (pcfgs (F := F)) adm (Ix := Unit) (Name := ℕ) (U := UR sig nD τ) (Lvl := ℕ)
      launch0.win launch0.arr_whole c (pdats m) ((pdats m (0 : Fin 4) c).share_full fun _ => rfl)
      (xin0 m c) (xout0 m c) ((pdats m (0 : Fin 4) c).arrAt · cfg0.N) (exitF0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.Kernel.Reg1.lean ====
/-
  Region 1 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.Kernel.Pdats
import Idealize.ShloMosaic.Lib.Pipeline.RegionsLoop
import Idealize.ShloMosaic.Lib.Pipeline.FrameBody

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin1 (c : Dev nD) (b : Ref sig .tc) : Buf (Elt F) ((c : Thread nD τ).loc b) := Xin1 m c b
abbrev xout1 (c : Dev nD) (b : Ref sig .tc) : Buf (Elt F) ((c : Thread nD τ).loc b) := Xout1 m c b

/-- At the exit each of the region's arrays holds what the pipeline leaves: an input what it held, the output the
    tiles written back. -/
theorem exitF1 (c : Dev nD) (w : Fin cfg1.W) : (pdats m (1 : Fin 4) c).arrAt w cfg1.N = xout1 m c (Pipeline.arrRef spec1 w) :=
  match w with
  | ⟨0, _⟩ => ((pdats m (1 : Fin 4) c).arrAt_in 0 rfl _).trans
      (show (pdats m (1 : Fin 4) c).A 0 = xout1 m c (Pipeline.arrRef spec1 0) from (exit_of1 m c (Pipeline.arrRef spec1 0) (by decide)).symm)
  | ⟨1, _⟩ => ((pdats m (1 : Fin 4) c).arrAt_in 1 rfl _).trans
      (show (pdats m (1 : Fin 4) c).A 1 = xout1 m c (Pipeline.arrRef spec1 1) from (exit_of1 m c (Pipeline.arrRef spec1 1) (by decide)).symm)
  | ⟨2, _⟩ => ((pdats m (1 : Fin 4) c).arrAt_in 2 rfl _).trans
      (show (pdats m (1 : Fin 4) c).A 2 = xout1 m c (Pipeline.arrRef spec1 2) from (exit_of1 m c (Pipeline.arrRef spec1 2) (by decide)).symm)
  | ⟨3, _⟩ => (exit_self1 m c).symm

/-- Every other unscoped buffer holds what it held. -/
theorem exitRest1 (c : Dev nD) : ∀ b, b ∉ Finset.univ.image (Pipeline.arrRef spec1) → xout1 m c b = xin1 m c b :=
  fun b hb => exit_of1 m c b fun h => hb (by
    rw [List.mem_singleton] at h; subst h
    exact Finset.mem_image.mpr ⟨3, Finset.mem_univ _, rfl⟩)

set_option backward.isDefEq.respectTransparency.types false in
/-- The region's record. -/
def reg1 : Pipeline.RegionSeg (pcfgs (F := F)) adm (pdats m) () defs₀ 𝒱₀ L lv (1 : Fin 4) where
  win := launch1.win.to₀
  block_pos := launch1.block_pos
  stage_whole := launch1.stage_whole
  K := PEmpty
  osem k := k.elim
  ho := Pipeline.OwnSemFacts.none _
  hbody c := (R1.body_obligation (fun c b => Xin1 m c b) c).loose
  hwaits := Pipeline.hwaits_of_owed_zero _ _ _ _ L lv (1 : Fin 4) fun _ _ => rfl
  pre c := iprop(StableHlo.held (c : Thread nD τ) (Pipeline.ucRefs τ sig) (Xin1 m c) ∗ Rst c)
  post c := iprop(StableHlo.held (c : Thread nD τ) (Pipeline.ucRefs τ sig) (Xout1 m c) ∗ Rst c)
  X c := iprop(∃ r, prngReg c r)
  Y c := iprop(∃ r, prngReg c r)
  Z c := Pipeline.unscopedRest (Ix := Unit) (Name := ℕ) (U := UR sig nD τ) (Lvl := ℕ) spec1 c (xin1 m c)
  hentry c := by
    rw [Pipeline.ownSems0_none]
    have hsplit := Pipeline.arrays_of_unscopedBufs (p := (1 : Fin 4)) (pcfgs (F := F)) adm (pdats m) launch1.win launch1.arr_whole c
      ((pdats m (1 : Fin 4) c).share_full fun _ => rfl) (xin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest1_split (Ix := Unit) (Val := Elt F) (Name := ℕ) (U := UR sig nD τ) (Lvl := ℕ) c
    rw [show (pdats m (1 : Fin 4) c).Φ 0 = R1.inv (fun c b => Xin1 m c b) c 0 from rfl,
      show (Pipeline.scopedRest (Pipeline.pin (pcfgs (F := F)) adm (1 : Fin 4)).spec c : sProp 𝕄) = _ from hs]
    unfold R1.inv
    iintro ⟨Hp, -, ⟨%f, Hs⟩, Hr⟩
    isplitl [Hs]
    · iexists f; isplitr; · ipureintro; intro h; exact absurd rfl h
      iapply (Entails.of_eq (owns_whole (c : Thread nD τ) cc1_scratch0 fullShare f).symm)
      iexact Hs
    isplitl [Hr]; · iexact Hr
    iexact Hp
  hout c := by
    have hs := scopedRest1_split (Ix := Unit) (Val := Elt F) (Name := ℕ) (U := UR sig nD τ) (Lvl := ℕ) c
    rw [Pipeline.ownSems0_none, show (pdats m (1 : Fin 4) c).Φ (Fin.last _) = R1.inv (fun c b => Xin1 m c b) c (Fin.last _) from rfl,
      show (Pipeline.scopedRest (Pipeline.pin (pcfgs (F := F)) adm (1 : Fin 4)).spec c : sProp 𝕄) = _ from hs]
    unfold R1.inv
    iintro ⟨⟨%f, -, Hs⟩, Hr, Hp⟩
    isplitl [Hp]; · iexact Hp
    isplitr; · iempintro
    isplitl [Hs]
    · iexists f
      iapply (Entails.of_eq (owns_whole (c : Thread nD τ) cc1_scratch0 fullShare f))
      iexact Hs
    iexact Hr
  hexit c := by
    have hjoin := Pipeline.unscopedBufs_of_arrays (p := (1 : Fin 4)) (pcfgs (F := F)) adm (Ix := Unit) (Name := ℕ) (U := UR sig nD τ) (Lvl := ℕ)
      launch1.win launch1.arr_whole c (pdats m) ((pdats m (1 : Fin 4) c).share_full fun _ => rfl)
      (xin1 m c) (xout1 m c) ((pdats m (1 : Fin 4) c).arrAt · cfg1.N) (exitF1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.Kernel.Reg2.lean ====
/-
  Region 2 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.Kernel.Pdats
import Idealize.ShloMosaic.Lib.Pipeline.RegionsLoop
import Idealize.ShloMosaic.Lib.Pipeline.FrameBody

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin2 (c : Dev nD) (b : Ref sig .tc) : Buf (Elt F) ((c : Thread nD τ).loc b) := Xin2 m c b
abbrev xout2 (c : Dev nD) (b : Ref sig .tc) : Buf (Elt F) ((c : Thread nD τ).loc b) := Xout2 m c b

/-- At the exit each of the region's arrays holds what the pipeline leaves: an input what it held, the output the
    tiles written back. -/
theorem exitF2 (c : Dev nD) (w : Fin cfg2.W) : (pdats m (2 : Fin 4) c).arrAt w cfg2.N = xout2 m c (Pipeline.arrRef spec2 w) :=
  match w with
  | ⟨0, _⟩ => ((pdats m (2 : Fin 4) c).arrAt_in 0 rfl _).trans
      (show (pdats m (2 : Fin 4) c).A 0 = xout2 m c (Pipeline.arrRef spec2 0) from (exit_of2 m c (Pipeline.arrRef spec2 0) (by decide)).symm)
  | ⟨1, _⟩ => ((pdats m (2 : Fin 4) c).arrAt_in 1 rfl _).trans
      (show (pdats m (2 : Fin 4) c).A 1 = xout2 m c (Pipeline.arrRef spec2 1) from (exit_of2 m c (Pipeline.arrRef spec2 1) (by decide)).symm)
  | ⟨2, _⟩ => ((pdats m (2 : Fin 4) c).arrAt_in 2 rfl _).trans
      (show (pdats m (2 : Fin 4) c).A 2 = xout2 m c (Pipeline.arrRef spec2 2) from (exit_of2 m c (Pipeline.arrRef spec2 2) (by decide)).symm)
  | ⟨3, _⟩ => (exit_self2 m c).symm

/-- Every other unscoped buffer holds what it held. -/
theorem exitRest2 (c : Dev nD) : ∀ b, b ∉ Finset.univ.image (Pipeline.arrRef spec2) → xout2 m c b = xin2 m c b :=
  fun b hb => exit_of2 m c b fun h => hb (by
    rw [List.mem_singleton] at h; subst h
    exact Finset.mem_image.mpr ⟨3, Finset.mem_univ _, rfl⟩)

set_option backward.isDefEq.respectTransparency.types false in
/-- The region's record. -/
def reg2 : Pipeline.RegionSeg (pcfgs (F := F)) adm (pdats m) () defs₀ 𝒱₀ L lv (2 : Fin 4) where
  win := launch2.win.to₀
  block_pos := launch2.block_pos
  stage_whole := launch2.stage_whole
  K := PEmpty
  osem k := k.elim
  ho := Pipeline.OwnSemFacts.none _
  hbody c := (R2.body_obligation (fun c b => Xin2 m c b) c).loose
  hwaits := Pipeline.hwaits_of_owed_zero _ _ _ _ L lv (2 : Fin 4) fun _ _ => rfl
  pre c := iprop(StableHlo.held (c : Thread nD τ) (Pipeline.ucRefs τ sig) (Xin2 m c) ∗ Rst c)
  post c := iprop(StableHlo.held (c : Thread nD τ) (Pipeline.ucRefs τ sig) (Xout2 m c) ∗ Rst c)
  X c := iprop(∃ r, prngReg c r)
  Y c := iprop(∃ r, prngReg c r)
  Z c := Pipeline.unscopedRest (Ix := Unit) (Name := ℕ) (U := UR sig nD τ) (Lvl := ℕ) spec2 c (xin2 m c)
  hentry c := by
    rw [Pipeline.ownSems0_none]
    have hsplit := Pipeline.arrays_of_unscopedBufs (p := (2 : Fin 4)) (pcfgs (F := F)) adm (pdats m) launch2.win launch2.arr_whole c
      ((pdats m (2 : Fin 4) c).share_full fun _ => rfl) (xin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest2_split (Ix := Unit) (Val := Elt F) (Name := ℕ) (U := UR sig nD τ) (Lvl := ℕ) c
    rw [show (pdats m (2 : Fin 4) c).Φ 0 = R2.inv (fun c b => Xin2 m c b) c 0 from rfl,
      show (Pipeline.scopedRest (Pipeline.pin (pcfgs (F := F)) adm (2 : Fin 4)).spec c : sProp 𝕄) = _ from hs]
    unfold R2.inv
    iintro ⟨Hp, -, ⟨%f, Hs⟩, Hr⟩
    isplitl [Hs]
    · iexists f; isplitr; · ipureintro; intro h; exact absurd rfl h
      iapply (Entails.of_eq (owns_whole (c : Thread nD τ) cc2_scratch0 fullShare f).symm)
      iexact Hs
    isplitl [Hr]; · iexact Hr
    iexact Hp
  hout c := by
    have hs := scopedRest2_split (Ix := Unit) (Val := Elt F) (Name := ℕ) (U := UR sig nD τ) (Lvl := ℕ) c
    rw [Pipeline.ownSems0_none, show (pdats m (2 : Fin 4) c).Φ (Fin.last _) = R2.inv (fun c b => Xin2 m c b) c (Fin.last _) from rfl,
      show (Pipeline.scopedRest (Pipeline.pin (pcfgs (F := F)) adm (2 : Fin 4)).spec c : sProp 𝕄) = _ from hs]
    unfold R2.inv
    iintro ⟨⟨%f, -, Hs⟩, Hr, Hp⟩
    isplitl [Hp]; · iexact Hp
    isplitr; · iempintro
    isplitl [Hs]
    · iexists f
      iapply (Entails.of_eq (owns_whole (c : Thread nD τ) cc2_scratch0 fullShare f))
      iexact Hs
    iexact Hr
  hexit c := by
    have hjoin := Pipeline.unscopedBufs_of_arrays (p := (2 : Fin 4)) (pcfgs (F := F)) adm (Ix := Unit) (Name := ℕ) (U := UR sig nD τ) (Lvl := ℕ)
      launch2.win launch2.arr_whole c (pdats m) ((pdats m (2 : Fin 4) c).share_full fun _ => rfl)
      (xin2 m c) (xout2 m c) ((pdats m (2 : Fin 4) c).arrAt · cfg2.N) (exitF2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.Kernel.Reg3.lean ====
/-
  Region 3 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.Kernel.Pdats
import Idealize.ShloMosaic.Lib.Pipeline.RegionsLoop
import Idealize.ShloMosaic.Lib.Pipeline.FrameBody

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin3 (c : Dev nD) (b : Ref sig .tc) : Buf (Elt F) ((c : Thread nD τ).loc b) := Xin3 m c b
abbrev xout3 (c : Dev nD) (b : Ref sig .tc) : Buf (Elt F) ((c : Thread nD τ).loc b) := Xout3 m c b

/-- At the exit each of the region's arrays holds what the pipeline leaves: an input what it held, the output the
    tiles written back. -/
theorem exitF3 (c : Dev nD) (w : Fin cfg3.W) : (pdats m (3 : Fin 4) c).arrAt w cfg3.N = xout3 m c (Pipeline.arrRef spec3 w) :=
  match w with
  | ⟨0, _⟩ => ((pdats m (3 : Fin 4) c).arrAt_in 0 rfl _).trans
      (show (pdats m (3 : Fin 4) c).A 0 = xout3 m c (Pipeline.arrRef spec3 0) from (exit_of3 m c (Pipeline.arrRef spec3 0) (by decide)).symm)
  | ⟨1, _⟩ => ((pdats m (3 : Fin 4) c).arrAt_in 1 rfl _).trans
      (show (pdats m (3 : Fin 4) c).A 1 = xout3 m c (Pipeline.arrRef spec3 1) from (exit_of3 m c (Pipeline.arrRef spec3 1) (by decide)).symm)
  | ⟨2, _⟩ => ((pdats m (3 : Fin 4) c).arrAt_in 2 rfl _).trans
      (show (pdats m (3 : Fin 4) c).A 2 = xout3 m c (Pipeline.arrRef spec3 2) from (exit_of3 m c (Pipeline.arrRef spec3 2) (by decide)).symm)
  | ⟨3, _⟩ => (exit_self3 m c).symm

/-- Every other unscoped buffer holds what it held. -/
theorem exitRest3 (c : Dev nD) : ∀ b, b ∉ Finset.univ.image (Pipeline.arrRef spec3) → xout3 m c b = xin3 m c b :=
  fun b hb => exit_of3 m c b fun h => hb (by
    rw [List.mem_singleton] at h; subst h
    exact Finset.mem_image.mpr ⟨3, Finset.mem_univ _, rfl⟩)

set_option backward.isDefEq.respectTransparency.types false in
/-- The region's record. -/
def reg3 : Pipeline.RegionSeg (pcfgs (F := F)) adm (pdats m) () defs₀ 𝒱₀ L lv (3 : Fin 4) where
  win := launch3.win.to₀
  block_pos := launch3.block_pos
  stage_whole := launch3.stage_whole
  K := PEmpty
  osem k := k.elim
  ho := Pipeline.OwnSemFacts.none _
  hbody c := (R3.body_obligation (fun c b => Xin3 m c b) c).loose
  hwaits := Pipeline.hwaits_of_owed_zero _ _ _ _ L lv (3 : Fin 4) fun _ _ => rfl
  pre c := iprop(StableHlo.held (c : Thread nD τ) (Pipeline.ucRefs τ sig) (Xin3 m c) ∗ Rst c)
  post c := iprop(StableHlo.held (c : Thread nD τ) (Pipeline.ucRefs τ sig) (Xout3 m c) ∗ Rst c)
  X c := iprop(∃ r, prngReg c r)
  Y c := iprop(∃ r, prngReg c r)
  Z c := Pipeline.unscopedRest (Ix := Unit) (Name := ℕ) (U := UR sig nD τ) (Lvl := ℕ) spec3 c (xin3 m c)
  hentry c := by
    rw [Pipeline.ownSems0_none]
    have hsplit := Pipeline.arrays_of_unscopedBufs (p := (3 : Fin 4)) (pcfgs (F := F)) adm (pdats m) launch3.win launch3.arr_whole c
      ((pdats m (3 : Fin 4) c).share_full fun _ => rfl) (xin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest3_split (Ix := Unit) (Val := Elt F) (Name := ℕ) (U := UR sig nD τ) (Lvl := ℕ) c
    rw [show (pdats m (3 : Fin 4) c).Φ 0 = R3.inv (fun c b => Xin3 m c b) c 0 from rfl,
      show (Pipeline.scopedRest (Pipeline.pin (pcfgs (F := F)) adm (3 : Fin 4)).spec c : sProp 𝕄) = _ from hs]
    unfold R3.inv
    iintro ⟨Hp, -, ⟨%f, Hs⟩, Hr⟩
    isplitl [Hs]
    · iexists f; isplitr; · ipureintro; intro h; exact absurd rfl h
      iapply (Entails.of_eq (owns_whole (c : Thread nD τ) cc3_scratch0 fullShare f).symm)
      iexact Hs
    isplitl [Hr]; · iexact Hr
    iexact Hp
  hout c := by
    have hs := scopedRest3_split (Ix := Unit) (Val := Elt F) (Name := ℕ) (U := UR sig nD τ) (Lvl := ℕ) c
    rw [Pipeline.ownSems0_none, show (pdats m (3 : Fin 4) c).Φ (Fin.last _) = R3.inv (fun c b => Xin3 m c b) c (Fin.last _) from rfl,
      show (Pipeline.scopedRest (Pipeline.pin (pcfgs (F := F)) adm (3 : Fin 4)).spec c : sProp 𝕄) = _ from hs]
    unfold R3.inv
    iintro ⟨⟨%f, -, Hs⟩, Hr, Hp⟩
    isplitl [Hp]; · iexact Hp
    isplitr; · iempintro
    isplitl [Hs]
    · iexists f
      iapply (Entails.of_eq (owns_whole (c : Thread nD τ) cc3_scratch0 fullShare f))
      iexact Hs
    iexact Hr
  hexit c := by
    have hjoin := Pipeline.unscopedBufs_of_arrays (p := (3 : Fin 4)) (pcfgs (F := F)) adm (Ix := Unit) (Name := ℕ) (U := UR sig nD τ) (Lvl := ℕ)
      launch3.win launch3.arr_whole c (pdats m) ((pdats m (3 : Fin 4) c).share_full fun _ => rfl)
      (xin3 m c) (xout3 m c) ((pdats m (3 : Fin 4) c).arrAt · cfg3.N) (exitF3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.Kernel.Frame.lean ====
/-
  The frame: @main runs to the end, faults nowhere, and leaves its ten argument arrays as launched.

  The conditional frame of the program asks, per region, for a record entered from the contents before the region
  and left at the contents after it; the four records are the regions' own. Beside the buffers every item carries
  the generator register and the core owing nothing; the launch makes that state on every core, and it ends owing
  nothing.
-/
import proofs.«177351_j58944131170770_1_alg».proof.Proof.Kernel.Reg0
import proofs.«177351_j58944131170770_1_alg».proof.Proof.Kernel.Reg1
import proofs.«177351_j58944131170770_1_alg».proof.Proof.Kernel.Reg2
import proofs.«177351_j58944131170770_1_alg».proof.Proof.Kernel.Reg3

set_option maxRecDepth 16384

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state: the staging cells' invariants and the launch tokens, nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes, on every core, the state that rides beside the buffers. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rst (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := launch_ghost)
    (E := fun _ c => Rst c) (hE0 := launch_rest ρ)
    (hE4 := fun c => by iintro ⟨-, H⟩; iexact H)
    (R0 := reg0 m) (hpre0 := fun c => by rw [entry_eq0]; exact .rfl) (hpost0 := fun c => by rw [exit_eq0]; exact .rfl)
    (R1 := reg1 m) (hpre1 := fun c => by rw [entry_eq1]; exact .rfl) (hpost1 := fun c => by rw [exit_eq1]; exact .rfl)
    (R2 := reg2 m) (hpre2 := fun c => by rw [entry_eq2]; exact .rfl) (hpost2 := fun c => by rw [exit_eq2]; exact .rfl)
    (R3 := reg3 m) (hpre3 := fun c => by rw [entry_eq3]; exact .rfl) (hpost3 := fun c => by rw [exit_eq3]; exact .rfl)

end Cert.Kernel.Whole

end
-- ==== Proof.KernelIdeal.R0.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.KernelIdeal.Launch
import proofs.«177351_j58944131170770_1_alg».proof.Proof.Gen.KernelIdeal.Skeleton
import proofs.«177351_j58944131170770_1_alg».proof.Proof.Gen.KernelIdeal.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The element type of the region's output tile. -/
abbrev OutTy : EltTy := .bf16

/-- The point is a first step of the contraction axis: the body's first branch condition, as printed. -/
abbrev isFirst (i : grid0.Coords) : Prop :=
  Scalar.cmpi .ne (Scalar.extui (Scalar.cmpi .eq (BitVec.ofNat 32 (i 2).val) 0#32)) 0#32 = 1#1

/-- The point is a last step: the body's second branch condition. -/
abbrev isLast (i : grid0.Coords) : Prop := k0_cond2 i = 1#1

/-- The accumulator after the point: the tile product added to zero (first step) or to what was there. -/
def accNext (i : grid0.Coords) (acc : Vec F S1024x1024 .f32) (a b : Vec F S1024x1024 .bf16) : Vec F S1024x1024 .f32 :=
  k0_pay2 (if isFirst i then k0_pay1 (F := F) else acc) a b

/-- The output tile after the point: finished at a last step, else as it was. -/
def outNext (i : grid0.Coords) (acc : Vec F S1024x1024 .f32) (a b : Vec F S1024x1024 .bf16) (bias : Vec F S1x1024 .f32)
    (o : Vec F S1024x1024 OutTy) : Vec F S1024x1024 OutTy :=
  if isLast i then k0_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc0__mm_kernel i a3 h3 a4 h4 a5 h5 a6 h6 a7 h7) K := by
  simp only [cc0__mm_kernel_eq_skeleton]; unfold cc0__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.KernelIdeal.R0

end
-- ==== Proof.KernelIdeal.R0.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.KernelIdeal.R0.Run

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem N_pos : 0 < cfg0.N := by decide

/-- The grid point numbered `n` (numbers past the grid wrap around; only numbers inside it are used). -/
def pt (n : ℕ) : Fin cfg0.N := ⟨n % cfg0.N, Nat.mod_lt _ N_pos⟩

theorem pt_val (t : Fin cfg0.N) : pt t.val = t := Fin.ext (Nat.mod_eq_of_lt t.isLt)

/-- The accumulator after point `n`. -/
def accAt (c : Dev nD) : ℕ → Vec F S1024x1024 .f32
  | 0 => accNext (grid0.coords (pt 0)) (k0_pay1 (F := F)) (iblk V c 0 (pt 0)) (iblk V c 1 (pt 0))
  | n + 1 => accNext (grid0.coords (pt (n + 1))) (accAt c n) (iblk V c 0 (pt (n + 1))) (iblk V c 1 (pt (n + 1)))

/-- The finished tile of point `t` (what the body stores at a last step). -/
def outAt (c : Dev nD) (t : Fin cfg0.N) : Vec F S1024x1024 OutTy := k0_pay3 (accAt V c t.val) (iblk V c 2 t)

/-- The first point is a first contraction step. -/
theorem first_zero : isFirst (grid0.coords (pt 0)) := by decide +kernel

/-- Only a last contraction step writes the output tile back. -/
theorem flush_last : ∀ t : Fin cfg0.N, (cfg0.win 3).flush t = true → isLast (grid0.coords t) :=
  (by decide +kernel : ∀ t : Fin grid0.N, win0_3.flush t = true → k0_cond2 (grid0.coords t) = 1#1)

/-- One step of the accumulator from what the scratch holds before point `t`. -/
theorem accAt_step (c : Dev nD) (t : Fin cfg0.N) (f : Vec F S1024x1024 .f32) (hf : t.val ≠ 0 → f = accAt V c (t.val - 1)) :
    accNext (grid0.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid0.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid0.coords (pt (n + 1))) _ _ _
    rw [e]; rfl

/-- The region's invariant before point `t`: the scratch at the accumulator so far, every other scoped buffer that is
    no staging buffer at some contents, the generator register at some state. -/
def inv (c : Dev nD) (t : Fin (cfg0.N + 1)) : sProp 𝕄 :=
  iprop((∃ f : Vec F S1024x1024 .f32, ⌜t.val ≠ 0 → f = accAt V c (t.val - 1)⌝ ∗ owns (c : Thread nD τ) (Memref.whole cc0_scratch0) fullShare f)
    ∗ Pipeline.scopedRestBut (Ix := Unit) (Name := ℕ) (U := UR sig nD τ) (Lvl := ℕ) (Val := Elt F) spec0 c [cc0_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

/-- An input's staging buffer holds its tile at every point, fetched there or not: the body leaves it in place, and
    where it is not fetched the tile's index has not moved. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg0.N) : sProp 𝕄 :=
  match cfg0.idle 3 (cfg0.grid.coords t) with
  | true =>
    match (cfg0.win 3).flush t with
    | false => iprop(∃ d, owns (c : Thread nD τ) ((cfg0.win 3).stage (cfg0.slots t 3)) fullShare ((dat V c).before 3 t d))
    | true => owns (c : Thread nD τ) ((cfg0.win 3).stage (cfg0.slots t 3)) fullShare ((dat V c).after 3 t)
  | false => owns (c : Thread nD τ) ((cfg0.win 3).stage (cfg0.slots t 3)) fullShare ((dat V c).after 3 t)

set_option maxHeartbeats 1600000 in
/-- The body at any point. -/
theorem sound_body (c : Dev nD) (t : Fin cfg0.N) :
    iprop((dat V c).Φ t.castSucc ∗ (dat V c).owesAt () t.castSucc
      ∗ (∃ d, owns (c : Thread nD τ) ((cfg0.win 0).stage (cfg0.slots t 0)) fullShare ((dat V c).before 0 t d))
      ∗ (∃ d, owns (c : Thread nD τ) ((cfg0.win 1).stage (cfg0.slots t 1)) fullShare ((dat V c).before 1 t d))
      ∗ (∃ d, owns (c : Thread nD τ) ((cfg0.win 2).stage (cfg0.slots t 2)) fullShare ((dat V c).before 2 t d))
      ∗ (∃ d, owns (c : Thread nD τ) ((cfg0.win 3).stage (cfg0.slots t 3)) fullShare ((dat V c).before 3 t d)))
    ⊢ wp frame (wpE (defs₀ (F := F)) Variants.none c none) Set.univ (bodyAt0 t) (fun _ =>
        iprop((dat V c).Φ t.succ ∗ (dat V c).owesAt () t.succ
          ∗ owns (c : Thread nD τ) ((cfg0.win 0).stage (cfg0.slots t 0)) fullShare ((dat V c).after 0 t)
          ∗ owns (c : Thread nD τ) ((cfg0.win 1).stage (cfg0.slots t 1)) fullShare ((dat V c).after 1 t)
          ∗ owns (c : Thread nD τ) ((cfg0.win 2).stage (cfg0.slots t 2)) fullShare ((dat V c).after 2 t)
          ∗ post3 V c t)) := by
  unfold bodyAt0
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid0.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid0.coords t)
  · have hidle : cfg0.idle 3 (cfg0.grid.coords t) = false := by
      show (!(k0_cond2 (grid0.coords t) == 1#1)) = false
      rw [hl]; rfl
    rw [hidle, after3]
    unfold outNext; rw [if_pos hl, accAt_step V c t f hf]
    unfold outAt
    iexact H3
  · have hidle : cfg0.idle 3 (cfg0.grid.coords t) = true := by
      show (!(k0_cond2 (grid0.coords t) == 1#1)) = true
      rw [Bool.not_eq_true', beq_eq_false_iff_ne]; exact hl
    have hflush : (cfg0.win 3).flush t = false := by
      cases h : (cfg0.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KernelIdeal.R1.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.KernelIdeal.Launch
import proofs.«177351_j58944131170770_1_alg».proof.Proof.Gen.KernelIdeal.Skeleton
import proofs.«177351_j58944131170770_1_alg».proof.Proof.Gen.KernelIdeal.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The element type of the region's output tile. -/
abbrev OutTy : EltTy := .f32

/-- The point is a first step of the contraction axis: the body's first branch condition, as printed. -/
abbrev isFirst (i : grid1.Coords) : Prop :=
  Scalar.cmpi .ne (Scalar.extui (Scalar.cmpi .eq (BitVec.ofNat 32 (i 2).val) 0#32)) 0#32 = 1#1

/-- The point is a last step: the body's second branch condition. -/
abbrev isLast (i : grid1.Coords) : Prop := k1_cond2 i = 1#1

/-- The accumulator after the point: the tile product added to zero (first step) or to what was there. -/
def accNext (i : grid1.Coords) (acc : Vec F S1024x1024 .f32) (a b : Vec F S1024x1024 .bf16) : Vec F S1024x1024 .f32 :=
  k1_pay2 (if isFirst i then k1_pay1 (F := F) else acc) a b

/-- The output tile after the point: finished at a last step, else as it was. -/
def outNext (i : grid1.Coords) (acc : Vec F S1024x1024 .f32) (a b : Vec F S1024x1024 .bf16) (bias : Vec F S1x1024 .f32)
    (o : Vec F S1024x1024 OutTy) : Vec F S1024x1024 OutTy :=
  if isLast i then k1_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid1.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc1__mm_kernel i a3 h3 a4 h4 a5 h5 a6 h6 a7 h7) K := by
  simp only [cc1__mm_kernel_eq_skeleton]; unfold cc1__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.KernelIdeal.R1

end
-- ==== Proof.KernelIdeal.R1.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.KernelIdeal.R1.Run

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N_pos : 0 < cfg1.N := by decide

/-- The grid point numbered `n` (numbers past the grid wrap around; only numbers inside it are used). -/
def pt (n : ℕ) : Fin cfg1.N := ⟨n % cfg1.N, Nat.mod_lt _ N_pos⟩

theorem pt_val (t : Fin cfg1.N) : pt t.val = t := Fin.ext (Nat.mod_eq_of_lt t.isLt)

/-- The accumulator after point `n`. -/
def accAt (c : Dev nD) : ℕ → Vec F S1024x1024 .f32
  | 0 => accNext (grid1.coords (pt 0)) (k1_pay1 (F := F)) (iblk V c 0 (pt 0)) (iblk V c 1 (pt 0))
  | n + 1 => accNext (grid1.coords (pt (n + 1))) (accAt c n) (iblk V c 0 (pt (n + 1))) (iblk V c 1 (pt (n + 1)))

/-- The finished tile of point `t` (what the body stores at a last step). -/
def outAt (c : Dev nD) (t : Fin cfg1.N) : Vec F S1024x1024 OutTy := k1_pay3 (accAt V c t.val) (iblk V c 2 t)

/-- The first point is a first contraction step. -/
theorem first_zero : isFirst (grid1.coords (pt 0)) := by decide +kernel

/-- Only a last contraction step writes the output tile back. -/
theorem flush_last : ∀ t : Fin cfg1.N, (cfg1.win 3).flush t = true → isLast (grid1.coords t) :=
  (by decide +kernel : ∀ t : Fin grid1.N, win1_3.flush t = true → k1_cond2 (grid1.coords t) = 1#1)

/-- One step of the accumulator from what the scratch holds before point `t`. -/
theorem accAt_step (c : Dev nD) (t : Fin cfg1.N) (f : Vec F S1024x1024 .f32) (hf : t.val ≠ 0 → f = accAt V c (t.val - 1)) :
    accNext (grid1.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid1.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid1.coords (pt (n + 1))) _ _ _
    rw [e]; rfl

/-- The region's invariant before point `t`: the scratch at the accumulator so far, every other scoped buffer that is
    no staging buffer at some contents, the generator register at some state. -/
def inv (c : Dev nD) (t : Fin (cfg1.N + 1)) : sProp 𝕄 :=
  iprop((∃ f : Vec F S1024x1024 .f32, ⌜t.val ≠ 0 → f = accAt V c (t.val - 1)⌝ ∗ owns (c : Thread nD τ) (Memref.whole cc1_scratch0) fullShare f)
    ∗ Pipeline.scopedRestBut (Ix := Unit) (Name := ℕ) (U := UR sig nD τ) (Lvl := ℕ) (Val := Elt F) spec1 c [cc1_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

/-- An input's staging buffer holds its tile at every point, fetched there or not: the body leaves it in place, and
    where it is not fetched the tile's index has not moved. -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg1.N) : sProp 𝕄 :=
  match cfg1.idle 3 (cfg1.grid.coords t) with
  | true =>
    match (cfg1.win 3).flush t with
    | false => iprop(∃ d, owns (c : Thread nD τ) ((cfg1.win 3).stage (cfg1.slots t 3)) fullShare ((dat V c).before 3 t d))
    | true => owns (c : Thread nD τ) ((cfg1.win 3).stage (cfg1.slots t 3)) fullShare ((dat V c).after 3 t)
  | false => owns (c : Thread nD τ) ((cfg1.win 3).stage (cfg1.slots t 3)) fullShare ((dat V c).after 3 t)

set_option maxHeartbeats 1600000 in
/-- The body at any point. -/
theorem sound_body (c : Dev nD) (t : Fin cfg1.N) :
    iprop((dat V c).Φ t.castSucc ∗ (dat V c).owesAt () t.castSucc
      ∗ (∃ d, owns (c : Thread nD τ) ((cfg1.win 0).stage (cfg1.slots t 0)) fullShare ((dat V c).before 0 t d))
      ∗ (∃ d, owns (c : Thread nD τ) ((cfg1.win 1).stage (cfg1.slots t 1)) fullShare ((dat V c).before 1 t d))
      ∗ (∃ d, owns (c : Thread nD τ) ((cfg1.win 2).stage (cfg1.slots t 2)) fullShare ((dat V c).before 2 t d))
      ∗ (∃ d, owns (c : Thread nD τ) ((cfg1.win 3).stage (cfg1.slots t 3)) fullShare ((dat V c).before 3 t d)))
    ⊢ wp frame (wpE (defs₀ (F := F)) Variants.none c none) Set.univ (bodyAt1 t) (fun _ =>
        iprop((dat V c).Φ t.succ ∗ (dat V c).owesAt () t.succ
          ∗ owns (c : Thread nD τ) ((cfg1.win 0).stage (cfg1.slots t 0)) fullShare ((dat V c).after 0 t)
          ∗ owns (c : Thread nD τ) ((cfg1.win 1).stage (cfg1.slots t 1)) fullShare ((dat V c).after 1 t)
          ∗ owns (c : Thread nD τ) ((cfg1.win 2).stage (cfg1.slots t 2)) fullShare ((dat V c).after 2 t)
          ∗ post3 V c t)) := by
  unfold bodyAt1
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid1.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid1.coords t)
  · have hidle : cfg1.idle 3 (cfg1.grid.coords t) = false := by
      show (!(k1_cond2 (grid1.coords t) == 1#1)) = false
      rw [hl]; rfl
    rw [hidle, after3]
    unfold outNext; rw [if_pos hl, accAt_step V c t f hf]
    unfold outAt
    iexact H3
  · have hidle : cfg1.idle 3 (cfg1.grid.coords t) = true := by
      show (!(k1_cond2 (grid1.coords t) == 1#1)) = true
      rw [Bool.not_eq_true', beq_eq_false_iff_ne]; exact hl
    have hflush : (cfg1.win 3).flush t = false := by
      cases h : (cfg1.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KernelIdeal.R2.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.KernelIdeal.Launch
import proofs.«177351_j58944131170770_1_alg».proof.Proof.Gen.KernelIdeal.Skeleton
import proofs.«177351_j58944131170770_1_alg».proof.Proof.Gen.KernelIdeal.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The element type of the region's output tile. -/
abbrev OutTy : EltTy := .bf16

/-- The point is a first step of the contraction axis: the body's first branch condition, as printed. -/
abbrev isFirst (i : grid2.Coords) : Prop :=
  Scalar.cmpi .ne (Scalar.extui (Scalar.cmpi .eq (BitVec.ofNat 32 (i 2).val) 0#32)) 0#32 = 1#1

/-- The point is a last step: the body's second branch condition. -/
abbrev isLast (i : grid2.Coords) : Prop := k2_cond2 i = 1#1

/-- The accumulator after the point: the tile product added to zero (first step) or to what was there. -/
def accNext (i : grid2.Coords) (acc : Vec F S1024x1024 .f32) (a b : Vec F S1024x1024 .bf16) : Vec F S1024x1024 .f32 :=
  k2_pay2 (if isFirst i then k2_pay1 (F := F) else acc) a b

/-- The output tile after the point: finished at a last step, else as it was. -/
def outNext (i : grid2.Coords) (acc : Vec F S1024x1024 .f32) (a b : Vec F S1024x1024 .bf16) (bias : Vec F S1x1024 .f32)
    (o : Vec F S1024x1024 OutTy) : Vec F S1024x1024 OutTy :=
  if isLast i then k2_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid2.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc2__mm_kernel i a3 h3 a4 h4 a5 h5 a6 h6 a7 h7) K := by
  simp only [cc2__mm_kernel_eq_skeleton]; unfold cc2__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.KernelIdeal.R2

end
-- ==== Proof.KernelIdeal.R2.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.KernelIdeal.R2.Run

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N_pos : 0 < cfg2.N := by decide

/-- The grid point numbered `n` (numbers past the grid wrap around; only numbers inside it are used). -/
def pt (n : ℕ) : Fin cfg2.N := ⟨n % cfg2.N, Nat.mod_lt _ N_pos⟩

theorem pt_val (t : Fin cfg2.N) : pt t.val = t := Fin.ext (Nat.mod_eq_of_lt t.isLt)

/-- The accumulator after point `n`. -/
def accAt (c : Dev nD) : ℕ → Vec F S1024x1024 .f32
  | 0 => accNext (grid2.coords (pt 0)) (k2_pay1 (F := F)) (iblk V c 0 (pt 0)) (iblk V c 1 (pt 0))
  | n + 1 => accNext (grid2.coords (pt (n + 1))) (accAt c n) (iblk V c 0 (pt (n + 1))) (iblk V c 1 (pt (n + 1)))

/-- The finished tile of point `t` (what the body stores at a last step). -/
def outAt (c : Dev nD) (t : Fin cfg2.N) : Vec F S1024x1024 OutTy := k2_pay3 (accAt V c t.val) (iblk V c 2 t)

/-- The first point is a first contraction step. -/
theorem first_zero : isFirst (grid2.coords (pt 0)) := by decide +kernel

/-- Only a last contraction step writes the output tile back. -/
theorem flush_last : ∀ t : Fin cfg2.N, (cfg2.win 3).flush t = true → isLast (grid2.coords t) :=
  (by decide +kernel : ∀ t : Fin grid2.N, win2_3.flush t = true → k2_cond2 (grid2.coords t) = 1#1)

/-- One step of the accumulator from what the scratch holds before point `t`. -/
theorem accAt_step (c : Dev nD) (t : Fin cfg2.N) (f : Vec F S1024x1024 .f32) (hf : t.val ≠ 0 → f = accAt V c (t.val - 1)) :
    accNext (grid2.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid2.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid2.coords (pt (n + 1))) _ _ _
    rw [e]; rfl

/-- The region's invariant before point `t`: the scratch at the accumulator so far, every other scoped buffer that is
    no staging buffer at some contents, the generator register at some state. -/
def inv (c : Dev nD) (t : Fin (cfg2.N + 1)) : sProp 𝕄 :=
  iprop((∃ f : Vec F S1024x1024 .f32, ⌜t.val ≠ 0 → f = accAt V c (t.val - 1)⌝ ∗ owns (c : Thread nD τ) (Memref.whole cc2_scratch0) fullShare f)
    ∗ Pipeline.scopedRestBut (Ix := Unit) (Name := ℕ) (U := UR sig nD τ) (Lvl := ℕ) (Val := Elt F) spec2 c [cc2_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg2.W) : (dat V c).A w = V c (Pipeline.arrRef spec2 w) := by dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = outAt V c t := by dsimp only [dat]

/-- An input's staging buffer holds its tile at every point, fetched there or not: the body leaves it in place, and
    where it is not fetched the tile's index has not moved. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg2.N) : sProp 𝕄 :=
  match cfg2.idle 3 (cfg2.grid.coords t) with
  | true =>
    match (cfg2.win 3).flush t with
    | false => iprop(∃ d, owns (c : Thread nD τ) ((cfg2.win 3).stage (cfg2.slots t 3)) fullShare ((dat V c).before 3 t d))
    | true => owns (c : Thread nD τ) ((cfg2.win 3).stage (cfg2.slots t 3)) fullShare ((dat V c).after 3 t)
  | false => owns (c : Thread nD τ) ((cfg2.win 3).stage (cfg2.slots t 3)) fullShare ((dat V c).after 3 t)

set_option maxHeartbeats 1600000 in
/-- The body at any point. -/
theorem sound_body (c : Dev nD) (t : Fin cfg2.N) :
    iprop((dat V c).Φ t.castSucc ∗ (dat V c).owesAt () t.castSucc
      ∗ (∃ d, owns (c : Thread nD τ) ((cfg2.win 0).stage (cfg2.slots t 0)) fullShare ((dat V c).before 0 t d))
      ∗ (∃ d, owns (c : Thread nD τ) ((cfg2.win 1).stage (cfg2.slots t 1)) fullShare ((dat V c).before 1 t d))
      ∗ (∃ d, owns (c : Thread nD τ) ((cfg2.win 2).stage (cfg2.slots t 2)) fullShare ((dat V c).before 2 t d))
      ∗ (∃ d, owns (c : Thread nD τ) ((cfg2.win 3).stage (cfg2.slots t 3)) fullShare ((dat V c).before 3 t d)))
    ⊢ wp frame (wpE (defs₀ (F := F)) Variants.none c none) Set.univ (bodyAt2 t) (fun _ =>
        iprop((dat V c).Φ t.succ ∗ (dat V c).owesAt () t.succ
          ∗ owns (c : Thread nD τ) ((cfg2.win 0).stage (cfg2.slots t 0)) fullShare ((dat V c).after 0 t)
          ∗ owns (c : Thread nD τ) ((cfg2.win 1).stage (cfg2.slots t 1)) fullShare ((dat V c).after 1 t)
          ∗ owns (c : Thread nD τ) ((cfg2.win 2).stage (cfg2.slots t 2)) fullShare ((dat V c).after 2 t)
          ∗ post3 V c t)) := by
  unfold bodyAt2
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid2.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid2.coords t)
  · have hidle : cfg2.idle 3 (cfg2.grid.coords t) = false := by
      show (!(k2_cond2 (grid2.coords t) == 1#1)) = false
      rw [hl]; rfl
    rw [hidle, after3]
    unfold outNext; rw [if_pos hl, accAt_step V c t f hf]
    unfold outAt
    iexact H3
  · have hidle : cfg2.idle 3 (cfg2.grid.coords t) = true := by
      show (!(k2_cond2 (grid2.coords t) == 1#1)) = true
      rw [Bool.not_eq_true', beq_eq_false_iff_ne]; exact hl
    have hflush : (cfg2.win 3).flush t = false := by
      cases h : (cfg2.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KernelIdeal.R3.Run.lean ====
/-
  One grid point of this region's matmul kernel, on any whole staging buffers.

  The body keeps a 1024×1024 accumulator in scratch memory. At a first step of the contraction axis it
  overwrites the accumulator with zeros; at every step it adds the product of the two input tiles; at a last
  step it adds the bias row (and applies the layer's activation, where it has one) and stores the result tile. So
  after one point the accumulator holds the tile product added to zero (first step) or to the old contents, and the
  output tile is the finished tile at a last step and untouched otherwise.
-/
import proofs.«177351_j58944131170770_1_alg».proof.Proof.KernelIdeal.Launch
import proofs.«177351_j58944131170770_1_alg».proof.Proof.Gen.KernelIdeal.Skeleton
import proofs.«177351_j58944131170770_1_alg».proof.Proof.Gen.KernelIdeal.Points
import Idealize.ShloMosaic.Lib.Pipeline.FrameBody
import Idealize.ShloMosaic.Lib.Ring
import Idealize.ShloMosaic.Lib.Tactic
import proofs.«177351_j58944131170770_1_alg».proof.Proof.LibTile

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The element type of the region's output tile. -/
abbrev OutTy : EltTy := .f32

/-- The point is a first step of the contraction axis: the body's first branch condition, as printed. -/
abbrev isFirst (i : grid3.Coords) : Prop :=
  Scalar.cmpi .ne (Scalar.extui (Scalar.cmpi .eq (BitVec.ofNat 32 (i 2).val) 0#32)) 0#32 = 1#1

/-- The point is a last step: the body's second branch condition. -/
abbrev isLast (i : grid3.Coords) : Prop := k3_cond2 i = 1#1

/-- The accumulator after the point: the tile product added to zero (first step) or to what was there. -/
def accNext (i : grid3.Coords) (acc : Vec F S1024x1024 .f32) (a b : Vec F S1024x1024 .bf16) : Vec F S1024x1024 .f32 :=
  k3_pay2 (if isFirst i then k3_pay1 (F := F) else acc) a b

/-- The output tile after the point: finished at a last step, else as it was. -/
def outNext (i : grid3.Coords) (acc : Vec F S1024x1024 .f32) (a b : Vec F S1024x1024 .bf16) (bias : Vec F S1x1024 .f32)
    (o : Vec F S1024x1024 OutTy) : Vec F S1024x1024 OutTy :=
  if isLast i then k3_pay3 (accNext i acc a b) bias else o

set_option maxHeartbeats 1600000 in
/-- The body from any contents of its five buffers: the inputs are left as they were, the scratch and the output tile
    end as `accNext` and `outNext` say. The four cases of the two branch conditions are run one by one (where the
    contraction axis has a single step the two conditions are one, and the mixed cases are contradictory). -/
theorem body_run (c : Dev nD) (i : grid3.Coords)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x1024 OutTy) (h6 : a6.IsWhole)
    (a7 : Memref sig .tc .vmem S1024x1024 .f32) (h7 : a7.IsWhole)
    (xa xb : Vec F S1024x1024 .bf16) (bias : Vec F S1x1024 .f32) (o : Vec F S1024x1024 OutTy) (acc : Vec F S1024x1024 .f32)
    (E : Set ℕ) (K : PUnit → sProp 𝕄) :
    iprop(owns (c : Thread nD τ) a3 fullShare xa ∗ owns (c : Thread nD τ) a4 fullShare xb ∗ owns (c : Thread nD τ) a5 fullShare bias
        ∗ owns (c : Thread nD τ) a6 fullShare o ∗ owns (c : Thread nD τ) a7 fullShare acc
        ∗ (iprop(owns (c : Thread nD τ) a3 fullShare xa ∗ owns (c : Thread nD τ) a4 fullShare xb ∗ owns (c : Thread nD τ) a5 fullShare bias
            ∗ owns (c : Thread nD τ) a6 fullShare (outNext i acc xa xb bias o) ∗ owns (c : Thread nD τ) a7 fullShare (accNext i acc xa xb)) -∗ K ⟨⟩))
      ⊢ wp frame (wpE (defs₀ (F := F)) Variants.none c none) E (cc3__mm_kernel i a3 h3 a4 h4 a5 h5 a6 h6 a7 h7) K := by
  simp only [cc3__mm_kernel_eq_skeleton]; unfold cc3__mm_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := h3.eq_unread hf3; obtain rfl := h4.eq_unread hf4; obtain rfl := h5.eq_unread hf5
  obtain rfl := h6.eq_unread hf6; obtain rfl := h7.eq_unread hf7
  by_cases hc0 : isFirst i
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_pos hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
  · by_cases hc1 : isLast i
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_pos hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
    · sl_exec (disch := first | exact hc0 | exact hc1)
      sl_step
      iapply Hk
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; swap; · iexact H6
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1
      · iexists _; isplitr; swap; · iexact H7
        ipureintro
        first
          | (sl_unfold_words
             simp only [outNext, accNext, if_neg hc0, if_neg hc1,
          Cert.LibTile.read_writes_tile (S := S1024x1024) _ _ Cert.LibTile.zero2, Cert.LibTile.readCov_tile (S := S1024x1024) _ Cert.LibTile.zero2,
          Cert.LibTile.readAt_tile (S := S1024x1024) _ _ Cert.LibTile.zero2 _ _ hf3, Cert.LibTile.readAt_tile (S := S1024x1024) _ _ Cert.LibTile.zero2 _ _ hf4,
          Cert.LibTile.readAt_tile (S := S1x1024) _ _ Cert.LibTile.zero2 _ _ hf5, Cert.LibTile.readAt_tile (S := S1024x1024) _ _ Cert.LibTile.zero2 _ _ hf7,
          h6.read_unread, h7.read_unread]
             done)
          | exact absurd hc1 hc0
          | exact absurd hc0 hc1

end Cert.KernelIdeal.R3

end
-- ==== Proof.KernelIdeal.R3.Data.lean ====
/-
  This region's matmul kernel along its grid, from any contents `V` of the buffers when the region is entered.

  The grid's axes are row tile, column tile, contraction step, the contraction step innermost. The accumulator
  after point `n` is the accumulator after point `n - 1` (zero, at a first contraction step) plus the product of
  the two input tiles at `n`. The output tile is stored only at a last contraction step, which is also where the
  pipeline writes it back; at the other points the output's staging buffer is handed back as it was found. The
  accumulator lives in scratch memory, so it is carried by the region's invariant: before point `t` the scratch holds
  the accumulator after point `t - 1` (anything, before the first point).
-/
import proofs.«177351_j58944131170770_1_alg».proof.Proof.KernelIdeal.R3.Run

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem N_pos : 0 < cfg3.N := by decide

/-- The grid point numbered `n` (numbers past the grid wrap around; only numbers inside it are used). -/
def pt (n : ℕ) : Fin cfg3.N := ⟨n % cfg3.N, Nat.mod_lt _ N_pos⟩

theorem pt_val (t : Fin cfg3.N) : pt t.val = t := Fin.ext (Nat.mod_eq_of_lt t.isLt)

/-- The accumulator after point `n`. -/
def accAt (c : Dev nD) : ℕ → Vec F S1024x1024 .f32
  | 0 => accNext (grid3.coords (pt 0)) (k3_pay1 (F := F)) (iblk V c 0 (pt 0)) (iblk V c 1 (pt 0))
  | n + 1 => accNext (grid3.coords (pt (n + 1))) (accAt c n) (iblk V c 0 (pt (n + 1))) (iblk V c 1 (pt (n + 1)))

/-- The finished tile of point `t` (what the body stores at a last step). -/
def outAt (c : Dev nD) (t : Fin cfg3.N) : Vec F S1024x1024 OutTy := k3_pay3 (accAt V c t.val) (iblk V c 2 t)

/-- The first point is a first contraction step. -/
theorem first_zero : isFirst (grid3.coords (pt 0)) := by decide +kernel

/-- Only a last contraction step writes the output tile back. -/
theorem flush_last : ∀ t : Fin cfg3.N, (cfg3.win 3).flush t = true → isLast (grid3.coords t) :=
  (by decide +kernel : ∀ t : Fin grid3.N, win3_3.flush t = true → k3_cond2 (grid3.coords t) = 1#1)

/-- One step of the accumulator from what the scratch holds before point `t`. -/
theorem accAt_step (c : Dev nD) (t : Fin cfg3.N) (f : Vec F S1024x1024 .f32) (hf : t.val ≠ 0 → f = accAt V c (t.val - 1)) :
    accNext (grid3.coords t) f (iblk V c 0 t) (iblk V c 1 t) = accAt V c t.val := by
  obtain ⟨n, hn⟩ := t
  cases n with
  | zero =>
    have e : pt 0 = ⟨0, hn⟩ := Fin.ext (Nat.zero_mod _)
    have h0 := first_zero; rw [e] at h0
    show _ = accNext (grid3.coords (pt 0)) _ _ _
    rw [e]; unfold accNext; rw [if_pos h0, if_pos h0]
  | succ n =>
    have e : pt (n + 1) = ⟨n + 1, hn⟩ := Fin.ext (Nat.mod_eq_of_lt hn)
    have := hf (Nat.succ_ne_zero n); subst this
    show _ = accNext (grid3.coords (pt (n + 1))) _ _ _
    rw [e]; rfl

/-- The region's invariant before point `t`: the scratch at the accumulator so far, every other scoped buffer that is
    no staging buffer at some contents, the generator register at some state. -/
def inv (c : Dev nD) (t : Fin (cfg3.N + 1)) : sProp 𝕄 :=
  iprop((∃ f : Vec F S1024x1024 .f32, ⌜t.val ≠ 0 → f = accAt V c (t.val - 1)⌝ ∗ owns (c : Thread nD τ) (Memref.whole cc3_scratch0) fullShare f)
    ∗ Pipeline.scopedRestBut (Ix := Unit) (Name := ℕ) (U := UR sig nD τ) (Lvl := ℕ) (Val := Elt F) spec3 c [cc3_scratch0]
    ∗ ∃ r, prngReg c r)

/-- The proof data: the arrays as the region finds them; after the body each input's buffer at its tile, the output's
    at the finished tile; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := inv V c t
  q _ := fullShare
  owed _ := 0

theorem A_eq (c : Dev nD) (w : Fin cfg3.W) : (dat V c).A w = V c (Pipeline.arrRef spec3 w) := by dsimp only [dat]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = outAt V c t := by dsimp only [dat]

/-- An input's staging buffer holds its tile at every point, fetched there or not: the body leaves it in place, and
    where it is not fetched the tile's index has not moved. -/
theorem before0 (c : Dev nD) (t : Fin cfg3.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body hands back of the output's staging buffer: the finished tile where the point is a last step (or
    writes the tile back), the buffer as found elsewhere. -/
def post3 (c : Dev nD) (t : Fin cfg3.N) : sProp 𝕄 :=
  match cfg3.idle 3 (cfg3.grid.coords t) with
  | true =>
    match (cfg3.win 3).flush t with
    | false => iprop(∃ d, owns (c : Thread nD τ) ((cfg3.win 3).stage (cfg3.slots t 3)) fullShare ((dat V c).before 3 t d))
    | true => owns (c : Thread nD τ) ((cfg3.win 3).stage (cfg3.slots t 3)) fullShare ((dat V c).after 3 t)
  | false => owns (c : Thread nD τ) ((cfg3.win 3).stage (cfg3.slots t 3)) fullShare ((dat V c).after 3 t)

set_option maxHeartbeats 1600000 in
/-- The body at any point. -/
theorem sound_body (c : Dev nD) (t : Fin cfg3.N) :
    iprop((dat V c).Φ t.castSucc ∗ (dat V c).owesAt () t.castSucc
      ∗ (∃ d, owns (c : Thread nD τ) ((cfg3.win 0).stage (cfg3.slots t 0)) fullShare ((dat V c).before 0 t d))
      ∗ (∃ d, owns (c : Thread nD τ) ((cfg3.win 1).stage (cfg3.slots t 1)) fullShare ((dat V c).before 1 t d))
      ∗ (∃ d, owns (c : Thread nD τ) ((cfg3.win 2).stage (cfg3.slots t 2)) fullShare ((dat V c).before 2 t d))
      ∗ (∃ d, owns (c : Thread nD τ) ((cfg3.win 3).stage (cfg3.slots t 3)) fullShare ((dat V c).before 3 t d)))
    ⊢ wp frame (wpE (defs₀ (F := F)) Variants.none c none) Set.univ (bodyAt3 t) (fun _ =>
        iprop((dat V c).Φ t.succ ∗ (dat V c).owesAt () t.succ
          ∗ owns (c : Thread nD τ) ((cfg3.win 0).stage (cfg3.slots t 0)) fullShare ((dat V c).after 0 t)
          ∗ owns (c : Thread nD τ) ((cfg3.win 1).stage (cfg3.slots t 1)) fullShare ((dat V c).after 1 t)
          ∗ owns (c : Thread nD τ) ((cfg3.win 2).stage (cfg3.slots t 2)) fullShare ((dat V c).after 2 t)
          ∗ post3 V c t)) := by
  unfold bodyAt3
  simp only [before0, before1, before2]
  rw [show (dat V c).owesAt () t.succ = (dat V c).owesAt () t.castSucc from rfl, after0, after1, after2,
    show (dat V c).Φ t.castSucc = inv V c t.castSucc from rfl, show (dat V c).Φ t.succ = inv V c t.succ from rfl]
  unfold inv
  iintro ⟨⟨⟨%f, %hf, Hs⟩, Hrest, Hp⟩, Ho, ⟨%d0, H0⟩, ⟨%d1, H1⟩, ⟨%d2, H2⟩, ⟨%d3, H3⟩⟩
  iapply (body_run c (grid3.coords t) _ _ _ _ _ _ _ _ _ _ (iblk V c 0 t) (iblk V c 1 t) (iblk V c 2 t) ((dat V c).before 3 t d3) f Set.univ _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hrest Hp]
  · isplitl [Hs]
    · iexists _; isplitr; swap; · iexact Hs
      ipureintro; intro _
      exact accAt_step V c t f hf
    isplitl [Hrest]; · iexact Hrest
    iexact Hp
  isplitl [Ho]; · iexact Ho
  isplitl [H0]; · iexact H0
  isplitl [H1]; · iexact H1
  isplitl [H2]; · iexact H2
  unfold post3
  by_cases hl : isLast (grid3.coords t)
  · have hidle : cfg3.idle 3 (cfg3.grid.coords t) = false := by
      show (!(k3_cond2 (grid3.coords t) == 1#1)) = false
      rw [hl]; rfl
    rw [hidle, after3]
    unfold outNext; rw [if_pos hl, accAt_step V c t f hf]
    unfold outAt
    iexact H3
  · have hidle : cfg3.idle 3 (cfg3.grid.coords t) = true := by
      show (!(k3_cond2 (grid3.coords t) == 1#1)) = true
      rw [Bool.not_eq_true', beq_eq_false_iff_ne]; exact hl
    have hflush : (cfg3.win 3).flush t = false := by
      cases h : (cfg3.win 3).flush t
      · rfl
      · exact absurd (flush_last t h) hl
    rw [hidle, hflush]
    unfold outNext; rw [if_neg hl]
    iexists d3; iexact H3

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.R3

end
-- ==== Proof.KernelIdeal.Pdats.lean ====
/-
  The buffers between the items of @main, with each region's output array named.

  @main is five stretches of host operations with the four matmul regions between them. A region changes one
  array, its output; what it leaves there is what its proof data compute from the contents it was entered with
  (the tiles written back, laid over the array). So the contents at every boundary are a function of the launch
  memory alone: after a host stretch, the stretch applied to the contents before it; after a region, the contents
  before it with the output array replaced.
-/
import proofs.«177351_j58944131170770_1_alg».proof.Proof.KernelIdeal.Regions
import proofs.«177351_j58944131170770_1_alg».proof.Proof.KernelIdeal.R0.Data
import proofs.«177351_j58944131170770_1_alg».proof.Proof.KernelIdeal.R1.Data
import proofs.«177351_j58944131170770_1_alg».proof.Proof.KernelIdeal.R2.Data
import proofs.«177351_j58944131170770_1_alg».proof.Proof.KernelIdeal.R3.Data

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What region 0 is entered with: the launch memory after the first host stretch. -/
abbrev X1 (c : Dev nD) : Valuation τ sig (Elt F) := V1 m c
/-- After region 0: its output array at what the region leaves. -/
def X2 (c : Dev nD) : Valuation τ sig (Elt F) :=
  Function.update (X1 m c) main_v3 ((R0.dat (fun c b => X1 m c b) c).arrAt 3 cfg0.N)
/-- What region 1 is entered with. -/
def X3 (c : Dev nD) : Valuation τ sig (Elt F) := StableHlo.after hostOps1 (X2 m c)
/-- After region 1. -/
def X4 (c : Dev nD) : Valuation τ sig (Elt F) :=
  Function.update (X3 m c) main_v6 ((R1.dat (fun c b => X3 m c b) c).arrAt 3 cfg1.N)
/-- What region 2 is entered with. -/
def X5 (c : Dev nD) : Valuation τ sig (Elt F) := StableHlo.after hostOps2 (X4 m c)
/-- After region 2. -/
def X6 (c : Dev nD) : Valuation τ sig (Elt F) :=
  Function.update (X5 m c) main_v15 ((R2.dat (fun c b => X5 m c b) c).arrAt 3 cfg2.N)
/-- What region 3 is entered with. -/
def X7 (c : Dev nD) : Valuation τ sig (Elt F) := StableHlo.after hostOps3 (X6 m c)
/-- After region 3. -/
def X8 (c : Dev nD) : Valuation τ sig (Elt F) :=
  Function.update (X7 m c) main_v18 ((R3.dat (fun c b => X7 m c b) c).arrAt 3 cfg3.N)

/-- The contents the regions leave, as the conditional frame takes them: item by item, the boundary's contents. -/
def outs : Outs (F := F) := fun J r c =>
  match J with
  | 2 => X2 m c r
  | 4 => X4 m c r
  | 6 => X6 m c r
  | _ => X8 m c r

theorem V2_eq (c : Dev nD) : V2 m (outs m) c = X2 m c := by
  show Function.update (V1 m c) main_v3 (X2 m c main_v3) = X2 m c
  unfold X2; rw [Function.update_self]
theorem V3_eq (c : Dev nD) : V3 m (outs m) c = X3 m c := by
  show StableHlo.after hostOps1 (V2 m (outs m) c) = _; rw [V2_eq]; rfl
theorem V4_eq (c : Dev nD) : V4 m (outs m) c = X4 m c := by
  show Function.update (V3 m (outs m) c) main_v6 (X4 m c main_v6) = X4 m c
  rw [V3_eq]; unfold X4; rw [Function.update_self]
theorem V5_eq (c : Dev nD) : V5 m (outs m) c = X5 m c := by
  show StableHlo.after hostOps2 (V4 m (outs m) c) = _; rw [V4_eq]; rfl
theorem V6_eq (c : Dev nD) : V6 m (outs m) c = X6 m c := by
  show Function.update (V5 m (outs m) c) main_v15 (X6 m c main_v15) = X6 m c
  rw [V5_eq]; unfold X6; rw [Function.update_self]
theorem V7_eq (c : Dev nD) : V7 m (outs m) c = X7 m c := by
  show StableHlo.after hostOps3 (V6 m (outs m) c) = _; rw [V6_eq]; rfl
theorem V8_eq (c : Dev nD) : V8 m (outs m) c = X8 m c := by
  show Function.update (V7 m (outs m) c) main_v18 (X8 m c main_v18) = X8 m c
  rw [V7_eq]; unfold X8; rw [Function.update_self]

/-! ## The same, region by region: what region K is entered with, what it leaves, and that it changes one array -/

abbrev Xin0 (c : Dev nD) : Valuation τ sig (Elt F) := X1 m c
abbrev Xout0 (c : Dev nD) : Valuation τ sig (Elt F) := X2 m c
theorem entry_eq0 (c : Dev nD) : V1 m c = Xin0 m c := rfl
theorem exit_eq0 (c : Dev nD) : V2 m (outs m) c = Xout0 m c := V2_eq m c
theorem exit_of0 (c : Dev nD) (r : Ref sig .tc) (h : r ∉ ([main_v3] : List (Ref sig .tc))) : Xout0 m c r = Xin0 m c r := by
  rw [← exit_eq0, ← entry_eq0]; exact V2_of m (outs m) c r h
theorem exit_self0 (c : Dev nD) : Xout0 m c main_v3 = (R0.dat (fun c b => Xin0 m c b) c).arrAt 3 cfg0.N := by
  show X2 m c main_v3 = _; unfold X2; rw [Function.update_self]

abbrev Xin1 (c : Dev nD) : Valuation τ sig (Elt F) := X3 m c
abbrev Xout1 (c : Dev nD) : Valuation τ sig (Elt F) := X4 m c
theorem entry_eq1 (c : Dev nD) : V3 m (outs m) c = Xin1 m c := V3_eq m c
theorem exit_eq1 (c : Dev nD) : V4 m (outs m) c = Xout1 m c := V4_eq m c
theorem exit_of1 (c : Dev nD) (r : Ref sig .tc) (h : r ∉ ([main_v6] : List (Ref sig .tc))) : Xout1 m c r = Xin1 m c r := by
  rw [← exit_eq1, ← entry_eq1]; exact V4_of m (outs m) c r h
theorem exit_self1 (c : Dev nD) : Xout1 m c main_v6 = (R1.dat (fun c b => Xin1 m c b) c).arrAt 3 cfg1.N := by
  show X4 m c main_v6 = _; unfold X4; rw [Function.update_self]

abbrev Xin2 (c : Dev nD) : Valuation τ sig (Elt F) := X5 m c
abbrev Xout2 (c : Dev nD) : Valuation τ sig (Elt F) := X6 m c
theorem entry_eq2 (c : Dev nD) : V5 m (outs m) c = Xin2 m c := V5_eq m c
theorem exit_eq2 (c : Dev nD) : V6 m (outs m) c = Xout2 m c := V6_eq m c
theorem exit_of2 (c : Dev nD) (r : Ref sig .tc) (h : r ∉ ([main_v15] : List (Ref sig .tc))) : Xout2 m c r = Xin2 m c r := by
  rw [← exit_eq2, ← entry_eq2]; exact V6_of m (outs m) c r h
theorem exit_self2 (c : Dev nD) : Xout2 m c main_v15 = (R2.dat (fun c b => Xin2 m c b) c).arrAt 3 cfg2.N := by
  show X6 m c main_v15 = _; unfold X6; rw [Function.update_self]

abbrev Xin3 (c : Dev nD) : Valuation τ sig (Elt F) := X7 m c
abbrev Xout3 (c : Dev nD) : Valuation τ sig (Elt F) := X8 m c
theorem entry_eq3 (c : Dev nD) : V7 m (outs m) c = Xin3 m c := V7_eq m c
theorem exit_eq3 (c : Dev nD) : V8 m (outs m) c = Xout3 m c := V8_eq m c
theorem exit_of3 (c : Dev nD) (r : Ref sig .tc) (h : r ∉ ([main_v18] : List (Ref sig .tc))) : Xout3 m c r = Xin3 m c r := by
  rw [← exit_eq3, ← entry_eq3]; exact V8_of m (outs m) c r h
theorem exit_self3 (c : Dev nD) : Xout3 m c main_v18 = (R3.dat (fun c b => Xin3 m c b) c).arrAt 3 cfg3.N := by
  show X8 m c main_v18 = _; unfold X8; rw [Function.update_self]

/-- Every region's proof data, each at the contents its region is entered with. -/
def pdats : (p : Fin 4) → (c : Dev nD) → Dat τ (Elt F) Unit ℕ (UR sig nD τ) ℕ (Pipeline.pin (pcfgs (F := F)) adm p) c
  | ⟨0, _⟩ => fun c => R0.dat (fun c b => Xin0 m c b) c
  | ⟨1, _⟩ => fun c => R1.dat (fun c b => Xin1 m c b) c
  | ⟨2, _⟩ => fun c => R2.dat (fun c b => Xin2 m c b) c
  | ⟨3, _⟩ => fun c => R3.dat (fun c b => Xin3 m c b) c

/-- No level is assigned: no core owes another anything. -/
abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev Rst (c : Dev nD) : sProp 𝕄 :=
  iprop((∃ r, prngReg c r) ∗ ∃ W, owes (c : Thread nD τ) (0 : CellTallies nD τ sig Unit) W)

end Cert.KernelIdeal.Whole

end
-- ==== Proof.KernelIdeal.Reg0.lean ====
/-
  Region 0 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.KernelIdeal.Pdats
import Idealize.ShloMosaic.Lib.Pipeline.RegionsLoop
import Idealize.ShloMosaic.Lib.Pipeline.FrameBody

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin0 (c : Dev nD) (b : Ref sig .tc) : Buf (Elt F) ((c : Thread nD τ).loc b) := Xin0 m c b
abbrev xout0 (c : Dev nD) (b : Ref sig .tc) : Buf (Elt F) ((c : Thread nD τ).loc b) := Xout0 m c b

/-- At the exit each of the region's arrays holds what the pipeline leaves: an input what it held, the output the
    tiles written back. -/
theorem exitF0 (c : Dev nD) (w : Fin cfg0.W) : (pdats m (0 : Fin 4) c).arrAt w cfg0.N = xout0 m c (Pipeline.arrRef spec0 w) :=
  match w with
  | ⟨0, _⟩ => ((pdats m (0 : Fin 4) c).arrAt_in 0 rfl _).trans
      (show (pdats m (0 : Fin 4) c).A 0 = xout0 m c (Pipeline.arrRef spec0 0) from (exit_of0 m c (Pipeline.arrRef spec0 0) (by decide)).symm)
  | ⟨1, _⟩ => ((pdats m (0 : Fin 4) c).arrAt_in 1 rfl _).trans
      (show (pdats m (0 : Fin 4) c).A 1 = xout0 m c (Pipeline.arrRef spec0 1) from (exit_of0 m c (Pipeline.arrRef spec0 1) (by decide)).symm)
  | ⟨2, _⟩ => ((pdats m (0 : Fin 4) c).arrAt_in 2 rfl _).trans
      (show (pdats m (0 : Fin 4) c).A 2 = xout0 m c (Pipeline.arrRef spec0 2) from (exit_of0 m c (Pipeline.arrRef spec0 2) (by decide)).symm)
  | ⟨3, _⟩ => (exit_self0 m c).symm

/-- Every other unscoped buffer holds what it held. -/
theorem exitRest0 (c : Dev nD) : ∀ b, b ∉ Finset.univ.image (Pipeline.arrRef spec0) → xout0 m c b = xin0 m c b :=
  fun b hb => exit_of0 m c b fun h => hb (by
    rw [List.mem_singleton] at h; subst h
    exact Finset.mem_image.mpr ⟨3, Finset.mem_univ _, rfl⟩)

set_option backward.isDefEq.respectTransparency.types false in
/-- The region's record. -/
def reg0 : Pipeline.RegionSeg (pcfgs (F := F)) adm (pdats m) () defs₀ 𝒱₀ L lv (0 : Fin 4) where
  win := launch0.win.to₀
  block_pos := launch0.block_pos
  stage_whole := launch0.stage_whole
  K := PEmpty
  osem k := k.elim
  ho := Pipeline.OwnSemFacts.none _
  hbody c := (R0.body_obligation (fun c b => Xin0 m c b) c).loose
  hwaits := Pipeline.hwaits_of_owed_zero _ _ _ _ L lv (0 : Fin 4) fun _ _ => rfl
  pre c := iprop(StableHlo.held (c : Thread nD τ) (Pipeline.ucRefs τ sig) (Xin0 m c) ∗ Rst c)
  post c := iprop(StableHlo.held (c : Thread nD τ) (Pipeline.ucRefs τ sig) (Xout0 m c) ∗ Rst c)
  X c := iprop(∃ r, prngReg c r)
  Y c := iprop(∃ r, prngReg c r)
  Z c := Pipeline.unscopedRest (Ix := Unit) (Name := ℕ) (U := UR sig nD τ) (Lvl := ℕ) spec0 c (xin0 m c)
  hentry c := by
    rw [Pipeline.ownSems0_none]
    have hsplit := Pipeline.arrays_of_unscopedBufs (p := (0 : Fin 4)) (pcfgs (F := F)) adm (pdats m) launch0.win launch0.arr_whole c
      ((pdats m (0 : Fin 4) c).share_full fun _ => rfl) (xin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest0_split (Ix := Unit) (Val := Elt F) (Name := ℕ) (U := UR sig nD τ) (Lvl := ℕ) c
    rw [show (pdats m (0 : Fin 4) c).Φ 0 = R0.inv (fun c b => Xin0 m c b) c 0 from rfl,
      show (Pipeline.scopedRest (Pipeline.pin (pcfgs (F := F)) adm (0 : Fin 4)).spec c : sProp 𝕄) = _ from hs]
    unfold R0.inv
    iintro ⟨Hp, -, ⟨%f, Hs⟩, Hr⟩
    isplitl [Hs]
    · iexists f; isplitr; · ipureintro; intro h; exact absurd rfl h
      iapply (Entails.of_eq (owns_whole (c : Thread nD τ) cc0_scratch0 fullShare f).symm)
      iexact Hs
    isplitl [Hr]; · iexact Hr
    iexact Hp
  hout c := by
    have hs := scopedRest0_split (Ix := Unit) (Val := Elt F) (Name := ℕ) (U := UR sig nD τ) (Lvl := ℕ) c
    rw [Pipeline.ownSems0_none, show (pdats m (0 : Fin 4) c).Φ (Fin.last _) = R0.inv (fun c b => Xin0 m c b) c (Fin.last _) from rfl,
      show (Pipeline.scopedRest (Pipeline.pin (pcfgs (F := F)) adm (0 : Fin 4)).spec c : sProp 𝕄) = _ from hs]
    unfold R0.inv
    iintro ⟨⟨%f, -, Hs⟩, Hr, Hp⟩
    isplitl [Hp]; · iexact Hp
    isplitr; · iempintro
    isplitl [Hs]
    · iexists f
      iapply (Entails.of_eq (owns_whole (c : Thread nD τ) cc0_scratch0 fullShare f))
      iexact Hs
    iexact Hr
  hexit c := by
    have hjoin := Pipeline.unscopedBufs_of_arrays (p := (0 : Fin 4)) (pcfgs (F := F)) adm (Ix := Unit) (Name := ℕ) (U := UR sig nD τ) (Lvl := ℕ)
      launch0.win launch0.arr_whole c (pdats m) ((pdats m (0 : Fin 4) c).share_full fun _ => rfl)
      (xin0 m c) (xout0 m c) ((pdats m (0 : Fin 4) c).arrAt · cfg0.N) (exitF0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Reg1.lean ====
/-
  Region 1 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.KernelIdeal.Pdats
import Idealize.ShloMosaic.Lib.Pipeline.RegionsLoop
import Idealize.ShloMosaic.Lib.Pipeline.FrameBody

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin1 (c : Dev nD) (b : Ref sig .tc) : Buf (Elt F) ((c : Thread nD τ).loc b) := Xin1 m c b
abbrev xout1 (c : Dev nD) (b : Ref sig .tc) : Buf (Elt F) ((c : Thread nD τ).loc b) := Xout1 m c b

/-- At the exit each of the region's arrays holds what the pipeline leaves: an input what it held, the output the
    tiles written back. -/
theorem exitF1 (c : Dev nD) (w : Fin cfg1.W) : (pdats m (1 : Fin 4) c).arrAt w cfg1.N = xout1 m c (Pipeline.arrRef spec1 w) :=
  match w with
  | ⟨0, _⟩ => ((pdats m (1 : Fin 4) c).arrAt_in 0 rfl _).trans
      (show (pdats m (1 : Fin 4) c).A 0 = xout1 m c (Pipeline.arrRef spec1 0) from (exit_of1 m c (Pipeline.arrRef spec1 0) (by decide)).symm)
  | ⟨1, _⟩ => ((pdats m (1 : Fin 4) c).arrAt_in 1 rfl _).trans
      (show (pdats m (1 : Fin 4) c).A 1 = xout1 m c (Pipeline.arrRef spec1 1) from (exit_of1 m c (Pipeline.arrRef spec1 1) (by decide)).symm)
  | ⟨2, _⟩ => ((pdats m (1 : Fin 4) c).arrAt_in 2 rfl _).trans
      (show (pdats m (1 : Fin 4) c).A 2 = xout1 m c (Pipeline.arrRef spec1 2) from (exit_of1 m c (Pipeline.arrRef spec1 2) (by decide)).symm)
  | ⟨3, _⟩ => (exit_self1 m c).symm

/-- Every other unscoped buffer holds what it held. -/
theorem exitRest1 (c : Dev nD) : ∀ b, b ∉ Finset.univ.image (Pipeline.arrRef spec1) → xout1 m c b = xin1 m c b :=
  fun b hb => exit_of1 m c b fun h => hb (by
    rw [List.mem_singleton] at h; subst h
    exact Finset.mem_image.mpr ⟨3, Finset.mem_univ _, rfl⟩)

set_option backward.isDefEq.respectTransparency.types false in
/-- The region's record. -/
def reg1 : Pipeline.RegionSeg (pcfgs (F := F)) adm (pdats m) () defs₀ 𝒱₀ L lv (1 : Fin 4) where
  win := launch1.win.to₀
  block_pos := launch1.block_pos
  stage_whole := launch1.stage_whole
  K := PEmpty
  osem k := k.elim
  ho := Pipeline.OwnSemFacts.none _
  hbody c := (R1.body_obligation (fun c b => Xin1 m c b) c).loose
  hwaits := Pipeline.hwaits_of_owed_zero _ _ _ _ L lv (1 : Fin 4) fun _ _ => rfl
  pre c := iprop(StableHlo.held (c : Thread nD τ) (Pipeline.ucRefs τ sig) (Xin1 m c) ∗ Rst c)
  post c := iprop(StableHlo.held (c : Thread nD τ) (Pipeline.ucRefs τ sig) (Xout1 m c) ∗ Rst c)
  X c := iprop(∃ r, prngReg c r)
  Y c := iprop(∃ r, prngReg c r)
  Z c := Pipeline.unscopedRest (Ix := Unit) (Name := ℕ) (U := UR sig nD τ) (Lvl := ℕ) spec1 c (xin1 m c)
  hentry c := by
    rw [Pipeline.ownSems0_none]
    have hsplit := Pipeline.arrays_of_unscopedBufs (p := (1 : Fin 4)) (pcfgs (F := F)) adm (pdats m) launch1.win launch1.arr_whole c
      ((pdats m (1 : Fin 4) c).share_full fun _ => rfl) (xin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest1_split (Ix := Unit) (Val := Elt F) (Name := ℕ) (U := UR sig nD τ) (Lvl := ℕ) c
    rw [show (pdats m (1 : Fin 4) c).Φ 0 = R1.inv (fun c b => Xin1 m c b) c 0 from rfl,
      show (Pipeline.scopedRest (Pipeline.pin (pcfgs (F := F)) adm (1 : Fin 4)).spec c : sProp 𝕄) = _ from hs]
    unfold R1.inv
    iintro ⟨Hp, -, ⟨%f, Hs⟩, Hr⟩
    isplitl [Hs]
    · iexists f; isplitr; · ipureintro; intro h; exact absurd rfl h
      iapply (Entails.of_eq (owns_whole (c : Thread nD τ) cc1_scratch0 fullShare f).symm)
      iexact Hs
    isplitl [Hr]; · iexact Hr
    iexact Hp
  hout c := by
    have hs := scopedRest1_split (Ix := Unit) (Val := Elt F) (Name := ℕ) (U := UR sig nD τ) (Lvl := ℕ) c
    rw [Pipeline.ownSems0_none, show (pdats m (1 : Fin 4) c).Φ (Fin.last _) = R1.inv (fun c b => Xin1 m c b) c (Fin.last _) from rfl,
      show (Pipeline.scopedRest (Pipeline.pin (pcfgs (F := F)) adm (1 : Fin 4)).spec c : sProp 𝕄) = _ from hs]
    unfold R1.inv
    iintro ⟨⟨%f, -, Hs⟩, Hr, Hp⟩
    isplitl [Hp]; · iexact Hp
    isplitr; · iempintro
    isplitl [Hs]
    · iexists f
      iapply (Entails.of_eq (owns_whole (c : Thread nD τ) cc1_scratch0 fullShare f))
      iexact Hs
    iexact Hr
  hexit c := by
    have hjoin := Pipeline.unscopedBufs_of_arrays (p := (1 : Fin 4)) (pcfgs (F := F)) adm (Ix := Unit) (Name := ℕ) (U := UR sig nD τ) (Lvl := ℕ)
      launch1.win launch1.arr_whole c (pdats m) ((pdats m (1 : Fin 4) c).share_full fun _ => rfl)
      (xin1 m c) (xout1 m c) ((pdats m (1 : Fin 4) c).arrAt · cfg1.N) (exitF1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Reg2.lean ====
/-
  Region 2 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.KernelIdeal.Pdats
import Idealize.ShloMosaic.Lib.Pipeline.RegionsLoop
import Idealize.ShloMosaic.Lib.Pipeline.FrameBody

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin2 (c : Dev nD) (b : Ref sig .tc) : Buf (Elt F) ((c : Thread nD τ).loc b) := Xin2 m c b
abbrev xout2 (c : Dev nD) (b : Ref sig .tc) : Buf (Elt F) ((c : Thread nD τ).loc b) := Xout2 m c b

/-- At the exit each of the region's arrays holds what the pipeline leaves: an input what it held, the output the
    tiles written back. -/
theorem exitF2 (c : Dev nD) (w : Fin cfg2.W) : (pdats m (2 : Fin 4) c).arrAt w cfg2.N = xout2 m c (Pipeline.arrRef spec2 w) :=
  match w with
  | ⟨0, _⟩ => ((pdats m (2 : Fin 4) c).arrAt_in 0 rfl _).trans
      (show (pdats m (2 : Fin 4) c).A 0 = xout2 m c (Pipeline.arrRef spec2 0) from (exit_of2 m c (Pipeline.arrRef spec2 0) (by decide)).symm)
  | ⟨1, _⟩ => ((pdats m (2 : Fin 4) c).arrAt_in 1 rfl _).trans
      (show (pdats m (2 : Fin 4) c).A 1 = xout2 m c (Pipeline.arrRef spec2 1) from (exit_of2 m c (Pipeline.arrRef spec2 1) (by decide)).symm)
  | ⟨2, _⟩ => ((pdats m (2 : Fin 4) c).arrAt_in 2 rfl _).trans
      (show (pdats m (2 : Fin 4) c).A 2 = xout2 m c (Pipeline.arrRef spec2 2) from (exit_of2 m c (Pipeline.arrRef spec2 2) (by decide)).symm)
  | ⟨3, _⟩ => (exit_self2 m c).symm

/-- Every other unscoped buffer holds what it held. -/
theorem exitRest2 (c : Dev nD) : ∀ b, b ∉ Finset.univ.image (Pipeline.arrRef spec2) → xout2 m c b = xin2 m c b :=
  fun b hb => exit_of2 m c b fun h => hb (by
    rw [List.mem_singleton] at h; subst h
    exact Finset.mem_image.mpr ⟨3, Finset.mem_univ _, rfl⟩)

set_option backward.isDefEq.respectTransparency.types false in
/-- The region's record. -/
def reg2 : Pipeline.RegionSeg (pcfgs (F := F)) adm (pdats m) () defs₀ 𝒱₀ L lv (2 : Fin 4) where
  win := launch2.win.to₀
  block_pos := launch2.block_pos
  stage_whole := launch2.stage_whole
  K := PEmpty
  osem k := k.elim
  ho := Pipeline.OwnSemFacts.none _
  hbody c := (R2.body_obligation (fun c b => Xin2 m c b) c).loose
  hwaits := Pipeline.hwaits_of_owed_zero _ _ _ _ L lv (2 : Fin 4) fun _ _ => rfl
  pre c := iprop(StableHlo.held (c : Thread nD τ) (Pipeline.ucRefs τ sig) (Xin2 m c) ∗ Rst c)
  post c := iprop(StableHlo.held (c : Thread nD τ) (Pipeline.ucRefs τ sig) (Xout2 m c) ∗ Rst c)
  X c := iprop(∃ r, prngReg c r)
  Y c := iprop(∃ r, prngReg c r)
  Z c := Pipeline.unscopedRest (Ix := Unit) (Name := ℕ) (U := UR sig nD τ) (Lvl := ℕ) spec2 c (xin2 m c)
  hentry c := by
    rw [Pipeline.ownSems0_none]
    have hsplit := Pipeline.arrays_of_unscopedBufs (p := (2 : Fin 4)) (pcfgs (F := F)) adm (pdats m) launch2.win launch2.arr_whole c
      ((pdats m (2 : Fin 4) c).share_full fun _ => rfl) (xin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest2_split (Ix := Unit) (Val := Elt F) (Name := ℕ) (U := UR sig nD τ) (Lvl := ℕ) c
    rw [show (pdats m (2 : Fin 4) c).Φ 0 = R2.inv (fun c b => Xin2 m c b) c 0 from rfl,
      show (Pipeline.scopedRest (Pipeline.pin (pcfgs (F := F)) adm (2 : Fin 4)).spec c : sProp 𝕄) = _ from hs]
    unfold R2.inv
    iintro ⟨Hp, -, ⟨%f, Hs⟩, Hr⟩
    isplitl [Hs]
    · iexists f; isplitr; · ipureintro; intro h; exact absurd rfl h
      iapply (Entails.of_eq (owns_whole (c : Thread nD τ) cc2_scratch0 fullShare f).symm)
      iexact Hs
    isplitl [Hr]; · iexact Hr
    iexact Hp
  hout c := by
    have hs := scopedRest2_split (Ix := Unit) (Val := Elt F) (Name := ℕ) (U := UR sig nD τ) (Lvl := ℕ) c
    rw [Pipeline.ownSems0_none, show (pdats m (2 : Fin 4) c).Φ (Fin.last _) = R2.inv (fun c b => Xin2 m c b) c (Fin.last _) from rfl,
      show (Pipeline.scopedRest (Pipeline.pin (pcfgs (F := F)) adm (2 : Fin 4)).spec c : sProp 𝕄) = _ from hs]
    unfold R2.inv
    iintro ⟨⟨%f, -, Hs⟩, Hr, Hp⟩
    isplitl [Hp]; · iexact Hp
    isplitr; · iempintro
    isplitl [Hs]
    · iexists f
      iapply (Entails.of_eq (owns_whole (c : Thread nD τ) cc2_scratch0 fullShare f))
      iexact Hs
    iexact Hr
  hexit c := by
    have hjoin := Pipeline.unscopedBufs_of_arrays (p := (2 : Fin 4)) (pcfgs (F := F)) adm (Ix := Unit) (Name := ℕ) (U := UR sig nD τ) (Lvl := ℕ)
      launch2.win launch2.arr_whole c (pdats m) ((pdats m (2 : Fin 4) c).share_full fun _ => rfl)
      (xin2 m c) (xout2 m c) ((pdats m (2 : Fin 4) c).arrAt · cfg2.N) (exitF2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Reg3.lean ====
/-
  Region 3 as an item of @main.

  The region is entered with every unscoped buffer at the contents before it and left with them at the contents
  after it: its four arrays are sorted out of the unscoped buffers at entry and put back at exit, the three inputs
  unchanged and the output at the tiles written back. The scratch accumulator is one of the scoped buffers that are
  no staging buffer: it enters the region's invariant at whatever it holds and is given back the same way. Nothing
  is owed at any point, and the kernel has no semaphore of its own.
-/
import proofs.«177351_j58944131170770_1_alg».proof.Proof.KernelIdeal.Pdats
import Idealize.ShloMosaic.Lib.Pipeline.RegionsLoop
import Idealize.ShloMosaic.Lib.Pipeline.FrameBody

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents before and after the region, read at the TensorCore's references. -/
abbrev xin3 (c : Dev nD) (b : Ref sig .tc) : Buf (Elt F) ((c : Thread nD τ).loc b) := Xin3 m c b
abbrev xout3 (c : Dev nD) (b : Ref sig .tc) : Buf (Elt F) ((c : Thread nD τ).loc b) := Xout3 m c b

/-- At the exit each of the region's arrays holds what the pipeline leaves: an input what it held, the output the
    tiles written back. -/
theorem exitF3 (c : Dev nD) (w : Fin cfg3.W) : (pdats m (3 : Fin 4) c).arrAt w cfg3.N = xout3 m c (Pipeline.arrRef spec3 w) :=
  match w with
  | ⟨0, _⟩ => ((pdats m (3 : Fin 4) c).arrAt_in 0 rfl _).trans
      (show (pdats m (3 : Fin 4) c).A 0 = xout3 m c (Pipeline.arrRef spec3 0) from (exit_of3 m c (Pipeline.arrRef spec3 0) (by decide)).symm)
  | ⟨1, _⟩ => ((pdats m (3 : Fin 4) c).arrAt_in 1 rfl _).trans
      (show (pdats m (3 : Fin 4) c).A 1 = xout3 m c (Pipeline.arrRef spec3 1) from (exit_of3 m c (Pipeline.arrRef spec3 1) (by decide)).symm)
  | ⟨2, _⟩ => ((pdats m (3 : Fin 4) c).arrAt_in 2 rfl _).trans
      (show (pdats m (3 : Fin 4) c).A 2 = xout3 m c (Pipeline.arrRef spec3 2) from (exit_of3 m c (Pipeline.arrRef spec3 2) (by decide)).symm)
  | ⟨3, _⟩ => (exit_self3 m c).symm

/-- Every other unscoped buffer holds what it held. -/
theorem exitRest3 (c : Dev nD) : ∀ b, b ∉ Finset.univ.image (Pipeline.arrRef spec3) → xout3 m c b = xin3 m c b :=
  fun b hb => exit_of3 m c b fun h => hb (by
    rw [List.mem_singleton] at h; subst h
    exact Finset.mem_image.mpr ⟨3, Finset.mem_univ _, rfl⟩)

set_option backward.isDefEq.respectTransparency.types false in
/-- The region's record. -/
def reg3 : Pipeline.RegionSeg (pcfgs (F := F)) adm (pdats m) () defs₀ 𝒱₀ L lv (3 : Fin 4) where
  win := launch3.win.to₀
  block_pos := launch3.block_pos
  stage_whole := launch3.stage_whole
  K := PEmpty
  osem k := k.elim
  ho := Pipeline.OwnSemFacts.none _
  hbody c := (R3.body_obligation (fun c b => Xin3 m c b) c).loose
  hwaits := Pipeline.hwaits_of_owed_zero _ _ _ _ L lv (3 : Fin 4) fun _ _ => rfl
  pre c := iprop(StableHlo.held (c : Thread nD τ) (Pipeline.ucRefs τ sig) (Xin3 m c) ∗ Rst c)
  post c := iprop(StableHlo.held (c : Thread nD τ) (Pipeline.ucRefs τ sig) (Xout3 m c) ∗ Rst c)
  X c := iprop(∃ r, prngReg c r)
  Y c := iprop(∃ r, prngReg c r)
  Z c := Pipeline.unscopedRest (Ix := Unit) (Name := ℕ) (U := UR sig nD τ) (Lvl := ℕ) spec3 c (xin3 m c)
  hentry c := by
    rw [Pipeline.ownSems0_none]
    have hsplit := Pipeline.arrays_of_unscopedBufs (p := (3 : Fin 4)) (pcfgs (F := F)) adm (pdats m) launch3.win launch3.arr_whole c
      ((pdats m (3 : Fin 4) c).share_full fun _ => rfl) (xin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest3_split (Ix := Unit) (Val := Elt F) (Name := ℕ) (U := UR sig nD τ) (Lvl := ℕ) c
    rw [show (pdats m (3 : Fin 4) c).Φ 0 = R3.inv (fun c b => Xin3 m c b) c 0 from rfl,
      show (Pipeline.scopedRest (Pipeline.pin (pcfgs (F := F)) adm (3 : Fin 4)).spec c : sProp 𝕄) = _ from hs]
    unfold R3.inv
    iintro ⟨Hp, -, ⟨%f, Hs⟩, Hr⟩
    isplitl [Hs]
    · iexists f; isplitr; · ipureintro; intro h; exact absurd rfl h
      iapply (Entails.of_eq (owns_whole (c : Thread nD τ) cc3_scratch0 fullShare f).symm)
      iexact Hs
    isplitl [Hr]; · iexact Hr
    iexact Hp
  hout c := by
    have hs := scopedRest3_split (Ix := Unit) (Val := Elt F) (Name := ℕ) (U := UR sig nD τ) (Lvl := ℕ) c
    rw [Pipeline.ownSems0_none, show (pdats m (3 : Fin 4) c).Φ (Fin.last _) = R3.inv (fun c b => Xin3 m c b) c (Fin.last _) from rfl,
      show (Pipeline.scopedRest (Pipeline.pin (pcfgs (F := F)) adm (3 : Fin 4)).spec c : sProp 𝕄) = _ from hs]
    unfold R3.inv
    iintro ⟨⟨%f, -, Hs⟩, Hr, Hp⟩
    isplitl [Hp]; · iexact Hp
    isplitr; · iempintro
    isplitl [Hs]
    · iexists f
      iapply (Entails.of_eq (owns_whole (c : Thread nD τ) cc3_scratch0 fullShare f))
      iexact Hs
    iexact Hr
  hexit c := by
    have hjoin := Pipeline.unscopedBufs_of_arrays (p := (3 : Fin 4)) (pcfgs (F := F)) adm (Ix := Unit) (Name := ℕ) (U := UR sig nD τ) (Lvl := ℕ)
      launch3.win launch3.arr_whole c (pdats m) ((pdats m (3 : Fin 4) c).share_full fun _ => rfl)
      (xin3 m c) (xout3 m c) ((pdats m (3 : Fin 4) c).arrAt · cfg3.N) (exitF3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.KernelIdeal.Frame.lean ====
/-
  The frame: @main runs to the end, faults nowhere, and leaves its ten argument arrays as launched.

  The conditional frame of the program asks, per region, for a record entered from the contents before the region
  and left at the contents after it; the four records are the regions' own. Beside the buffers every item carries
  the generator register and the core owing nothing; the launch makes that state on every core, and it ends owing
  nothing.
-/
import proofs.«177351_j58944131170770_1_alg».proof.Proof.KernelIdeal.Reg0
import proofs.«177351_j58944131170770_1_alg».proof.Proof.KernelIdeal.Reg1
import proofs.«177351_j58944131170770_1_alg».proof.Proof.KernelIdeal.Reg2
import proofs.«177351_j58944131170770_1_alg».proof.Proof.KernelIdeal.Reg3

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state: the staging cells' invariants and the launch tokens, nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes, on every core, the state that rides beside the buffers. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => Rst (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond (m := m) (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := launch_ghost)
    (E := fun _ c => Rst c) (hE0 := launch_rest ρ)
    (hE4 := fun c => by iintro ⟨-, H⟩; iexact H)
    (R0 := reg0 m) (hpre0 := fun c => by rw [entry_eq0]; exact .rfl) (hpost0 := fun c => by rw [exit_eq0]; exact .rfl)
    (R1 := reg1 m) (hpre1 := fun c => by rw [entry_eq1]; exact .rfl) (hpost1 := fun c => by rw [exit_eq1]; exact .rfl)
    (R2 := reg2 m) (hpre2 := fun c => by rw [entry_eq2]; exact .rfl) (hpost2 := fun c => by rw [exit_eq2]; exact .rfl)
    (R3 := reg3 m) (hpre3 := fun c => by rw [entry_eq3]; exact .rfl) (hpost3 := fun c => by rw [exit_eq3]; exact .rfl)

end Cert.KernelIdeal.Whole

end
-- ==== Proof.KernelIdeal.ValueRun.lean ====
/-
  The run with every buffer named at the end.

  The same launch as the frame's, with a stronger post: when @main returns, every unscoped buffer of a core holds
  the last boundary's contents. In particular the result buffer holds what the last host stretch computes from
  the arrays the regions left, and each argument array what it held at launch.
-/
import proofs.«177351_j58944131170770_1_alg».proof.Proof.KernelIdeal.Frame

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' records meet the host stretches' thread states -/

theorem hpre0 (c : Dev nD) : (iprop(StableHlo.held (c : Thread nD τ) (Pipeline.ucRefs τ sig) (V1 m c) ∗ Rst c) : sProp 𝕄) ⊢ (reg0 m).pre c := by
  rw [entry_eq0]; exact .rfl
theorem hpost0 (c : Dev nD) : (reg0 m).post c ⊢ (iprop(StableHlo.held (c : Thread nD τ) (Pipeline.ucRefs τ sig) (V2 m (outs m) c) ∗ Rst c) : sProp 𝕄) := by
  rw [exit_eq0]; exact .rfl

theorem hpre1 (c : Dev nD) : (iprop(StableHlo.held (c : Thread nD τ) (Pipeline.ucRefs τ sig) (V3 m (outs m) c) ∗ Rst c) : sProp 𝕄) ⊢ (reg1 m).pre c := by
  rw [entry_eq1]; exact .rfl
theorem hpost1 (c : Dev nD) : (reg1 m).post c ⊢ (iprop(StableHlo.held (c : Thread nD τ) (Pipeline.ucRefs τ sig) (V4 m (outs m) c) ∗ Rst c) : sProp 𝕄) := by
  rw [exit_eq1]; exact .rfl

theorem hpre2 (c : Dev nD) : (iprop(StableHlo.held (c : Thread nD τ) (Pipeline.ucRefs τ sig) (V5 m (outs m) c) ∗ Rst c) : sProp 𝕄) ⊢ (reg2 m).pre c := by
  rw [entry_eq2]; exact .rfl
theorem hpost2 (c : Dev nD) : (reg2 m).post c ⊢ (iprop(StableHlo.held (c : Thread nD τ) (Pipeline.ucRefs τ sig) (V6 m (outs m) c) ∗ Rst c) : sProp 𝕄) := by
  rw [exit_eq2]; exact .rfl

theorem hpre3 (c : Dev nD) : (iprop(StableHlo.held (c : Thread nD τ) (Pipeline.ucRefs τ sig) (V7 m (outs m) c) ∗ Rst c) : sProp 𝕄) ⊢ (reg3 m).pre c := by
  rw [entry_eq3]; exact .rfl
theorem hpost3 (c : Dev nD) : (reg3 m).post c ⊢ (iprop(StableHlo.held (c : Thread nD τ) (Pipeline.ucRefs τ sig) (V8 m (outs m) c) ∗ Rst c) : sProp 𝕄) := by
  rw [exit_eq3]; exact .rfl

set_option backward.isDefEq.respectTransparency.types false in
/-- Every weakly fair execution of @main terminates, and every final memory holds each unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) := by
  refine Pipeline.θ_run_regions_kit_dev (pcfgs (F := F)) adm (pdats m) () cellOf_inj emb₁ defs₀ 𝒱₀ L lv m ρ main
    (segs m (outs m) 𝒱₀ L lv (fun _ c => Rst c) () (pdats m) (reg0 m) (reg1 m) (reg2 m) (reg3 m))
    (fun c Q => by
      rewrite [main_chain c, Seg.run_eq_chain,
        show (segs m (outs m) 𝒱₀ L lv (fun _ c => Rst c) () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) (0 : Dev nD → CellTallies nD τ sig Unit) (fun _ _ => rfl)
    (fun _ => iprop(emp)) (initOf (Pipeline.cells cfgs cellOf_inj) (Pipeline.launchToks cfgs cellOf_inj)) launch_ghost
    (T₀ := fun c => iprop(StableHlo.held (c : Thread nD τ) (Pipeline.ucRefs τ sig) (V0 m c) ∗ Rst c))
    (Tₙ := fun c => StableHlo.held (c : Thread nD τ) (Pipeline.ucRefs τ sig) (V9 m (outs m) c))
    (hch := fun c => ⟨.rfl, hpre0 m c, hpost0 m c, hpre1 m c, hpost1 m c, hpre2 m c, hpost2 m c, hpre3 m c, hpost3 m c,
      sep_mono .rfl (show Rst (F := F) c ⊢ (iprop(∃ W, owes (c : Thread nD τ) (0 : CellTallies nD τ sig Unit) W) : sProp 𝕄) from by iintro ⟨-, H⟩; iexact H)⟩)
    (hinit := ?_) (QY := fun c s => ∀ b ∈ Pipeline.ucRefs τ sig, s.mem (((c : Thread nD τ)).1, b) = V9 m (outs m) c b)
    (hfin := fun c s' => ?_) (hQ := fun _ h => h)
  · -- the launch: the unscoped buffers are held at the launch contents; the rest is made on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hjoin : ∀ (A B : Dev nD → sProp 𝕄), iprop(bigSep Finset.univ A ∗ bigSep Finset.univ B) ⊢ bigSep Finset.univ (fun c => iprop(A c ∗ B c)) :=
      fun A B => by rw [bigSep_sep']
    iintro ⟨H, Hla⟩
    ihave H' := hsplit $$ H
    icases H' with ⟨Hh, Hr⟩
    imod (launch_rest (F := F) ρ) $$ [Hr Hla] with HE
    · isplitl [Hr]; · iexact Hr
      iexact Hla
    imodintro
    iapply (hjoin (fun c => StableHlo.held (c : Thread nD τ) (Pipeline.ucRefs τ sig) (V0 m c)) (fun c => Rst c))
    isplitl [Hh]; · iexact Hh
    iexact HE
  · -- the end: every unscoped buffer read off the last contents
    unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro; exact h
    · iexact HSI

end Cert.KernelIdeal.Whole

end
-- ==== Proof.KernelIdeal.Glue.lean ====
import proofs.«177351_j58944131170770_1_alg».proof.Proof.KernelIdeal.Regions
import Idealize.ShloMosaic.Lib.StableHlo.Run

noncomputable section

namespace Cert.KernelIdeal.Glue

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ) (outs : Outs (F := F)) (c : Dev nD)

/-! ## What region 0 finds: the first host stretch

The first stretch converts the input batch `x` and the first encoder weight to bf16 and lays the first encoder
bias out as a row. -/

theorem V1_main_v0 : V1 m c main_v0 = truncf .bf16 (m ((c : Thread nD τ).loc main_arg0)) bitsLt_bf16_f32 := by
  show StableHlo.after hostOps0 (V0 m c) (Proc.devRef .tc main_v0) = _
  after_results

theorem V1_main_v1 : V1 m c main_v1 = truncf .bf16 (m ((c : Thread nD τ).loc main_arg2)) bitsLt_bf16_f32 := by
  show StableHlo.after hostOps0 (V0 m c) (Proc.devRef .tc main_v1) = _
  after_results

theorem V1_main_v2 : V1 m c main_v2 = shapeCast S1x4096 (m ((c : Thread nD τ).loc main_arg3)) shapeCasts_S4096_S1x4096 := by
  show StableHlo.after hostOps0 (V0 m c) (Proc.devRef .tc main_v2) = _
  after_results
  rfl

/-! ## What region 1 finds: region 0's output, then the second host stretch

Region 0 may change only the first hidden layer's array; the second stretch converts the second encoder weight to
bf16 and lays its bias out as a row. -/

/-- A reference that neither the first stretch nor region 0 writes is as launched when the second stretch starts. -/
theorem V2_arg (r : Ref sig .tc) (h0 : r ∉ hostOps0_W) (h1 : r ∉ ([main_v3] : List (Ref sig .tc))) :
    V2 m outs c r = m ((c : Thread nD τ).loc r) :=
  (V2_of m outs c r h1).trans ((V1_of m c r h0).trans rfl)

theorem V3_main_v3 : V3 m outs c main_v3 = outs 2 main_v3 c :=
  (V3_of m outs c main_v3 (by decide)).trans (Function.update_self _ _ _)

theorem V3_main_v4 : V3 m outs c main_v4 = truncf .bf16 (m ((c : Thread nD τ).loc main_arg4)) bitsLt_bf16_f32 := by
  show StableHlo.after hostOps1 (V2 m outs c) (Proc.devRef .tc main_v4) = _
  after_results
  rw [V2_arg m outs c main_arg4 (by decide) (by decide)]

theorem V3_main_v5 : V3 m outs c main_v5 = shapeCast S1x2048 (m ((c : Thread nD τ).loc main_arg5)) shapeCasts_S2048_S1x2048 := by
  show StableHlo.after hostOps1 (V2 m outs c) (Proc.devRef .tc main_v5) = _
  after_results
  rw [V2_arg m outs c main_arg5 (by decide) (by decide)]
  rfl

/-! ## What region 2 finds: the reparameterised sample

Region 1 leaves the encoder's output `enc` (mean and log-variance side by side); the third stretch splits it,
exponentiates the second half and forms `z = mu + exp(logvar) * eps` in f32, rounded to bf16 for the decoder. -/

/-- The latent sample the decoder is fed, as a function of the encoder's output and the noise:
    `bf16 (enc[:, 0:1024] + exp (enc[:, 1024:2048]) * eps)`. -/
def zK (enc : FVec F S8192x2048 .f32) (eps : FVec F S8192x1024 .f32) : FVec F S8192x1024 .bf16 :=
  truncf .bf16
    (addf (extractStridedSlice S8192x1024 ![0, 0] enc slices_S8192x2048_S8192x1024_0_0)
      (mulf (Host.exp (extractStridedSlice S8192x1024 ![0, 1024] enc slices_S8192x2048_S8192x1024_0_1024)) eps))
    bitsLt_bf16_f32

/-- A reference nothing before region 1's exit writes is as launched when the third stretch starts. -/
theorem V4_arg (r : Ref sig .tc) (h0 : r ∉ hostOps0_W) (h1 : r ∉ ([main_v3] : List (Ref sig .tc)))
    (h2 : r ∉ hostOps1_W) (h3 : r ∉ ([main_v6] : List (Ref sig .tc))) :
    V4 m outs c r = m ((c : Thread nD τ).loc r) :=
  (V4_of m outs c r h3).trans ((V3_of m outs c r h2).trans (V2_arg m outs c r h0 h1))

theorem V4_main_v6 : V4 m outs c main_v6 = outs 4 main_v6 c := Function.update_self _ _ _

/-- The mean: the left half of the encoder's output. -/
theorem V5_main_v7 : V5 m outs c main_v7
    = extractStridedSlice S8192x1024 ![0, 0] (outs 4 main_v6 c : FVec F S8192x2048 .f32) slices_S8192x2048_S8192x1024_0_0 := by
  show StableHlo.after hostOps2 (V4 m outs c) (Proc.devRef .tc main_v7) = _
  after_results
  rw [V4_main_v6 m outs c]

/-- The log-variance: the right half of the encoder's output. -/
theorem V5_main_v8 : V5 m outs c main_v8
    = extractStridedSlice S8192x1024 ![0, 1024] (outs 4 main_v6 c : FVec F S8192x2048 .f32) slices_S8192x2048_S8192x1024_0_1024 := by
  show StableHlo.after hostOps2 (V4 m outs c) (Proc.devRef .tc main_v8) = _
  after_results
  rw [V4_main_v6 m outs c]

/-- The scale: the exponential of the log-variance. -/
theorem V5_main_v9 : V5 m outs c main_v9
    = Host.exp (extractStridedSlice S8192x1024 ![0, 1024] (outs 4 main_v6 c : FVec F S8192x2048 .f32) slices_S8192x2048_S8192x1024_0_1024) := by
  show StableHlo.after hostOps2 (V4 m outs c) (Proc.devRef .tc main_v9) = _
  after_results
  rw [V4_main_v6 m outs c]

theorem V5_main_v12 : V5 m outs c main_v12 = zK (outs 4 main_v6 c) (m ((c : Thread nD τ).loc main_arg1)) := by
  show StableHlo.after hostOps2 (V4 m outs c) (Proc.devRef .tc main_v12) = _
  after_results
  rw [V4_main_v6 m outs c, V4_arg m outs c main_arg1 (by decide) (by decide) (by decide) (by decide)]
  rfl

theorem V5_main_v13 : V5 m outs c main_v13 = truncf .bf16 (m ((c : Thread nD τ).loc main_arg6)) bitsLt_bf16_f32 := by
  show StableHlo.after hostOps2 (V4 m outs c) (Proc.devRef .tc main_v13) = _
  after_results
  rw [V4_arg m outs c main_arg6 (by decide) (by decide) (by decide) (by decide)]

theorem V5_main_v14 : V5 m outs c main_v14 = shapeCast S1x4096 (m ((c : Thread nD τ).loc main_arg7)) shapeCasts_S4096_S1x4096 := by
  show StableHlo.after hostOps2 (V4 m outs c) (Proc.devRef .tc main_v14) = _
  after_results
  rw [V4_arg m outs c main_arg7 (by decide) (by decide) (by decide) (by decide)]
  rfl

/-! ## What region 3 finds: region 2's output, then the fourth host stretch -/

/-- A reference nothing before region 2's exit writes is as launched when the fourth stretch starts. -/
theorem V6_arg (r : Ref sig .tc) (h0 : r ∉ hostOps0_W) (h1 : r ∉ ([main_v3] : List (Ref sig .tc)))
    (h2 : r ∉ hostOps1_W) (h3 : r ∉ ([main_v6] : List (Ref sig .tc)))
    (h4 : r ∉ hostOps2_W) (h5 : r ∉ ([main_v15] : List (Ref sig .tc))) :
    V6 m outs c r = m ((c : Thread nD τ).loc r) :=
  (V6_of m outs c r h5).trans ((V5_of m outs c r h4).trans (V4_arg m outs c r h0 h1 h2 h3))

theorem V7_main_v15 : V7 m outs c main_v15 = outs 6 main_v15 c :=
  (V7_of m outs c main_v15 (by decide)).trans (Function.update_self _ _ _)

theorem V7_main_v16 : V7 m outs c main_v16 = truncf .bf16 (m ((c : Thread nD τ).loc main_arg8)) bitsLt_bf16_f32 := by
  show StableHlo.after hostOps3 (V6 m outs c) (Proc.devRef .tc main_v16) = _
  after_results
  rw [V6_arg m outs c main_arg8 (by decide) (by decide) (by decide) (by decide) (by decide) (by decide)]

theorem V7_main_v17 : V7 m outs c main_v17 = shapeCast S1x8192 (m ((c : Thread nD τ).loc main_arg9)) shapeCasts_S8192_S1x8192 := by
  show StableHlo.after hostOps3 (V6 m outs c) (Proc.devRef .tc main_v17) = _
  after_results
  rw [V6_arg m outs c main_arg9 (by decide) (by decide) (by decide) (by decide) (by decide) (by decide)]
  rfl

/-! ## What @main ends with: the loss

Region 3 leaves the decoder's output `dec` (reconstruction mean and log-variance side by side). The last stretch
forms, from `dec`, the encoder's mean, log-variance and scale (all three functions of `enc`) and the input `x`, the
mean over the batch of the Gaussian negative log-likelihood plus the mean over the batch of the KL term. -/

/-- The loss as a function of the decoder's output, the encoder's output and the input batch. With
    `mu = enc[:, 0:1024]`, `logvar = enc[:, 1024:2048]`, `std = exp logvar`, `rec = dec[:, 0:4096]`,
    `var = max (exp (2 * dec[:, 4096:8192])) 1e-6`:
    `(∑ ½ (log var + (x - rec)² / var)) / 8192 + (∑ ½ (std² + mu² - 1 - 2 logvar)) / 8192`,
    each sum taken over the feature axis and then over the batch axis, from zero. -/
def tailK (dec : FVec F S8192x8192 .f32) (enc : FVec F S8192x2048 .f32) (x : FVec F S8192x4096 .f32) : FVec F S_ .f32 :=
  (addf
    (Host.divf
      (Host.reduceAdd
        (Host.reduceAdd
          (mulf
            (broadcastInDim S8192x4096 ![] bcast_S_S8192x4096 (constant (F := F) S_ .f32 0x3F000000#32))
            (addf
              (Host.log
                (maximumf
                  (Host.exp
                    (mulf
                      (broadcastInDim S8192x4096 ![] bcast_S_S8192x4096
                        (constant (F := F) S_ .f32 0x40000000#32))
                      (extractStridedSlice S8192x4096 ![0, 4096] dec slices_S8192x8192_S8192x4096_0_4096)))
                  (broadcastInDim S8192x4096 ![] bcast_S_S8192x4096 (constant (F := F) S_ .f32 0x358637BD#32))))
              (Host.divf
                (mulf
                  (subf x (extractStridedSlice S8192x4096 ![0, 0] dec slices_S8192x8192_S8192x4096_0_0))
                  (subf x (extractStridedSlice S8192x4096 ![0, 0] dec slices_S8192x8192_S8192x4096_0_0)))
                (maximumf
                  (Host.exp
                    (mulf
                      (broadcastInDim S8192x4096 ![] bcast_S_S8192x4096
                        (constant (F := F) S_ .f32 0x40000000#32))
                      (extractStridedSlice S8192x4096 ![0, 4096] dec slices_S8192x8192_S8192x4096_0_4096)))
                  (broadcastInDim S8192x4096 ![] bcast_S_S8192x4096 (constant (F := F) S_ .f32 0x358637BD#32))))))
          (constant (F := F) S_ .f32 0x00000000#32)
          reducesTo_S8192x4096_S8192_d1 h_S_)
        (constant (F := F) S_ .f32 0x00000000#32)
        reducesTo_S8192_S_d0 h_S_)
      (constant (F := F) S_ .f32 0x46000000#32))
    (Host.divf
      (Host.reduceAdd
        (Host.reduceAdd
          (mulf
            (broadcastInDim S8192x1024 ![] bcast_S_S8192x1024 (constant (F := F) S_ .f32 0x3F000000#32))
            (subf
              (subf
                (addf
                  (mulf
                    (Host.exp
                      (extractStridedSlice S8192x1024 ![0, 1024] enc slices_S8192x2048_S8192x1024_0_1024))
                    (Host.exp
                      (extractStridedSlice S8192x1024 ![0, 1024] enc slices_S8192x2048_S8192x1024_0_1024)))
                  (mulf
                    (extractStridedSlice S8192x1024 ![0, 0] enc slices_S8192x2048_S8192x1024_0_0)
                    (extractStridedSlice S8192x1024 ![0, 0] enc slices_S8192x2048_S8192x1024_0_0)))
                (broadcastInDim S8192x1024 ![] bcast_S_S8192x1024 (constant (F := F) S_ .f32 0x3F800000#32)))
              (mulf
                (broadcastInDim S8192x1024 ![] bcast_S_S8192x1024 (constant (F := F) S_ .f32 0x40000000#32))
                (extractStridedSlice S8192x1024 ![0, 1024] enc slices_S8192x2048_S8192x1024_0_1024))))
          (constant (F := F) S_ .f32 0x00000000#32)
          reducesTo_S8192x1024_S8192_d1 h_S_)
        (constant (F := F) S_ .f32 0x00000000#32)
        reducesTo_S8192_S_d0 h_S_)
      (constant (F := F) S_ .f32 0x46000000#32)))

/-- A reference that region 2, the fourth stretch and region 3 leave alone is, when the last stretch starts, what
    the third stretch left. -/
theorem V8_of_V5 (r : Ref sig .tc) (h5 : r ∉ ([main_v15] : List (Ref sig .tc))) (h6 : r ∉ hostOps3_W)
    (h7 : r ∉ ([main_v18] : List (Ref sig .tc))) : V8 m outs c r = V5 m outs c r :=
  (V8_of m outs c r h7).trans ((V7_of m outs c r h6).trans (V6_of m outs c r h5))

theorem V8_main_v18 : V8 m outs c main_v18 = outs 8 main_v18 c := Function.update_self _ _ _

theorem V8_main_v7 : V8 m outs c main_v7
    = extractStridedSlice S8192x1024 ![0, 0] (outs 4 main_v6 c : FVec F S8192x2048 .f32) slices_S8192x2048_S8192x1024_0_0 :=
  (V8_of_V5 m outs c main_v7 (by decide) (by decide) (by decide)).trans (V5_main_v7 m outs c)

theorem V8_main_v8 : V8 m outs c main_v8
    = extractStridedSlice S8192x1024 ![0, 1024] (outs 4 main_v6 c : FVec F S8192x2048 .f32) slices_S8192x2048_S8192x1024_0_1024 :=
  (V8_of_V5 m outs c main_v8 (by decide) (by decide) (by decide)).trans (V5_main_v8 m outs c)

theorem V8_main_v9 : V8 m outs c main_v9
    = Host.exp (extractStridedSlice S8192x1024 ![0, 1024] (outs 4 main_v6 c : FVec F S8192x2048 .f32) slices_S8192x2048_S8192x1024_0_1024) :=
  (V8_of_V5 m outs c main_v9 (by decide) (by decide) (by decide)).trans (V5_main_v9 m outs c)

theorem V8_main_arg0 : V8 m outs c main_arg0 = m ((c : Thread nD τ).loc main_arg0) :=
  (V8_of_V5 m outs c main_arg0 (by decide) (by decide) (by decide)).trans
    ((V5_of m outs c main_arg0 (by decide)).trans (V4_arg m outs c main_arg0 (by decide) (by decide) (by decide) (by decide)))

theorem V9_main_v49 : V9 m outs c main_v49
    = tailK (outs 8 main_v18 c) (outs 4 main_v6 c) (m ((c : Thread nD τ).loc main_arg0)) := by
  show StableHlo.after hostOps4 (V8 m outs c) (Proc.devRef .tc main_v49) = _
  after_results_simp
  rw [V8_main_v18 m outs c, V8_main_v7 m outs c, V8_main_v8 m outs c, V8_main_v9 m outs c, V8_main_arg0 m outs c]
  rfl

end Cert.KernelIdeal.Glue
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelIdeal.R0.Value.lean ====
/-
  The first matmul kernel's result array, index by index.

  The grid is 8 × 4 × 4 (row tile, column tile, contraction step; tiles 1024 × 1024). Point t has coordinates
  (t / 16, t / 4 % 4, t % 4). The accumulator after a last contraction step holds, at (y0, y1) of the tile, the four
  tile products of that run of points added in order to zero; over the extended reals this is the sum over the whole
  contracted coordinate of lhs (1024 i + y0, k) · rhs (k, 1024 j + y1). The finished tile adds the bias row and takes
  the maximum with zero; the tiles written back at the last steps cover the result array.
-/
import proofs.«177351_j58944131170770_1_alg».proof.Proof.KernelIdeal.R0.Data
import proofs.«177351_j58944131170770_1_alg».proof.Proof.LibDense
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Defs
import Mathlib.Data.EReal.Basic
import Mathlib.Data.Fintype.BigOperators
import Mathlib.Logic.Equiv.Defs

noncomputable section

namespace Cert.KernelIdeal.R0

open Idealize.ShloMosaic Idealize.ShloMosaic.TcCoe
open Idealize.SL.Sem
open Idealize.ShloMosaic.Pipeline (Dat)
open Idealize.ShloMosaic.ValueIdx (ix1 ix2 eq_ix2)
open Cert.KernelIdeal Cert.KernelIdeal.Gen

variable (V : (c : Dev nD) → (b : Ref sig .tc) → Buf (Elt Ideal) ((c : Thread nD τ).loc b))

/-! ## The grid, decided -/

/-- The windows' block indices at point t: the left operand's tile is (t / 16, t % 4), the right operand's
    (t % 4, t / 4 % 4), the bias row's (0, t / 4 % 4), the result's (t / 16, t / 4 % 4). -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- A point is a first contraction step exactly when its number is a multiple of four. -/
theorem first_iff : ∀ t : Fin cfg0.N, isFirst (grid0.coords t) ↔ t.val % 4 = 0 :=
  (by decide +kernel : ∀ t : Fin grid0.N, _)

theorem N_eq : cfg0.N = 128 := by decide

/-! ## The tiles read off their arrays -/

/-- The three input arrays as the region finds them. -/
abbrev lhsA (c : Dev nD) : FVec Ideal S8192x4096 .bf16 := V c main_v0
abbrev rhsA (c : Dev nD) : FVec Ideal S4096x4096 .bf16 := V c main_v1
abbrev biasA (c : Dev nD) : FVec Ideal S1x4096 .f32 := V c main_v2

/-- The tiles at a point, at their literal types. -/
abbrev lhsT (c : Dev nD) (t : Fin cfg0.N) : FVec Ideal S1024x1024 .bf16 := iblk V c 0 t
abbrev rhsT (c : Dev nD) (t : Fin cfg0.N) : FVec Ideal S1024x1024 .bf16 := iblk V c 1 t
abbrev biasT (c : Dev nD) (t : Fin cfg0.N) : FVec Ideal S1x1024 .f32 := iblk V c 2 t

/-- The left operand's tile at (y, kk) is the array at (1024 (t / 16) + y, 1024 (t % 4) + kk). -/
theorem lhsT_apply (c : Dev nD) (t : Fin cfg0.N) (y kk : Fin 1024) (i : Fin 8192) (k : Fin 4096)
    (hi : i.val = 1024 * (t.val / 16) + y.val) (hk : k.val = 1024 * (t.val % 4) + kk.val) :
    lhsT V c t (ix2 y kk) = lhsA V c (ix2 i k) := by
  obtain ⟨e0, e1, -⟩ := idx_facts t
  show V c main_v0 (((cfg0.win 0).blk t).view.emb (ix2 y kk)) = V c main_v0 (ix2 i k)
  refine congrArg _ (funext fun a => Fin.ext ?_)
  match a with
  | ⟨0, _⟩ => show win0_0.index t (0 : Fin 2) * 1024 + 1 * y.val = i.val; omega
  | ⟨1, _⟩ => show win0_0.index t (1 : Fin 2) * 1024 + 1 * kk.val = k.val; omega

/-- The right operand's tile at (kk, y) is the array at (1024 (t % 4) + kk, 1024 (t / 4 % 4) + y). -/
theorem rhsT_apply (c : Dev nD) (t : Fin cfg0.N) (kk y : Fin 1024) (k j : Fin 4096)
    (hk : k.val = 1024 * (t.val % 4) + kk.val) (hj : j.val = 1024 * (t.val / 4 % 4) + y.val) :
    rhsT V c t (ix2 kk y) = rhsA V c (ix2 k j) := by
  obtain ⟨-, -, e0, e1, -⟩ := idx_facts t
  show V c main_v1 (((cfg0.win 1).blk t).view.emb (ix2 kk y)) = V c main_v1 (ix2 k j)
  refine congrArg _ (funext fun a => Fin.ext ?_)
  match a with
  | ⟨0, _⟩ => show win0_1.index t (0 : Fin 2) * 1024 + 1 * kk.val = k.val; omega
  | ⟨1, _⟩ => show win0_1.index t (1 : Fin 2) * 1024 + 1 * y.val = j.val; omega

/-- The bias row's tile at (0, y) is the row at (0, 1024 (t / 4 % 4) + y). -/
theorem biasT_apply (c : Dev nD) (t : Fin cfg0.N) (y : Fin 1024) (j : Fin 4096)
    (hj : j.val = 1024 * (t.val / 4 % 4) + y.val) :
    biasT V c t (ix2 (0 : Fin 1) y) = biasA V c (ix2 (0 : Fin 1) j) := by
  obtain ⟨-, -, -, -, e0, e1, -⟩ := idx_facts t
  show V c main_v2 (((cfg0.win 2).blk t).view.emb (ix2 (0 : Fin 1) y)) = V c main_v2 (ix2 (0 : Fin 1) j)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * y.val = j.val; omega

/-! ## Four tiles of 1024 make the contracted coordinate -/

/-- Position k of the contracted coordinate is position k % 1024 of tile k / 1024. -/
def tileEquiv : Fin 4 × Fin 1024 ≃ Fin 4096 where
  toFun p := ⟨1024 * p.1.val + p.2.val, by have := p.1.isLt; have := p.2.isLt; omega⟩
  invFun k := (⟨k.val / 1024, by have := k.isLt; omega⟩, ⟨k.val % 1024, by omega⟩)
  left_inv p := Prod.ext
    (Fin.ext (by show (1024 * p.1.val + p.2.val) / 1024 = p.1.val; have := p.2.isLt; omega))
    (Fin.ext (by show (1024 * p.1.val + p.2.val) % 1024 = p.2.val; have := p.2.isLt; omega))
  right_inv k := Fin.ext (by show 1024 * (k.val / 1024) + k.val % 1024 = k.val; omega)

/-- A sum over Fin 4096 is the sum of its four consecutive stretches of 1024 terms (added, in order, to zero). -/
theorem sum_tiles (f : Fin 4096 → EReal) (g0 g1 g2 g3 : Fin 1024 → EReal)
    (h0 : ∀ (kk : Fin 1024) (k : Fin 4096), k.val = kk.val → g0 kk = f k)
    (h1 : ∀ (kk : Fin 1024) (k : Fin 4096), k.val = 1024 + kk.val → g1 kk = f k)
    (h2 : ∀ (kk : Fin 1024) (k : Fin 4096), k.val = 2048 + kk.val → g2 kk = f k)
    (h3 : ∀ (kk : Fin 1024) (k : Fin 4096), k.val = 3072 + kk.val → g3 kk = f k) :
    0 + ∑ kk, g0 kk + ∑ kk, g1 kk + ∑ kk, g2 kk + ∑ kk, g3 kk = ∑ k, f k := by
  have e : ∑ k : Fin 4096, f k = ∑ p : Fin 4 × Fin 1024, f (tileEquiv p) := (Equiv.sum_comp tileEquiv f).symm
  rw [e, Fintype.sum_prod_type, Fin.sum_univ_four, zero_add]
  have e0 : ∑ kk, g0 kk = ∑ kk : Fin 1024, f (tileEquiv ((0 : Fin 4), kk)) :=
    Finset.sum_congr rfl fun kk _ => h0 kk _ (by show 1024 * 0 + kk.val = kk.val; omega)
  have e1 : ∑ kk, g1 kk = ∑ kk : Fin 1024, f (tileEquiv ((1 : Fin 4), kk)) :=
    Finset.sum_congr rfl fun kk _ => h1 kk _ (by show 1024 * 1 + kk.val = 1024 + kk.val; omega)
  have e2 : ∑ kk, g2 kk = ∑ kk : Fin 1024, f (tileEquiv ((2 : Fin 4), kk)) :=
    Finset.sum_congr rfl fun kk _ => h2 kk _ (by show 1024 * 2 + kk.val = 2048 + kk.val; omega)
  have e3 : ∑ kk, g3 kk = ∑ kk : Fin 1024, f (tileEquiv ((3 : Fin 4), kk)) :=
    Finset.sum_congr rfl fun kk _ => h3 kk _ (by show 1024 * 3 + kk.val = 3072 + kk.val; omega)
  rw [e0, e1, e2, e3]

/-! ## The accumulator -/

theorem pt_val_of_lt (n : ℕ) (h : n < 128) : (pt n).val = n := Nat.mod_eq_of_lt (by rw [N_eq]; exact h)

/-- The accumulator's reset value is zero everywhere. -/
theorem pay1_apply (y : S1024x1024.Idx) : k0_pay1 (F := Ideal) y = 0 := by
  unfold k0_pay1
  simp only [shapeCast_self]
  exact Ideal.ofBits_zero_f32

/-- One step of the body's accumulation: the product of the two tiles, into a zero array, added to what was there. -/
theorem pay2_eq (acc : FVec Ideal S1024x1024 .f32) (a b : FVec Ideal S1024x1024 .bf16) :
    k0_pay2 acc a b
      = addf acc (matmul dot_S1024x1024_S1024x1024_S1024x1024_1_0_0_1_n_n none a b
          (constant (F := Ideal) S1024x1024 .f32 0x00000000#32)) := by
  unfold k0_pay2
  simp only [shapeCast_self]

/-- The product of the two input tiles at a point. -/
def prodT (c : Dev nD) (t : Fin cfg0.N) : FVec Ideal S1024x1024 .f32 :=
  matmul dot_S1024x1024_S1024x1024_S1024x1024_1_0_0_1_n_n none (lhsT V c t) (rhsT V c t)
    (constant (F := Ideal) S1024x1024 .f32 0x00000000#32)

/-- At (y0, y1) it is the sum over the tile's contracted coordinate. -/
theorem prodT_apply (c : Dev nD) (t : Fin cfg0.N) (y0 y1 : Fin 1024) :
    prodT V c t (ix2 y0 y1) = ∑ kk : Fin 1024, lhsT V c t (ix2 y0 kk) * rhsT V c t (ix2 kk y1) := by
  have hd : dot_S1024x1024_S1024x1024_S1024x1024_1_0_0_1_n_n = DotDims.plain 1024 1024 1024 := rfl
  unfold prodT
  rw [hd]
  exact Cert.LibDense.matmul_plain_zero_apply none (lhsT V c t) (rhsT V c t) y0 y1

/-- At a first contraction step the accumulator restarts from zero. -/
theorem accAt_first (c : Dev nD) (n : ℕ) (h : isFirst (grid0.coords (pt n))) :
    accAt V c n = addf (k0_pay1 (F := Ideal)) (prodT V c (pt n)) := by
  cases n with
  | zero =>
    show accNext _ _ _ _ = _
    unfold accNext
    rw [if_pos h, pay2_eq]
    rfl
  | succ n =>
    show accNext _ _ _ _ = _
    unfold accNext
    rw [if_pos h, pay2_eq]
    rfl

/-- At any other step it adds the point's tile product to what it held. -/
theorem accAt_next (c : Dev nD) (n : ℕ) (h : ¬isFirst (grid0.coords (pt (n + 1)))) :
    accAt V c (n + 1) = addf (accAt V c n) (prodT V c (pt (n + 1))) := by
  show accNext _ _ _ _ = _
  unfold accNext
  rw [if_neg h, pay2_eq]
  rfl

/-- Over a run of four points from a first step: zero plus the four tile products, in order. -/
theorem acc_run (c : Dev nD) (n : ℕ) (hn : n + 3 < 128) (h4 : n % 4 = 0) :
    accAt V c (n + 3)
      = addf (addf (addf (addf (k0_pay1 (F := Ideal)) (prodT V c (pt n))) (prodT V c (pt (n + 1)))) (prodT V c (pt (n + 2))))
          (prodT V c (pt (n + 3))) := by
  have f0 : isFirst (grid0.coords (pt n)) := (first_iff (pt n)).mpr (by rw [pt_val_of_lt n (by omega)]; exact h4)
  have f1 : ¬isFirst (grid0.coords (pt (n + 1))) := fun h => by
    have := (first_iff _).mp h; rw [pt_val_of_lt (n + 1) (by omega)] at this; omega
  have f2 : ¬isFirst (grid0.coords (pt (n + 2))) := fun h => by
    have := (first_iff _).mp h; rw [pt_val_of_lt (n + 2) (by omega)] at this; omega
  have f3 : ¬isFirst (grid0.coords (pt (n + 3))) := fun h => by
    have := (first_iff _).mp h; rw [pt_val_of_lt (n + 3) (by omega)] at this; omega
  rw [accAt_next V c (n + 2) f3, accAt_next V c (n + 1) f2, accAt_next V c n f1, accAt_first V c n f0]

/-- THE ACCUMULATOR AT A LAST STEP, at (y0, y1): the whole contraction of the left operand's row and the right
    operand's column that the tile's entry stands for. -/
theorem acc_last_apply (c : Dev nD) (t : Fin cfg0.N) (ht : t.val % 4 = 3) (y0 y1 : Fin 1024) (r : Fin 8192) (j : Fin 4096)
    (hr : r.val = 1024 * (t.val / 16) + y0.val) (hj : j.val = 1024 * (t.val / 4 % 4) + y1.val) :
    accAt V c t.val (ix2 y0 y1) = ∑ k : Fin 4096, lhsA V c (ix2 r k) * rhsA V c (ix2 k j) := by
  obtain ⟨n, hn⟩ : ∃ n, t.val = n + 3 := ⟨t.val - 3, by omega⟩
  have hN : t.val < 128 := lt_of_lt_of_eq t.isLt N_eq
  have hlt : n + 3 < 128 := by omega
  have h4 : n % 4 = 0 := by omega
  have p0 := pt_val_of_lt n (by omega)
  have p1 := pt_val_of_lt (n + 1) (by omega)
  have p2 := pt_val_of_lt (n + 2) (by omega)
  have p3 := pt_val_of_lt (n + 3) (by omega)
  rw [hn, acc_run V c n hlt h4]
  show k0_pay1 (F := Ideal) (ix2 y0 y1) + prodT V c (pt n) (ix2 y0 y1) + prodT V c (pt (n + 1)) (ix2 y0 y1)
      + prodT V c (pt (n + 2)) (ix2 y0 y1) + prodT V c (pt (n + 3)) (ix2 y0 y1) = _
  rw [pay1_apply, prodT_apply, prodT_apply, prodT_apply, prodT_apply]
  refine sum_tiles (fun k => lhsA V c (ix2 r k) * rhsA V c (ix2 k j)) _ _ _ _ ?_ ?_ ?_ ?_
  · intro kk k hk
    rw [lhsT_apply V c (pt n) y0 kk r k (by rw [p0]; omega) (by rw [p0]; omega),
      rhsT_apply V c (pt n) kk y1 k j (by rw [p0]; omega) (by rw [p0]; omega)]
  · intro kk k hk
    rw [lhsT_apply V c (pt (n + 1)) y0 kk r k (by rw [p1]; omega) (by rw [p1]; omega),
      rhsT_apply V c (pt (n + 1)) kk y1 k j (by rw [p1]; omega) (by rw [p1]; omega)]
  · intro kk k hk
    rw [lhsT_apply V c (pt (n + 2)) y0 kk r k (by rw [p2]; omega) (by rw [p2]; omega),
      rhsT_apply V c (pt (n + 2)) kk y1 k j (by rw [p2]; omega) (by rw [p2]; omega)]
  · intro kk k hk
    rw [lhsT_apply V c (pt (n + 3)) y0 kk r k (by rw [p3]; omega) (by rw [p3]; omega),
      rhsT_apply V c (pt (n + 3)) kk y1 k j (by rw [p3]; omega) (by rw [p3]; omega)]

/-! ## The finished tile -/

/-- THE FINISHED TILE AT A LAST STEP, at (y0, y1): the dense layer with ReLU of the left operand's row. -/
theorem outAt_apply (c : Dev nD) (t : Fin cfg0.N) (ht : t.val % 4 = 3) (y0 y1 : Fin 1024) (r : Fin 8192) (j : Fin 4096)
    (hr : r.val = 1024 * (t.val / 16) + y0.val) (hj : j.val = 1024 * (t.val / 4 % 4) + y1.val) :
    (outAt V c t : FVec Ideal S1024x1024 .bf16) (ix2 y0 y1)
      = Cert.LibDense.dense (fun k : Fin 4096 => lhsA V c (ix2 r k)) (fun k j => rhsA V c (ix2 k j))
          (fun j => biasA V c (ix2 (0 : Fin 1) j)) j := by
  unfold outAt k0_pay3
  simp only [shapeCast_self]
  show max (accAt V c t.val (ix2 y0 y1) + broadcastTo S1024x1024 (biasT V c t) broadcasts_S1x1024_S1024x1024 (ix2 y0 y1))
      (Ideal.ofBits .f32 0x00000000#32) = _
  rw [Idealize.ShloMosaic.ValueIdx.broadcastTo_1b_ab_apply, Ideal.ofBits_zero_f32, biasT_apply V c t y1 j hj, acc_last_apply V c t ht y0 y1 r j hr hj]
  rfl

/-! ## The result array -/

/-- What the result array ends holding: at (r, j) the dense layer with ReLU of the left operand's row r. -/
def layerOut (c : Dev nD) : FVec Ideal S8192x4096 .bf16 := fun i =>
  Cert.LibDense.dense (fun k : Fin 4096 => lhsA V c (ix2 (⟨(i 0).val, (i 0).isLt⟩ : Fin 8192) k))
    (fun k j => rhsA V c (ix2 k j)) (fun j => biasA V c (ix2 (0 : Fin 1) j)) (⟨(i 1).val, (i 1).isLt⟩ : Fin 4096)

theorem layerOut_apply (c : Dev nD) (i : S8192x4096.Idx) (r : Fin 8192) (j : Fin 4096) (hr : (i 0).val = r.val)
    (hj : (i 1).val = j.val) :
    layerOut V c i
      = Cert.LibDense.dense (fun k : Fin 4096 => lhsA V c (ix2 r k)) (fun k j => rhsA V c (ix2 k j))
          (fun j => biasA V c (ix2 (0 : Fin 1) j)) j := by
  have e0 : (⟨(i 0).val, (i 0).isLt⟩ : Fin 8192) = r := Fin.ext hr
  have e1 : (⟨(i 1).val, (i 1).isLt⟩ : Fin 4096) = j := Fin.ext hj
  unfold layerOut
  rw [e0, e1]

/-- WHAT A LAST STEP WRITES BACK is its tile of that array. -/
theorem flushed_eq (c : Dev nD) (t : Fin cfg0.N) (hf : (cfg0.win 3).flush t = true) :
    (dat V c).flushed 3 t = ((cfg0.win 3).blk t).view.read (Elt Ideal) (layerOut V c) := by
  have ht : t.val % 4 = 3 := (flush0_3 t).mp hf
  have hN : t.val < 128 := lt_of_lt_of_eq t.isLt N_eq
  obtain ⟨-, -, -, -, -, -, e0, e1⟩ := idx_facts t
  show (cfg0.win 3).cut (grid0.coords t) ((dat V c).after 3 t) = _
  rw [after3]
  funext y
  obtain ⟨y0, y1, rfl⟩ : ∃ (y0 y1 : Fin 1024), y = ix2 y0 y1 := ⟨y 0, y 1, eq_ix2 y⟩
  show (outAt V c t : FVec Ideal S1024x1024 .bf16) (ix2 y0 y1) = layerOut V c (((cfg0.win 3).blk t).view.emb (ix2 y0 y1))
  have b0 : y0.val < 1024 := y0.isLt
  have b1 : y1.val < 1024 := y1.isLt
  rw [outAt_apply V c t ht y0 y1 ⟨1024 * (t.val / 16) + y0.val, by omega⟩ ⟨1024 * (t.val / 4 % 4) + y1.val, by omega⟩ rfl rfl]
  refine (layerOut_apply V c _ _ _ ?_ ?_).symm
  · show win0_3.index t (0 : Fin 2) * 1024 + 1 * y0.val = 1024 * (t.val / 16) + y0.val
    omega
  · show win0_3.index t (1 : Fin 2) * 1024 + 1 * y1.val = 1024 * (t.val / 4 % 4) + y1.val
    omega

/-- Every index of the result array is in the tile of a last step: (r, j) in that of point
    16 (r / 1024) + 4 (j / 1024) + 3. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  obtain ⟨n, hn⟩ : ∃ n, n = 16 * ((i 0).val / 1024) + 4 * ((i 1).val / 1024) + 3 := ⟨_, rfl⟩
  have hlt : n < 128 := by omega
  have hlt' : n < cfg0.N := lt_of_lt_of_eq hlt N_eq.symm
  obtain ⟨-, -, -, -, -, -, e0, e1⟩ := idx_facts ⟨n, hlt'⟩
  have e0' : win0_3.index ⟨n, hlt'⟩ (0 : Fin 2) = n / 16 := e0
  have e1' : win0_3.index ⟨n, hlt'⟩ (1 : Fin 2) = n / 4 % 4 := e1
  refine ⟨⟨n, hlt'⟩, (flush0_3 ⟨n, hlt'⟩).mpr (by show n % 4 = 3; omega), ?_⟩
  show i ∈ ((View.whole main_v3).slice (win0_3.rect ⟨n, hlt'⟩)).set
  rw [View.set_slice_whole, Rect.mem_set_unit]
  intro a
  match a with
  | ⟨0, _⟩ =>
    show win0_3.index ⟨n, hlt'⟩ (0 : Fin 2) * 1024 ≤ (i 0).val ∧ (i 0).val < win0_3.index ⟨n, hlt'⟩ (0 : Fin 2) * 1024 + 1024
    rw [e0']; omega
  | ⟨1, _⟩ =>
    show win0_3.index ⟨n, hlt'⟩ (1 : Fin 2) * 1024 ≤ (i 1).val ∧ (i 1).val < win0_3.index ⟨n, hlt'⟩ (1 : Fin 2) * 1024 + 1024
    rw [e1']; omega

/-- So the result array ends holding the layer's output. -/
theorem final (c : Dev nD) : (dat V c).arrAt 3 cfg0.N = layerOut V c :=
  (dat V c).arrAt_eq_of_cover 3 (layerOut V c) (flushed_eq V c) cover

/-- THE RESULT ARRAY AFTER THE REGION, at (r, j): the dense layer with ReLU of the left operand's row r, the right
    operand the weights, the one-row third operand the bias. -/
theorem out_apply (c : Dev nD) (r : Fin 8192) (j : Fin 4096) :
    (dat V c).arrAt 3 cfg0.N (ix2 r j)
      = Cert.LibDense.dense (fun k : Fin 4096 => V c main_v0 (ix2 r k)) (fun k j => V c main_v1 (ix2 k j))
          (fun j => V c main_v2 (ix2 (0 : Fin 1) j)) j :=
  (congrFun (final V c) (ix2 r j)).trans (layerOut_apply V c (ix2 r j) r j rfl rfl)

end Cert.KernelIdeal.R0

end
-- ==== Proof.KernelIdeal.R1.Value.lean ====
/-
  What this region's matmul kernel leaves in its output array, at the extended reals.

  The kernel walks an 8 × 2 × 4 grid (row tile, column tile, contraction step) over 1024 × 1024 tiles: at every point
  it adds the product of a tile of the left operand and a tile of the right operand to an accumulator it reset at the
  first contraction step, and at the last contraction step it adds the bias row and writes the tile out. Read entry by
  entry, the four partial sums over 1024 contraction positions are one sum over all 4096, so the output array is the
  dense layer `∑ k, lhs (r, k) · rhs (k, j) + bias j` (this layer has no activation). Addition on the extended reals
  is commutative and associative with zero neutral, so no finiteness is asked of the operands.
-/
import proofs.«177351_j58944131170770_1_alg».proof.Proof.KernelIdeal.R1.Data
import proofs.«177351_j58944131170770_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The grid's points

The grid is 8 × 2 × 4: row tile, column tile, contraction step, the contraction step innermost. Point `t` has row
tile `t / 8`, column tile `(t / 4) % 2` and contraction step `t % 4`; each window's block index at `t` is a pair of
those. -/

theorem idx_facts : ∀ t : Fin grid1.N,
    win1_0.index t 0 = t.val / 8 ∧ win1_0.index t 1 = t.val % 4
    ∧ win1_1.index t 0 = t.val % 4 ∧ win1_1.index t 1 = (t.val / 4) % 2
    ∧ win1_2.index t 0 = 0 ∧ win1_2.index t 1 = (t.val / 4) % 2
    ∧ win1_3.index t 0 = t.val / 8 ∧ win1_3.index t 1 = (t.val / 4) % 2 := by decide +kernel

/-- A point is a first contraction step exactly when its number is a multiple of four. -/
theorem first_iff : ∀ t : Fin grid1.N, isFirst (grid1.coords t) ↔ t.val % 4 = 0 := by decide +kernel

theorem N_eq : cfg1.N = 64 := by decide

theorem pt_val_of_lt {n : ℕ} (h : n < 64) : (pt n).val = n := by
  show n % cfg1.N = n
  rw [N_eq]; exact Nat.mod_eq_of_lt h

/-! ## The arrays the region reads, and its tiles as pieces of them -/

/-- The left operand: the first hidden layer, 8192 × 4096. -/
abbrev lhsA (c : Dev nD) : FVec Ideal S8192x4096 .bf16 := V c main_v3
/-- The right operand: the second encoder weight, 4096 × 2048. -/
abbrev rhsB (c : Dev nD) : FVec Ideal S4096x2048 .bf16 := V c main_v4
/-- The bias, as one row of 2048. -/
abbrev biasR (c : Dev nD) : FVec Ideal S1x2048 .f32 := V c main_v5

/-- The left operand's tile at point `t` is rows `1024 (t / 8) …`, columns `1024 (t % 4) …` of the array. -/
theorem iblk0_apply (c : Dev nD) (t : Fin cfg1.N) (y0 kk : Fin 1024) (r : Fin 8192) (k : Fin 4096)
    (hr : r.val = 1024 * (t.val / 8) + y0.val) (hk : k.val = 1024 * (t.val % 4) + kk.val) :
    (iblk V c 0 t : Vec Ideal S1024x1024 .bf16) (ix2 y0 kk) = lhsA V c (ix2 r k) := by
  obtain ⟨h0, h1, -⟩ := idx_facts t
  unfold iblk
  rw [View.read_apply]
  show (V c main_v3 : FVec Ideal S8192x4096 .bf16) _ = _
  congr 1
  funext a
  apply Fin.ext
  match a with
  | ⟨0, _⟩ => show win1_0.index t 0 * 1024 + 1 * y0.val = r.val; rw [h0, hr]; omega
  | ⟨1, _⟩ => show win1_0.index t 1 * 1024 + 1 * kk.val = k.val; rw [h1, hk]; omega

/-- The right operand's tile at point `t` is rows `1024 (t % 4) …`, columns `1024 ((t / 4) % 2) …` of the array. -/
theorem iblk1_apply (c : Dev nD) (t : Fin cfg1.N) (kk y1 : Fin 1024) (k : Fin 4096) (j : Fin 2048)
    (hk : k.val = 1024 * (t.val % 4) + kk.val) (hj : j.val = 1024 * ((t.val / 4) % 2) + y1.val) :
    (iblk V c 1 t : Vec Ideal S1024x1024 .bf16) (ix2 kk y1) = rhsB V c (ix2 k j) := by
  obtain ⟨-, -, h0, h1, -⟩ := idx_facts t
  unfold iblk
  rw [View.read_apply]
  show (V c main_v4 : FVec Ideal S4096x2048 .bf16) _ = _
  congr 1
  funext a
  apply Fin.ext
  match a with
  | ⟨0, _⟩ => show win1_1.index t 0 * 1024 + 1 * kk.val = k.val; rw [h0, hk]; omega
  | ⟨1, _⟩ => show win1_1.index t 1 * 1024 + 1 * y1.val = j.val; rw [h1, hj]; omega

/-- The bias tile at point `t` is columns `1024 ((t / 4) % 2) …` of the bias row. -/
theorem iblk2_apply (c : Dev nD) (t : Fin cfg1.N) (z : Fin 1) (y1 : Fin 1024) (j : Fin 2048)
    (hj : j.val = 1024 * ((t.val / 4) % 2) + y1.val) :
    (iblk V c 2 t : Vec Ideal S1x1024 .f32) (ix2 z y1) = biasR V c (ix2 (0 : Fin 1) j) := by
  obtain ⟨-, -, -, -, h0, h1, -⟩ := idx_facts t
  unfold iblk
  rw [View.read_apply]
  show (V c main_v5 : FVec Ideal S1x2048 .f32) _ = _
  congr 1
  funext a
  apply Fin.ext
  match a with
  | ⟨0, _⟩ => show win1_2.index t 0 * 1 + 1 * z.val = 0; rw [h0]; omega
  | ⟨1, _⟩ => show win1_2.index t 1 * 1024 + 1 * y1.val = j.val; rw [h1, hj]; omega

/-! ## The body's arithmetic at an entry

On the extended reals: the reset stores zero; a step adds to the accumulator the product of the two tiles, entry
(y0, y1) of which is `∑ kk, a (y0, kk) · b (kk, y1)`; the last step adds the bias row to every row. The shape casts
in the body are to the same shape. -/

theorem pay1_apply (y : S1024x1024.Idx) : (k1_pay1 (F := Ideal)) y = 0 := by
  unfold k1_pay1
  simp only [shapeCast_self]
  exact Ideal.ofBits_zero_f32

theorem pay2_apply (v3 : Vec Ideal S1024x1024 .f32) (a b : Vec Ideal S1024x1024 .bf16) (y0 y1 : Fin 1024) :
    k1_pay2 v3 a b (ix2 y0 y1) = v3 (ix2 y0 y1) + ∑ kk : Fin 1024, a (ix2 y0 kk) * b (ix2 kk y1) := by
  unfold k1_pay2
  simp only [shapeCast_self]
  rw [show dot_S1024x1024_S1024x1024_S1024x1024_1_0_0_1_n_n = DotDims.plain 1024 1024 1024 from rfl]
  show v3 (ix2 y0 y1)
      + FloatOps.matmul (F := Ideal) (DotDims.plain 1024 1024 1024) none a b (constant (F := Ideal) ⟨2, ![1024, 1024]⟩ .f32 0x00000000#32) (ix2 y0 y1) = _
  rw [Cert.LibDense.matmul_plain_zero_apply]

theorem pay3_apply (acc : Vec Ideal S1024x1024 .f32) (bias : Vec Ideal S1x1024 .f32) (y0 y1 : Fin 1024) :
    k1_pay3 acc bias (ix2 y0 y1) = acc (ix2 y0 y1) + bias (ix2 (0 : Fin 1) y1) := by
  unfold k1_pay3
  simp only [shapeCast_self]
  show acc (ix2 y0 y1) + broadcastTo ⟨2, ![1024, 1024]⟩ bias broadcasts_S1x1024_S1024x1024 (ix2 y0 y1) = _
  rw [broadcastTo_1b_ab_apply]

/-- Entry (y0, y1) of the product of two tiles. -/
def tileProd (a b : Vec Ideal S1024x1024 .bf16) (y0 y1 : Fin 1024) : EReal :=
  ∑ kk : Fin 1024, a (ix2 y0 kk) * b (ix2 kk y1)

/-- At a first contraction step the accumulator is the tile product (added to zero). -/
theorem accAt_first (c : Dev nD) (n : ℕ) (hn : n < 64) (h0 : n % 4 = 0) (y0 y1 : Fin 1024) :
    accAt V c n (ix2 y0 y1) = tileProd (iblk V c 0 (pt n)) (iblk V c 1 (pt n)) y0 y1 := by
  have hf : isFirst (grid1.coords (pt n)) := (first_iff (pt n)).mpr (by rw [pt_val_of_lt hn]; exact h0)
  cases n with
  | zero =>
    show accNext (grid1.coords (pt 0)) _ _ _ (ix2 y0 y1) = _
    unfold accNext; rw [if_pos hf, pay2_apply, pay1_apply, zero_add]; rfl
  | succ n =>
    show accNext (grid1.coords (pt (n + 1))) _ _ _ (ix2 y0 y1) = _
    unfold accNext; rw [if_pos hf, pay2_apply, pay1_apply, zero_add]; rfl

/-- At a later contraction step the accumulator is what it was plus the tile product. -/
theorem accAt_next (c : Dev nD) (n : ℕ) (hn : n + 1 < 64) (h0 : (n + 1) % 4 ≠ 0) (y0 y1 : Fin 1024) :
    accAt V c (n + 1) (ix2 y0 y1) = accAt V c n (ix2 y0 y1) + tileProd (iblk V c 0 (pt (n + 1))) (iblk V c 1 (pt (n + 1))) y0 y1 := by
  have hf : ¬isFirst (grid1.coords (pt (n + 1))) := fun h => h0 (by have := (first_iff (pt (n + 1))).mp h; rwa [pt_val_of_lt hn] at this)
  show accNext (grid1.coords (pt (n + 1))) _ _ _ (ix2 y0 y1) = _
  unfold accNext; rw [if_neg hf, pay2_apply]; rfl

/-! ## The contraction axis in four blocks -/

/-- Position `kk` of block `k'` of the contraction axis. -/
abbrev blockIdx (k' : Fin 4) (kk : Fin 1024) : Fin 4096 :=
  ⟨1024 * k'.val + kk.val, by have := k'.isLt; have := kk.isLt; omega⟩

/-- A sum over the 4096 contraction positions is the sum over the four blocks of the sums inside each. -/
theorem sum_blocks {M : Type*} [AddCommMonoid M] (f : Fin 4096 → M) :
    ∑ k : Fin 4096, f k = ∑ k' : Fin 4, ∑ kk : Fin 1024, f (blockIdx k' kk) := by
  rw [← Fintype.sum_prod_type' (f := fun k' kk => f (blockIdx k' kk))]
  refine ((finProdFinEquiv (m := 4) (n := 1024)).sum_comp f).symm.trans (Finset.sum_congr rfl fun x _ => congrArg f (Fin.ext ?_))
  show x.2.val + 1024 * x.1.val = 1024 * x.1.val + x.2.val
  omega

/-- The tile product at point `n`, contraction step `k'`, is block `k'` of the full contraction at the tile's rows and
    columns of the arrays. -/
theorem tileProd_eq (c : Dev nD) (n : ℕ) (hn : n < 64) (k' : Fin 4) (hk : n % 4 = k'.val) (y0 y1 : Fin 1024)
    (r : Fin 8192) (j : Fin 2048) (hr : r.val = 1024 * (n / 8) + y0.val) (hj : j.val = 1024 * ((n / 4) % 2) + y1.val) :
    tileProd (iblk V c 0 (pt n)) (iblk V c 1 (pt n)) y0 y1
      = ∑ kk : Fin 1024, (fun k : Fin 4096 => lhsA V c (ix2 r k) * rhsB V c (ix2 k j)) (blockIdx k' kk) := by
  have hv : (pt n).val = n := pt_val_of_lt hn
  unfold tileProd
  refine Finset.sum_congr rfl fun kk _ => ?_
  rw [iblk0_apply V c (pt n) y0 kk r (blockIdx k' kk) (by rw [hv]; exact hr) (by rw [hv, hk]),
    iblk1_apply V c (pt n) kk y1 (blockIdx k' kk) j (by rw [hv, hk]) (by rw [hv]; exact hj)]

/-- After a last contraction step the accumulator holds the full contraction: entry (y0, y1) of the tile is
    `∑ k, lhs (r, k) · rhs (k, j)` at the tile's row `r` and column `j` of the arrays. -/
theorem accAt_last (c : Dev nD) (n : ℕ) (hn : n < 64) (h3 : n % 4 = 3) (y0 y1 : Fin 1024)
    (r : Fin 8192) (j : Fin 2048) (hr : r.val = 1024 * (n / 8) + y0.val) (hj : j.val = 1024 * ((n / 4) % 2) + y1.val) :
    accAt V c n (ix2 y0 y1) = ∑ k : Fin 4096, lhsA V c (ix2 r k) * rhsB V c (ix2 k j) := by
  obtain ⟨m, rfl⟩ : ∃ m, n = m + 3 := ⟨n - 3, by omega⟩
  rw [accAt_next V c (m + 2) hn (by omega), accAt_next V c (m + 1) (by omega) (by omega),
    accAt_next V c m (by omega) (by omega), accAt_first V c m (by omega) (by omega),
    tileProd_eq V c m (by omega) 0 (by show m % 4 = 0; omega) y0 y1 r j (by omega) (by omega),
    tileProd_eq V c (m + 1) (by omega) 1 (by show (m + 1) % 4 = 1; omega) y0 y1 r j (by omega) (by omega),
    tileProd_eq V c (m + 2) (by omega) 2 (by show (m + 2) % 4 = 2; omega) y0 y1 r j (by omega) (by omega),
    tileProd_eq V c (m + 2 + 1) hn 3 (by show (m + 2 + 1) % 4 = 3; omega) y0 y1 r j (by omega) (by omega),
    sum_blocks, Fin.sum_univ_four]

/-- The finished tile of a last point: the full contraction plus the bias. -/
theorem outAt_last (c : Dev nD) (t : Fin cfg1.N) (h3 : t.val % 4 = 3) (y0 y1 : Fin 1024)
    (r : Fin 8192) (j : Fin 2048) (hr : r.val = 1024 * (t.val / 8) + y0.val) (hj : j.val = 1024 * ((t.val / 4) % 2) + y1.val) :
    outAt V c t (ix2 y0 y1) = ∑ k : Fin 4096, lhsA V c (ix2 r k) * rhsB V c (ix2 k j) + biasR V c (ix2 (0 : Fin 1) j) := by
  have hN := N_eq
  unfold outAt
  rw [pay3_apply, accAt_last V c t.val (by have := t.isLt; omega) h3 y0 y1 r j hr hj, iblk2_apply V c t 0 y1 j hj]

/-! ## The output array after the region

The output's 16 tiles are written back at the last contraction steps, point `8 i + 4 j + 3` writing tile (i, j); they
tile the 8192 × 2048 array, and each is the matching block of one array: the layer's output. -/

/-- The layer's output: entry (r, j) is `∑ k, lhs (r, k) · rhs (k, j) + bias j`. -/
def layerOut (c : Dev nD) : FVec Ideal S8192x2048 .f32 :=
  fun i => ∑ k : Fin 4096, lhsA V c (ix2 (i 0 : Fin 8192) k) * rhsB V c (ix2 k (i 1 : Fin 2048))
    + biasR V c (ix2 (0 : Fin 1) (i 1 : Fin 2048))

/-- What a last contraction step writes back is its block of the layer's output. -/
theorem flushed_eq (c : Dev nD) (t : Fin cfg1.N) (hf : (cfg1.win 3).flush t = true) :
    (dat V c).flushed 3 t = ((cfg1.win 3).blk t).view.read (Elt Ideal) (layerOut V c) := by
  have h3 : t.val % 4 = 3 := (flush1_3 t).mp hf
  obtain ⟨-, -, -, -, -, -, hi0, hi1⟩ := idx_facts t
  funext y
  obtain ⟨y0, y1, rfl⟩ : ∃ (y0 y1 : Fin 1024), y = ix2 y0 y1 := ⟨y 0, y 1, eq_ix2 y⟩
  show (dat V c).after 3 t (ix2 y0 y1) = _
  rw [after3, View.read_apply]
  show outAt V c t (ix2 y0 y1) = layerOut V c (((cfg1.win 3).blk t).view.emb (ix2 y0 y1))
  unfold layerOut
  exact outAt_last V c t h3 y0 y1 _ _
    (by show win1_3.index t 0 * 1024 + 1 * y0.val = _; rw [hi0]; omega)
    (by show win1_3.index t 1 * 1024 + 1 * y1.val = _; rw [hi1]; omega)

/-- So the output array ends holding the layer's output. -/
theorem arr_final (c : Dev nD) : (dat V c).arrAt 3 cfg1.N = layerOut V c :=
  (dat V c).arrAt_eq_of_cover 3 (layerOut V c) (flushed_eq V c) fun i => by
    have h0 : (i 0 : ℕ) < 8192 := (i 0).isLt
    have h1 : (i 1 : ℕ) < 2048 := (i 1).isLt
    obtain ⟨t, ht⟩ : ∃ t : Fin cfg1.N, t.val = 8 * ((i 0 : ℕ) / 1024) + 4 * ((i 1 : ℕ) / 1024) + 3 :=
      ⟨⟨8 * ((i 0 : ℕ) / 1024) + 4 * ((i 1 : ℕ) / 1024) + 3, by rw [N_eq]; omega⟩, rfl⟩
    obtain ⟨-, -, -, -, -, -, hi0, hi1⟩ := idx_facts t
    refine ⟨t, (flush1_3 t).mpr (by omega), ?_⟩
    show i ∈ ((View.whole main_v6).slice (win1_3.rect t)).set
    rw [View.set_slice_whole, Rect.mem_set_unit]
    intro a
    match a with
    | ⟨0, _⟩ =>
      show win1_3.index t 0 * 1024 ≤ (i 0 : ℕ) ∧ (i 0 : ℕ) < win1_3.index t 0 * 1024 + 1024
      rw [hi0]; omega
    | ⟨1, _⟩ =>
      show win1_3.index t 1 * 1024 ≤ (i 1 : ℕ) ∧ (i 1 : ℕ) < win1_3.index t 1 * 1024 + 1024
      rw [hi1]; omega

/-- The region's output array, entry by entry: the dense layer without activation. -/
theorem out_apply (c : Dev nD) (r : Fin 8192) (j : Fin 2048) :
    ((dat V c).arrAt 3 cfg1.N : FVec Ideal S8192x2048 .f32) (ix2 r j)
      = ∑ k : Fin 4096, lhsA V c (ix2 r k) * rhsB V c (ix2 k j) + biasR V c (ix2 (0 : Fin 1) j) := by
  rw [arr_final]; rfl

end Cert.KernelIdeal.R1

end
-- ==== Proof.KernelIdeal.R2.Value.lean ====
/-
  The value of this region's matmul kernel on the extended reals.

  The grid is 8 row tiles by 4 column tiles (the contraction axis has a single step), tiles 1024 × 1024. Point `t`
  has row tile `t / 4` and column tile `t % 4`. Its left tile is rows `1024 (t / 4) …` of the 8192 × 1024 left
  operand, its right tile is columns `1024 (t % 4) …` of the 1024 × 4096 right operand, its bias tile the same columns
  of the 1 × 4096 bias row. Every point is both a first and a last contraction step, so the accumulator after a point
  is the product of its two tiles added to zero, and the finished tile is that plus the bias row, maximum with zero.
  Entry (y0, y1) of the finished tile is therefore the dense layer of row `1024 (t / 4) + y0` at column
  `1024 (t % 4) + y1`. Every point writes its tile back and the 32 tiles cover the 8192 × 4096 output array, so
  the array ends holding the dense layer of every row.
-/
import proofs.«177351_j58944131170770_1_alg».proof.Proof.KernelIdeal.R2.Data
import proofs.«177351_j58944131170770_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2

open Idealize.ShloMosaic Idealize.ShloMosaic.TcCoe
open Idealize.ShloMosaic.Pipeline (Dat Cfg Window)
open Cert.KernelIdeal Cert.KernelIdeal.Gen Idealize.ShloMosaic.ValueIdx

variable (V : (c : Dev nD) → (b : Ref sig .tc) → Buf (Elt Ideal) ((c : Thread nD τ).loc b))

/-! ## The tiles and the arrays, at their literal types -/

/-- The left operand's array (8192 × 1024), the right operand's (1024 × 4096), the bias row (1 × 4096). -/
abbrev lhsA (c : Dev nD) : FVec Ideal S8192x1024 .bf16 := V c main_v12
abbrev rhsA (c : Dev nD) : FVec Ideal S1024x4096 .bf16 := V c main_v13
abbrev biasA (c : Dev nD) : FVec Ideal S1x4096 .f32 := V c main_v14

/-- Their tiles at point `t`. -/
abbrev lhsT (c : Dev nD) (t : Fin cfg2.N) : FVec Ideal S1024x1024 .bf16 := iblk V c 0 t
abbrev rhsT (c : Dev nD) (t : Fin cfg2.N) : FVec Ideal S1024x1024 .bf16 := iblk V c 1 t
abbrev biasT (c : Dev nD) (t : Fin cfg2.N) : FVec Ideal S1x1024 .f32 := iblk V c 2 t

/-! ## The windows' tile indices along the grid

Point `t` has row tile `t / 4` and column tile `t % 4` (the contraction axis has one step). -/

theorem idx0 : ∀ t : Fin cfg2.N, win2_0.index t (0 : Fin 2) = t.val / 4 ∧ win2_0.index t (1 : Fin 2) = 0 :=
  (by decide +kernel : ∀ t : Fin grid2.N, _)
theorem idx1 : ∀ t : Fin cfg2.N, win2_1.index t (0 : Fin 2) = 0 ∧ win2_1.index t (1 : Fin 2) = t.val % 4 :=
  (by decide +kernel : ∀ t : Fin grid2.N, _)
theorem idx2 : ∀ t : Fin cfg2.N, win2_2.index t (0 : Fin 2) = 0 ∧ win2_2.index t (1 : Fin 2) = t.val % 4 :=
  (by decide +kernel : ∀ t : Fin grid2.N, _)
theorem idx3 : ∀ t : Fin cfg2.N, win2_3.index t (0 : Fin 2) = t.val / 4 ∧ win2_3.index t (1 : Fin 2) = t.val % 4 :=
  (by decide +kernel : ∀ t : Fin grid2.N, _)

/-- Every point is a first step of the contraction axis. -/
theorem all_first : ∀ t : Fin cfg2.N, isFirst (grid2.coords t) :=
  (by decide +kernel : ∀ t : Fin grid2.N, isFirst (grid2.coords t))

/-! ## The tiles read off their arrays -/

/-- The left operand's tile at `t`, at (y0, k): row `1024 (t / 4) + y0`, column `k` of the array. -/
theorem lhsT_apply (c : Dev nD) (t : Fin cfg2.N) (y0 k : Fin 1024) (r : Fin 8192) (hr : r.val = 1024 * (t.val / 4) + y0.val) :
    lhsT V c t (ix2 y0 k) = lhsA V c (ix2 r k) := by
  obtain ⟨h0, h1⟩ := idx0 t
  unfold lhsT iblk
  rw [View.read_apply]
  show V c main_v12 _ = V c main_v12 _
  congr 1
  funext a
  apply Fin.ext
  match a with
  | ⟨0, _⟩ => show win2_0.index t (0 : Fin 2) * 1024 + 1 * y0.val = r.val; rw [h0, hr]; omega
  | ⟨1, _⟩ => show win2_0.index t (1 : Fin 2) * 1024 + 1 * k.val = k.val; rw [h1]; omega

/-- The right operand's tile at `t`, at (k, y1): row `k`, column `1024 (t % 4) + y1`. -/
theorem rhsT_apply (c : Dev nD) (t : Fin cfg2.N) (k y1 : Fin 1024) (j : Fin 4096) (hj : j.val = 1024 * (t.val % 4) + y1.val) :
    rhsT V c t (ix2 k y1) = rhsA V c (ix2 k j) := by
  obtain ⟨h0, h1⟩ := idx1 t
  unfold rhsT iblk
  rw [View.read_apply]
  show V c main_v13 _ = V c main_v13 _
  congr 1
  funext a
  apply Fin.ext
  match a with
  | ⟨0, _⟩ => show win2_1.index t (0 : Fin 2) * 1024 + 1 * k.val = k.val; rw [h0]; omega
  | ⟨1, _⟩ => show win2_1.index t (1 : Fin 2) * 1024 + 1 * y1.val = j.val; rw [h1, hj]; omega

/-- The bias row's tile at `t`, at (0, y1): column `1024 (t % 4) + y1` of the row. -/
theorem biasT_apply (c : Dev nD) (t : Fin cfg2.N) (y1 : Fin 1024) (j : Fin 4096) (hj : j.val = 1024 * (t.val % 4) + y1.val) :
    biasT V c t (ix2 (0 : Fin 1) y1) = biasA V c (ix2 (0 : Fin 1) j) := by
  obtain ⟨h0, h1⟩ := idx2 t
  unfold biasT iblk
  rw [View.read_apply]
  show V c main_v14 _ = V c main_v14 _
  congr 1
  funext a
  apply Fin.ext
  match a with
  | ⟨0, _⟩ => show win2_2.index t (0 : Fin 2) * 1 + 1 * 0 = 0; rw [h0]
  | ⟨1, _⟩ => show win2_2.index t (1 : Fin 2) * 1024 + 1 * y1.val = j.val; rw [h1, hj]; omega

/-! ## The accumulator and the finished tile -/

/-- The contraction record of the tile product is the plain rows-by-columns one. -/
theorem dot_plain : dot_S1024x1024_S1024x1024_S1024x1024_1_0_0_1_n_n = DotDims.plain 1024 1024 1024 := rfl

/-- The finished tile, read at (y0, y1): the accumulator is the tile product added to the zero tile, then the bias row
    is added and the maximum with zero taken; the narrowing to bf16 changes nothing on the extended reals. -/
theorem pay_apply (a b : FVec Ideal S1024x1024 .bf16) (bias : FVec Ideal S1x1024 .f32) (y0 y1 : Fin 1024) :
    k2_pay3 (F := Ideal) (k2_pay2 (F := Ideal) (k2_pay1 (F := Ideal)) a b) bias (ix2 y0 y1)
      = Cert.LibDense.dense (fun k : Fin 1024 => a (ix2 y0 k)) (fun k j => b (ix2 k j)) (fun j => bias (ix2 (0 : Fin 1) j)) y1 := by
  unfold k2_pay3 k2_pay2 k2_pay1
  simp only [shapeCast_self]
  show max ((Ideal.ofBits .f32 0x00000000#32
        + FloatOps.matmul dot_S1024x1024_S1024x1024_S1024x1024_1_0_0_1_n_n none a b (constant S1024x1024 .f32 0x00000000#32) (ix2 y0 y1))
      + broadcastTo S1024x1024 bias broadcasts_S1x1024_S1024x1024 (ix2 y0 y1)) (Ideal.ofBits .f32 0x00000000#32) = _
  rw [dot_plain, Cert.LibDense.matmul_plain_zero_apply, broadcastTo_1b_ab_apply, Ideal.ofBits_zero_f32, zero_add]
  rfl

/-- The accumulator after any point: every point is a first step of the contraction, so it is the product of the
    point's two tiles added to the zero tile. -/
theorem accAt_eq (c : Dev nD) (t : Fin cfg2.N) :
    accAt V c t.val = k2_pay2 (F := Ideal) (k2_pay1 (F := Ideal)) (lhsT V c t) (rhsT V c t) := by
  refine (accAt_step V c t (accAt V c (t.val - 1)) (fun _ => rfl)).symm.trans ?_
  unfold accNext
  rw [if_pos (all_first t)]

/-- The finished tile of point `t` at (y0, y1) is the dense layer's entry at row `1024 (t / 4) + y0`, column
    `1024 (t % 4) + y1`. -/
theorem outAt_apply (c : Dev nD) (t : Fin cfg2.N) (y0 y1 : Fin 1024) (r : Fin 8192) (j : Fin 4096)
    (hr : r.val = 1024 * (t.val / 4) + y0.val) (hj : j.val = 1024 * (t.val % 4) + y1.val) :
    (outAt V c t : FVec Ideal S1024x1024 .bf16) (ix2 y0 y1)
      = Cert.LibDense.dense (fun k : Fin 1024 => lhsA V c (ix2 r k)) (fun k j => rhsA V c (ix2 k j))
          (fun j => biasA V c (ix2 (0 : Fin 1) j)) j := by
  unfold outAt
  rw [accAt_eq]
  refine (pay_apply (lhsT V c t) (rhsT V c t) (biasT V c t) y0 y1).trans ?_
  show max (∑ k : Fin 1024, lhsT V c t (ix2 y0 k) * rhsT V c t (ix2 k y1) + biasT V c t (ix2 (0 : Fin 1) y1)) 0
    = max (∑ k : Fin 1024, lhsA V c (ix2 r k) * rhsA V c (ix2 k j) + biasA V c (ix2 (0 : Fin 1) j)) 0
  have e : (∑ k : Fin 1024, lhsT V c t (ix2 y0 k) * rhsT V c t (ix2 k y1))
      = ∑ k : Fin 1024, lhsA V c (ix2 r k) * rhsA V c (ix2 k j) :=
    Finset.sum_congr rfl fun k _ => by rw [lhsT_apply V c t y0 k r hr, rhsT_apply V c t k y1 j hj]
  rw [e, biasT_apply V c t y1 j hj]

/-! ## From the tiles to the array -/

/-- The layer's output array: entry (r, j) is the dense layer of row `r` of the left operand at column `j`. -/
def layerOut (c : Dev nD) : FVec Ideal S8192x4096 .bf16 := fun i =>
  Cert.LibDense.dense (fun k : Fin 1024 => lhsA V c (ix2 (i 0 : Fin 8192) k)) (fun k j => rhsA V c (ix2 k j))
    (fun j => biasA V c (ix2 (0 : Fin 1) j)) (i 1 : Fin 4096)

theorem N_eq : cfg2.N = 32 := by decide

/-- What point `t` writes back is its tile of the layer's output array. -/
theorem flushed_eq (c : Dev nD) (t : Fin cfg2.N) :
    (dat V c).flushed 3 t = ((cfg2.win 3).blk t).view.read (Elt Ideal) (layerOut V c) := by
  show (cfg2.win 3).cut (grid2.coords t) ((dat V c).after 3 t) = _
  rw [after3]
  obtain ⟨h0, h1⟩ := idx3 t
  have ht : t.val < 32 := N_eq ▸ t.isLt
  funext y
  obtain ⟨y0, y1, rfl⟩ : ∃ (y0 y1 : Fin 1024), y = ix2 y0 y1 := ⟨y 0, y 1, eq_ix2 y⟩
  have hr : 1024 * (t.val / 4) + y0.val < 8192 := by have := y0.isLt; omega
  have hj : 1024 * (t.val % 4) + y1.val < 4096 := by have := y1.isLt; omega
  have e : ((cfg2.win 3).blk t).view.emb (ix2 y0 y1)
      = ix2 (⟨1024 * (t.val / 4) + y0.val, hr⟩ : Fin 8192) (⟨1024 * (t.val % 4) + y1.val, hj⟩ : Fin 4096) := by
    funext a
    apply Fin.ext
    match a with
    | ⟨0, _⟩ => show win2_3.index t (0 : Fin 2) * 1024 + 1 * y0.val = 1024 * (t.val / 4) + y0.val; rw [h0]; omega
    | ⟨1, _⟩ => show win2_3.index t (1 : Fin 2) * 1024 + 1 * y1.val = 1024 * (t.val % 4) + y1.val; rw [h1]; omega
  rw [View.read_apply, e]
  exact outAt_apply V c t y0 y1 _ _ rfl rfl

/-- An index of the output array is in point `t`'s tile iff each coordinate is in the tile's range on its axis. -/
theorem mem_blk3 (t : Fin cfg2.N) (i : S8192x4096.Idx) :
    i ∈ ((cfg2.win 3).blk t).view.set
      ↔ ∀ a : Fin 2, win2_3.index t a * S1024x1024.size a ≤ (i a).val
          ∧ (i a).val < win2_3.index t a * S1024x1024.size a + S1024x1024.size a := by
  show i ∈ ((View.whole main_v15).slice (win2_3.rect t)).set ↔ _
  rw [View.set_slice_whole, Rect.mem_set_unit]
  exact Iff.rfl

/-- Every entry (r, j) of the output array lies in the tile of point `4 (r / 1024) + j / 1024`, which writes it back. -/
theorem cover (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hlt : 4 * ((i 0).val / 1024) + (i 1).val / 1024 < cfg2.N := by rw [N_eq]; omega
  obtain ⟨h0, h1⟩ := idx3 ⟨_, hlt⟩
  refine ⟨⟨_, hlt⟩, flush2_3 _, ?_⟩
  rw [mem_blk3]
  intro a
  match a with
  | ⟨0, _⟩ =>
    show win2_3.index ⟨_, hlt⟩ (0 : Fin 2) * 1024 ≤ (i 0).val ∧ (i 0).val < win2_3.index ⟨_, hlt⟩ (0 : Fin 2) * 1024 + 1024
    rw [h0]; dsimp only; omega
  | ⟨1, _⟩ =>
    show win2_3.index ⟨_, hlt⟩ (1 : Fin 2) * 1024 ≤ (i 1).val ∧ (i 1).val < win2_3.index ⟨_, hlt⟩ (1 : Fin 2) * 1024 + 1024
    rw [h1]; dsimp only; omega

/-- The output array after the region is the layer's output array. -/
theorem out_eq (c : Dev nD) : (dat V c).arrAt 3 cfg2.N = layerOut V c :=
  (dat V c).arrAt_eq_of_cover 3 (layerOut V c) (fun t _ => flushed_eq V c t) cover

/-- The output array after the region, entry by entry: the dense layer (product, bias, maximum with zero) of row `r`
    of the left operand, at column `j`. -/
theorem out_apply (c : Dev nD) (r : Fin 8192) (j : Fin 4096) :
    ((dat V c).arrAt 3 cfg2.N : FVec Ideal S8192x4096 .bf16) (ix2 r j)
      = Cert.LibDense.dense (fun k : Fin 1024 => (V c main_v12 : FVec Ideal S8192x1024 .bf16) (ix2 r k))
          (fun k j => (V c main_v13 : FVec Ideal S1024x4096 .bf16) (ix2 k j))
          (fun j => (V c main_v14 : FVec Ideal S1x4096 .f32) (ix2 (0 : Fin 1) j)) j := by
  rw [out_eq]
  rfl

end Cert.KernelIdeal.R2

end
-- ==== Proof.KernelIdeal.R3.Value.lean ====
/-
  The value of this region's matmul kernel at the extended reals.

  The grid is 8 × 8 × 4: row tile i, column tile j, contraction step k, the step innermost; point t has the
  coordinates (t / 32, t / 4 % 8, t % 4). The accumulator after a point is the sum of the tile products of the
  steps of its (i, j) run so far; at the last step that is the full contraction over the 4096 columns of the left
  operand, the bias row is added, and the finished tile is written back. The 64 finished tiles tile the output
  array, so the array ends holding, at (r, j), the sum over k of lhs (r, k) · rhs (k, j) plus bias (0, j).

  The arithmetic is carried over entries numbered by natural numbers (numbers past an array wrap around and are
  never used), so that no bound travels through the induction; the statement over the arrays' own indices is read
  off at the end.
-/
import proofs.«177351_j58944131170770_1_alg».proof.Proof.KernelIdeal.R3.Data
import proofs.«177351_j58944131170770_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The arrays, entry by entry -/

/-- The left operand as the region finds it. -/
abbrev lhsArr (c : Dev nD) : FVec Ideal S8192x4096 .bf16 := V c main_v15
/-- The right operand as the region finds it. -/
abbrev rhsArr (c : Dev nD) : FVec Ideal S4096x8192 .bf16 := V c main_v16
/-- The bias row as the region finds it. -/
abbrev biasArr (c : Dev nD) : FVec Ideal S1x8192 .f32 := V c main_v17
/-- The output array after the region. -/
abbrev resArr (c : Dev nD) : FVec Ideal S8192x8192 .f32 := (dat (F := Ideal) V c).arrAt 3 cfg3.N

/-- The left operand's entry at row `r`, column `k`. -/
def lhsAt (c : Dev nD) (r k : ℕ) : EReal :=
  lhsArr V c (ix2 ⟨r % 8192, Nat.mod_lt _ (by decide)⟩ ⟨k % 4096, Nat.mod_lt _ (by decide)⟩)

/-- The right operand's entry at row `k`, column `j`. -/
def rhsAt (c : Dev nD) (k j : ℕ) : EReal :=
  rhsArr V c (ix2 ⟨k % 4096, Nat.mod_lt _ (by decide)⟩ ⟨j % 8192, Nat.mod_lt _ (by decide)⟩)

/-- The bias row's entry at column `j`. -/
def biasAt (c : Dev nD) (j : ℕ) : EReal :=
  biasArr V c (ix2 (0 : Fin 1) ⟨j % 8192, Nat.mod_lt _ (by decide)⟩)

/-! ## The tiles the windows read -/

theorem N_eq : cfg3.N = 256 := by decide

/-- The windows' tile indices at point `t`, decided over the grid. -/
theorem idx_facts : ∀ t : Fin cfg3.N,
    win3_0.index t (0 : Fin 2) = t.val / 32 ∧ win3_0.index t (1 : Fin 2) = t.val % 4
    ∧ win3_1.index t (0 : Fin 2) = t.val % 4 ∧ win3_1.index t (1 : Fin 2) = t.val / 4 % 8
    ∧ win3_2.index t (0 : Fin 2) = 0 ∧ win3_2.index t (1 : Fin 2) = t.val / 4 % 8
    ∧ win3_3.index t (0 : Fin 2) = t.val / 32 ∧ win3_3.index t (1 : Fin 2) = t.val / 4 % 8 :=
  (by decide +kernel : ∀ t : Fin grid3.N,
    win3_0.index t (0 : Fin 2) = t.val / 32 ∧ win3_0.index t (1 : Fin 2) = t.val % 4
    ∧ win3_1.index t (0 : Fin 2) = t.val % 4 ∧ win3_1.index t (1 : Fin 2) = t.val / 4 % 8
    ∧ win3_2.index t (0 : Fin 2) = 0 ∧ win3_2.index t (1 : Fin 2) = t.val / 4 % 8
    ∧ win3_3.index t (0 : Fin 2) = t.val / 32 ∧ win3_3.index t (1 : Fin 2) = t.val / 4 % 8)

/-- A point is a first contraction step exactly when its number is a multiple of four. -/
theorem first_iff : ∀ t : Fin cfg3.N, isFirst (grid3.coords t) ↔ t.val % 4 = 0 :=
  (by decide +kernel : ∀ t : Fin grid3.N, isFirst (grid3.coords t) ↔ t.val % 4 = 0)

/-- The left operand's tile at point `t`. -/
abbrev lhsTile (c : Dev nD) (t : Fin cfg3.N) : FVec Ideal S1024x1024 .bf16 := iblk (F := Ideal) V c 0 t
/-- The right operand's tile at point `t`. -/
abbrev rhsTile (c : Dev nD) (t : Fin cfg3.N) : FVec Ideal S1024x1024 .bf16 := iblk (F := Ideal) V c 1 t
/-- The bias row's tile at point `t`. -/
abbrev biasTile (c : Dev nD) (t : Fin cfg3.N) : FVec Ideal S1x1024 .f32 := iblk (F := Ideal) V c 2 t

/-- The left tile at point `t` is rows `1024 (t / 32) …`, columns `1024 (t % 4) …` of the left operand. -/
theorem lhsTile_apply (c : Dev nD) (t : Fin cfg3.N) (y0 kk : Fin 1024) :
    lhsTile V c t (ix2 y0 kk) = lhsAt V c (1024 * (t.val / 32) + y0.val) (1024 * (t.val % 4) + kk.val) := by
  obtain ⟨h0, h1, -⟩ := idx_facts t
  have ht : t.val < 256 := N_eq ▸ t.isLt
  unfold lhsTile iblk lhsAt
  rw [View.read_apply]
  show V c main_v15 _ = V c main_v15 _
  congr 1
  funext a
  apply Fin.ext
  match a with
  | ⟨0, _⟩ =>
    show win3_0.index t (0 : Fin 2) * 1024 + 1 * y0.val = (1024 * (t.val / 32) + y0.val) % 8192
    rw [h0]; omega
  | ⟨1, _⟩ =>
    show win3_0.index t (1 : Fin 2) * 1024 + 1 * kk.val = (1024 * (t.val % 4) + kk.val) % 4096
    rw [h1]; omega

/-- The right tile at point `t` is rows `1024 (t % 4) …`, columns `1024 (t / 4 % 8) …` of the right operand. -/
theorem rhsTile_apply (c : Dev nD) (t : Fin cfg3.N) (kk y1 : Fin 1024) :
    rhsTile V c t (ix2 kk y1) = rhsAt V c (1024 * (t.val % 4) + kk.val) (1024 * (t.val / 4 % 8) + y1.val) := by
  obtain ⟨-, -, h0, h1, -⟩ := idx_facts t
  have ht : t.val < 256 := N_eq ▸ t.isLt
  unfold rhsTile iblk rhsAt
  rw [View.read_apply]
  show V c main_v16 _ = V c main_v16 _
  congr 1
  funext a
  apply Fin.ext
  match a with
  | ⟨0, _⟩ =>
    show win3_1.index t (0 : Fin 2) * 1024 + 1 * kk.val = (1024 * (t.val % 4) + kk.val) % 4096
    rw [h0]; omega
  | ⟨1, _⟩ =>
    show win3_1.index t (1 : Fin 2) * 1024 + 1 * y1.val = (1024 * (t.val / 4 % 8) + y1.val) % 8192
    rw [h1]; omega

/-- The bias tile at point `t` is columns `1024 (t / 4 % 8) …` of the bias row. -/
theorem biasTile_apply (c : Dev nD) (t : Fin cfg3.N) (y1 : Fin 1024) :
    biasTile V c t (ix2 (0 : Fin 1) y1) = biasAt V c (1024 * (t.val / 4 % 8) + y1.val) := by
  obtain ⟨-, -, -, -, h0, h1, -⟩ := idx_facts t
  have ht : t.val < 256 := N_eq ▸ t.isLt
  unfold biasTile iblk biasAt
  rw [View.read_apply]
  show V c main_v17 _ = V c main_v17 _
  congr 1
  funext a
  apply Fin.ext
  match a with
  | ⟨0, _⟩ =>
    show win3_2.index t (0 : Fin 2) * 1 + 1 * (0 : Fin 1).val = (0 : Fin 1).val
    rw [h0]; rfl
  | ⟨1, _⟩ =>
    show win3_2.index t (1 : Fin 2) * 1024 + 1 * y1.val = (1024 * (t.val / 4 % 8) + y1.val) % 8192
    rw [h1]; omega

/-! ## The body's three payloads at an index -/

/-- The reset value is the zero tile. -/
theorem pay1_apply (y0 y1 : Fin 1024) : k3_pay1 (F := Ideal) (ix2 y0 y1) = 0 := by
  unfold k3_pay1
  simp only [shapeCast_self]
  exact Ideal.ofBits_zero_f32

/-- The update adds the product of the two tiles: entry (y0, y1) gains the sum over the tile's 1024 contraction
    positions. -/
theorem pay2_apply (acc : FVec Ideal S1024x1024 .f32) (a b : FVec Ideal S1024x1024 .bf16) (y0 y1 : Fin 1024) :
    k3_pay2 (F := Ideal) acc a b (ix2 y0 y1) = acc (ix2 y0 y1) + ∑ kk : Fin 1024, a (ix2 y0 kk) * b (ix2 kk y1) := by
  unfold k3_pay2
  simp only [shapeCast_self]
  exact congrArg (acc (ix2 y0 y1) + ·) (Cert.LibDense.matmul_plain_zero_apply (M := 1024) (K := 1024) (N := 1024) none a b y0 y1)

/-- The finish adds the bias row along every row. -/
theorem pay3_apply (acc : FVec Ideal S1024x1024 .f32) (bias : FVec Ideal S1x1024 .f32) (y0 y1 : Fin 1024) :
    k3_pay3 (F := Ideal) acc bias (ix2 y0 y1) = acc (ix2 y0 y1) + bias (ix2 (0 : Fin 1) y1) := by
  unfold k3_pay3
  simp only [shapeCast_self]
  exact congrArg (acc (ix2 y0 y1) + ·) (broadcastTo_1b_ab_apply bias broadcasts_S1x1024_S1024x1024 y0 y1)

/-- One point's step of the accumulator, at an index: a first step starts from zero, any other from what was there. -/
theorem accNext_apply (t : Fin cfg3.N) (acc : FVec Ideal S1024x1024 .f32) (a b : FVec Ideal S1024x1024 .bf16) (y0 y1 : Fin 1024) :
    accNext (F := Ideal) (grid3.coords t) acc a b (ix2 y0 y1)
      = (if t.val % 4 = 0 then 0 else acc (ix2 y0 y1)) + ∑ kk : Fin 1024, a (ix2 y0 kk) * b (ix2 kk y1) := by
  unfold accNext
  refine (pay2_apply _ a b y0 y1).trans ?_
  by_cases h : t.val % 4 = 0
  · rw [if_pos ((first_iff t).mpr h), if_pos h, pay1_apply]
  · rw [if_neg (mt (first_iff t).mp h), if_neg h]

/-! ## The accumulator along one (i, j) run of four points -/

/-- The product of the two tiles of contraction step `k'`, at row `r` of the left operand and column `j` of the right. -/
def stepTerm (c : Dev nD) (r j k' : ℕ) : EReal :=
  ∑ kk : Fin 1024, lhsAt V c r (1024 * k' + kk.val) * rhsAt V c (1024 * k' + kk.val) j

/-- The sum of the products of the first `n` contraction steps. -/
def runSum (c : Dev nD) (r j n : ℕ) : EReal := ∑ k' ∈ Finset.range n, stepTerm V c r j k'

/-- The accumulator after point `t`, from the accumulator after the point before: zero or the old entry, plus the
    product of the point's own contraction step. -/
theorem accAt_unfold (c : Dev nD) (t : Fin cfg3.N) (y0 y1 : Fin 1024) :
    accAt (F := Ideal) V c t.val (ix2 y0 y1)
      = (if t.val % 4 = 0 then 0 else accAt (F := Ideal) V c (t.val - 1) (ix2 y0 y1))
        + stepTerm V c (1024 * (t.val / 32) + y0.val) (1024 * (t.val / 4 % 8) + y1.val) (t.val % 4) := by
  refine (congrFun (accAt_step (F := Ideal) V c t (accAt (F := Ideal) V c (t.val - 1)) (fun _ => rfl)).symm (ix2 y0 y1)).trans ?_
  refine (accNext_apply t _ (lhsTile V c t) (rhsTile V c t) y0 y1).trans ?_
  refine congrArg₂ (· + ·) rfl ?_
  unfold stepTerm
  refine Finset.sum_congr rfl fun kk _ => ?_
  rw [lhsTile_apply, rhsTile_apply]

/-- One more step of the run: if the accumulator before held the first `t % 4` steps' sum, it now holds one more. -/
theorem accAt_succ_sum (c : Dev nD) (t : Fin cfg3.N) (y0 y1 : Fin 1024)
    (hprev : t.val % 4 ≠ 0 → accAt (F := Ideal) V c (t.val - 1) (ix2 y0 y1)
      = runSum V c (1024 * (t.val / 32) + y0.val) (1024 * (t.val / 4 % 8) + y1.val) (t.val % 4)) :
    accAt (F := Ideal) V c t.val (ix2 y0 y1)
      = runSum V c (1024 * (t.val / 32) + y0.val) (1024 * (t.val / 4 % 8) + y1.val) (t.val % 4 + 1) := by
  rw [accAt_unfold]
  by_cases h : t.val % 4 = 0
  · rw [if_pos h, h]
    unfold runSum
    rw [Finset.sum_range_one, zero_add]
  · rw [if_neg h, hprev h]
    unfold runSum
    rw [Finset.sum_range_succ]

/-- The accumulator after point `n` holds the sum of the steps `0 … n % 4` of its run. -/
theorem accAt_apply (c : Dev nD) : ∀ (n : ℕ) (h : n < 256) (y0 y1 : Fin 1024),
    accAt (F := Ideal) V c n (ix2 y0 y1)
      = runSum V c (1024 * (n / 32) + y0.val) (1024 * (n / 4 % 8) + y1.val) (n % 4 + 1) := by
  intro n
  induction n with
  | zero =>
    intro h y0 y1
    exact accAt_succ_sum V c ⟨0, N_eq ▸ h⟩ y0 y1 (fun h0 => absurd rfl h0)
  | succ m ih =>
    intro h y0 y1
    refine accAt_succ_sum V c ⟨m + 1, N_eq ▸ h⟩ y0 y1 (fun h0 => ?_)
    have h0' : (m + 1) % 4 ≠ 0 := h0
    show accAt (F := Ideal) V c m (ix2 y0 y1) = runSum V c (1024 * ((m + 1) / 32) + y0.val) (1024 * ((m + 1) / 4 % 8) + y1.val) ((m + 1) % 4)
    rw [ih (by omega) y0 y1]
    have e1 : m / 32 = (m + 1) / 32 := by omega
    have e2 : m / 4 % 8 = (m + 1) / 4 % 8 := by omega
    have e3 : m % 4 + 1 = (m + 1) % 4 := by omega
    rw [e1, e2, e3]

/-- Four blocks of 1024 consecutive numbers are the numbers below 4096. -/
theorem sum_blocks (f : ℕ → EReal) :
    ∑ k' ∈ Finset.range 4, ∑ kk : Fin 1024, f (1024 * k' + kk.val) = ∑ k ∈ Finset.range 4096, f k := by
  have e : ∀ k', ∑ kk : Fin 1024, f (1024 * k' + kk.val) = ∑ kk ∈ Finset.range 1024, f (1024 * k' + kk) :=
    fun k' => Fin.sum_univ_eq_sum_range (fun kk => f (1024 * k' + kk)) 1024
  simp only [e]
  rw [Finset.sum_range_succ, Finset.sum_range_succ, Finset.sum_range_succ, Finset.sum_range_one,
    show (4096 : ℕ) = 1024 + 1024 + 1024 + 1024 from rfl, Finset.sum_range_add, Finset.sum_range_add, Finset.sum_range_add]
  refine congrArg₂ (· + ·) (congrArg₂ (· + ·) (congrArg₂ (· + ·) ?_ ?_) ?_) ?_ <;>
    exact Finset.sum_congr rfl fun x _ => congrArg f (by omega)

/-! ## The finished tile -/

/-- The layer's entry at row `r`, column `j`: the full contraction plus the bias. -/
def outEntry (c : Dev nD) (r j : ℕ) : EReal :=
  ∑ k ∈ Finset.range 4096, lhsAt V c r k * rhsAt V c k j + biasAt V c j

/-- At a last contraction step the finished tile holds the layer's entries of its rows and columns. -/
theorem outAt_apply (c : Dev nD) (t : Fin cfg3.N) (h3 : t.val % 4 = 3) (y0 y1 : Fin 1024) :
    outAt (F := Ideal) V c t (ix2 y0 y1) = outEntry V c (1024 * (t.val / 32) + y0.val) (1024 * (t.val / 4 % 8) + y1.val) := by
  unfold outAt
  refine (pay3_apply _ (biasTile V c t) y0 y1).trans ?_
  rw [accAt_apply V c t.val (N_eq ▸ t.isLt) y0 y1, biasTile_apply, h3]
  unfold outEntry runSum stepTerm
  refine congrArg (· + _) ?_
  exact sum_blocks (fun k => lhsAt V c (1024 * (t.val / 32) + y0.val) k * rhsAt V c k (1024 * (t.val / 4 % 8) + y1.val))

/-! ## From the finished tiles to the array -/

/-- The numbered entries at numbers inside the arrays are the arrays' own entries. -/
theorem lhsAt_fin (c : Dev nD) (r : Fin 8192) (k : Fin 4096) :
    lhsAt V c r.val k.val = lhsArr V c (ix2 r k) := by
  have e0 : (⟨r.val % 8192, Nat.mod_lt _ (by decide)⟩ : Fin 8192) = r := Fin.ext (Nat.mod_eq_of_lt r.isLt)
  have e1 : (⟨k.val % 4096, Nat.mod_lt _ (by decide)⟩ : Fin 4096) = k := Fin.ext (Nat.mod_eq_of_lt k.isLt)
  unfold lhsAt
  rw [e0, e1]

theorem rhsAt_fin (c : Dev nD) (k : Fin 4096) (j : Fin 8192) :
    rhsAt V c k.val j.val = rhsArr V c (ix2 k j) := by
  have e0 : (⟨k.val % 4096, Nat.mod_lt _ (by decide)⟩ : Fin 4096) = k := Fin.ext (Nat.mod_eq_of_lt k.isLt)
  have e1 : (⟨j.val % 8192, Nat.mod_lt _ (by decide)⟩ : Fin 8192) = j := Fin.ext (Nat.mod_eq_of_lt j.isLt)
  unfold rhsAt
  rw [e0, e1]

theorem biasAt_fin (c : Dev nD) (j : Fin 8192) :
    biasAt V c j.val = biasArr V c (ix2 (0 : Fin 1) j) := by
  have e1 : (⟨j.val % 8192, Nat.mod_lt _ (by decide)⟩ : Fin 8192) = j := Fin.ext (Nat.mod_eq_of_lt j.isLt)
  unfold biasAt
  rw [e1]

/-- What the output array ends holding: the layer's entry at every index. -/
def outArr (c : Dev nD) : FVec Ideal S8192x8192 .f32 := fun i => outEntry V c (i 0).val (i 1).val

/-- What a last contraction step writes back is its tile of `outArr`. -/
theorem flushed_eq (c : Dev nD) (t : Fin cfg3.N) (hf : (cfg3.win 3).flush t = true) :
    (dat (F := Ideal) V c).flushed 3 t = ((cfg3.win 3).blk t).view.read (Elt Ideal) (outArr V c) := by
  have h3 : t.val % 4 = 3 := (flush3_3 t).mp hf
  obtain ⟨-, -, -, -, -, -, h0, h1⟩ := idx_facts t
  have ht : t.val < 256 := N_eq ▸ t.isLt
  show (cfg3.win 3).cut (grid3.coords t) ((dat (F := Ideal) V c).after 3 t) = _
  rw [after3]
  funext y
  rw [View.read_apply]
  show outAt (F := Ideal) V c t y = outArr V c (((cfg3.win 3).blk t).view.emb y)
  refine (congrArg (outAt (F := Ideal) V c t) (eq_ix2 (n0 := 1024) (n1 := 1024) y)).trans ?_
  refine (outAt_apply V c t h3 (y 0) (y 1)).trans ?_
  unfold outArr
  have c0 : ((((cfg3.win 3).blk t).view.emb y) 0).val = win3_3.index t (0 : Fin 2) * 1024 + 1 * (y 0).val := rfl
  have c1 : ((((cfg3.win 3).blk t).view.emb y) 1).val = win3_3.index t (1 : Fin 2) * 1024 + 1 * (y 1).val := rfl
  show outEntry V c _ _ = outEntry V c ((((cfg3.win 3).blk t).view.emb y) 0).val ((((cfg3.win 3).blk t).view.emb y) 1).val
  rw [c0, c1, h0, h1]
  congr 1 <;> omega

/-- An index of the array is in point `t`'s tile iff each coordinate is in the tile's range on its axis. -/
theorem mem_blk (t : Fin cfg3.N) (i : S8192x8192.Idx) :
    i ∈ ((cfg3.win 3).blk t).view.set
      ↔ ∀ a : Fin 2, win3_3.index t a * S1024x1024.size a ≤ (i a).val ∧ (i a).val < win3_3.index t a * S1024x1024.size a + S1024x1024.size a := by
  show i ∈ ((View.whole main_v18).slice (win3_3.rect t)).set ↔ _
  rw [View.set_slice_whole, Rect.mem_set_unit]
  exact Iff.rfl

/-- Every index of the array is in the tile of the last contraction step of its row tile and column tile. -/
theorem cover (i : S8192x8192.Idx) :
    ∃ t : Fin cfg3.N, (cfg3.win 3).flush t = true ∧ i ∈ ((cfg3.win 3).blk t).view.set := by
  have hi0 : (i 0).val < 8192 := (i 0).isLt
  have hi1 : (i 1).val < 8192 := (i 1).isLt
  have hlt : 32 * ((i 0).val / 1024) + 4 * ((i 1).val / 1024) + 3 < cfg3.N := by rw [N_eq]; omega
  obtain ⟨-, -, -, -, -, -, h0, h1⟩ := idx_facts ⟨32 * ((i 0).val / 1024) + 4 * ((i 1).val / 1024) + 3, hlt⟩
  refine ⟨⟨32 * ((i 0).val / 1024) + 4 * ((i 1).val / 1024) + 3, hlt⟩, (flush3_3 _).mpr (by show (32 * ((i 0).val / 1024) + 4 * ((i 1).val / 1024) + 3) % 4 = 3; omega), ?_⟩
  rw [mem_blk]
  intro a
  match a with
  | ⟨0, _⟩ =>
    show win3_3.index _ (0 : Fin 2) * 1024 ≤ (i 0).val ∧ (i 0).val < win3_3.index _ (0 : Fin 2) * 1024 + 1024
    rw [h0]
    show (32 * ((i 0).val / 1024) + 4 * ((i 1).val / 1024) + 3) / 32 * 1024 ≤ (i 0).val
      ∧ (i 0).val < (32 * ((i 0).val / 1024) + 4 * ((i 1).val / 1024) + 3) / 32 * 1024 + 1024
    omega
  | ⟨1, _⟩ =>
    show win3_3.index _ (1 : Fin 2) * 1024 ≤ (i 1).val ∧ (i 1).val < win3_3.index _ (1 : Fin 2) * 1024 + 1024
    rw [h1]
    show (32 * ((i 0).val / 1024) + 4 * ((i 1).val / 1024) + 3) / 4 % 8 * 1024 ≤ (i 1).val
      ∧ (i 1).val < (32 * ((i 0).val / 1024) + 4 * ((i 1).val / 1024) + 3) / 4 % 8 * 1024 + 1024
    omega

/-- The output array after the region. -/
theorem out_arr (c : Dev nD) : (dat (F := Ideal) V c).arrAt 3 cfg3.N = outArr V c :=
  (dat (F := Ideal) V c).arrAt_eq_of_cover 3 (outArr V c) (flushed_eq V c) cover

/-- The output array after the region, entry by entry: the full contraction of the left operand's row with the right
    operand's column, plus the bias of the column. -/
theorem out_apply (c : Dev nD) (r : Fin 8192) (j : Fin 8192) :
    resArr V c (ix2 r j)
      = ∑ k : Fin 4096, lhsArr V c (ix2 r k) * rhsArr V c (ix2 k j) + biasArr V c (ix2 (0 : Fin 1) j) := by
  show ((dat (F := Ideal) V c).arrAt 3 cfg3.N : FVec Ideal S8192x8192 .f32) (ix2 r j) = _
  rw [out_arr]
  show outEntry V c r.val j.val = _
  unfold outEntry
  rw [← Fin.sum_univ_eq_sum_range (fun k => lhsAt V c r.val k * rhsAt V c k j.val) 4096]
  exact congrArg₂ (· + ·) (Finset.sum_congr rfl fun k _ => congrArg₂ (· * ·) (lhsAt_fin V c r k) (rhsAt_fin V c k j)) (biasAt_fin V c j)

end Cert.KernelIdeal.R3

end
-- ==== Proof.RefSide.lean ====
/-
  The reference side: the host program's run and its stages read at an index.

  The reference is a variational autoencoder's forward pass followed by a scalar loss. Its stages, each the program's
  own operations composed, are

      h   = relu (x · We1 + be1)            enc = h · We2 + be2
      z   = mu + exp(logvar) · eps          where mu | logvar are the two column halves of enc
      hd  = relu (z · Wd1 + bd1)            dec = hd · Wd2 + bd2

  and the loss is an elementwise function of (dec, enc, x) summed to a scalar. The run's result is the loss of these
  stages of the arguments. The four matrix layers are then read at an index (r, j): a product's entry is the sum over
  the contracted coordinate, the bias is the bias vector's entry j, and ReLU is the maximum with zero.
-/
import proofs.«177351_j58944131170770_1_alg».proof.Defs
import proofs.«177351_j58944131170770_1_alg».proof.Proof.Gen.ReferenceIdeal.Read
import proofs.«177351_j58944131170770_1_alg».proof.Proof.LibDense
import Idealize.ShloMosaic.Lib.ValueIdx
import Idealize.ShloMosaic.Lib.KernelVsHost
import Idealize.ShloMosaic.Lib.Pipeline.Value
import Idealize.ShloMosaic.PureOps.Ideal.Laws

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx (ix1 ix2)

/-! ## The stages -/

/-- The encoder's hidden layer: relu (x · We1 + be1). The bias vector is laid along a one-row matrix and that row down
    the rows; ReLU is the maximum with a broadcast zero. -/
def hR (x : FVec Ideal S8192x4096 .f32) (We1 : FVec Ideal S4096x4096 .f32) (be1 : FVec Ideal S4096 .f32) :
    FVec Ideal S8192x4096 .f32 :=
  maximumf
    (addf (Host.dotGeneral (F := Ideal) dot_S8192x4096_S4096x4096_S8192x4096_1_0_0_1_n_n none x We1)
      (broadcastInDim S8192x4096 ![0, 1] bcast_S1x4096_S8192x4096_0_1 (broadcastInDim S1x4096 ![1] bcast_S4096_S1x4096_1 be1)))
    (broadcastInDim S8192x4096 ![] bcast_S_S8192x4096 (constant (F := Ideal) S_ .f32 0x00000000#32))

/-- The encoder's output: h · We2 + be2; its left column half is the mean, its right half the log-variance. -/
def encR (h : FVec Ideal S8192x4096 .f32) (We2 : FVec Ideal S4096x2048 .f32) (be2 : FVec Ideal S2048 .f32) :
    FVec Ideal S8192x2048 .f32 :=
  addf (Host.dotGeneral (F := Ideal) dot_S8192x4096_S4096x2048_S8192x2048_1_0_0_1_n_n none h We2)
    (broadcastInDim S8192x2048 ![0, 1] bcast_S1x2048_S8192x2048_0_1 (broadcastInDim S1x2048 ![1] bcast_S2048_S1x2048_1 be2))

/-- The latent sample: mu + exp(logvar) · eps. -/
def zR (enc : FVec Ideal S8192x2048 .f32) (eps : FVec Ideal S8192x1024 .f32) : FVec Ideal S8192x1024 .f32 :=
  addf (extractStridedSlice S8192x1024 ![0, 0] enc slices_S8192x2048_S8192x1024_0_0)
    (mulf (Host.exp (extractStridedSlice S8192x1024 ![0, 1024] enc slices_S8192x2048_S8192x1024_0_1024)) eps)

/-- The decoder's hidden layer: relu (z · Wd1 + bd1). -/
def hdR (z : FVec Ideal S8192x1024 .f32) (Wd1 : FVec Ideal S1024x4096 .f32) (bd1 : FVec Ideal S4096 .f32) :
    FVec Ideal S8192x4096 .f32 :=
  maximumf
    (addf (Host.dotGeneral (F := Ideal) dot_S8192x1024_S1024x4096_S8192x4096_1_0_0_1_n_n none z Wd1)
      (broadcastInDim S8192x4096 ![0, 1] bcast_S1x4096_S8192x4096_0_1 (broadcastInDim S1x4096 ![1] bcast_S4096_S1x4096_1 bd1)))
    (broadcastInDim S8192x4096 ![] bcast_S_S8192x4096 (constant (F := Ideal) S_ .f32 0x00000000#32))

/-- The decoder's output: hd · Wd2 + bd2; its left column half is the reconstruction's mean, its right half its
    log-scale. -/
def decR (hd : FVec Ideal S8192x4096 .f32) (Wd2 : FVec Ideal S4096x8192 .f32) (bd2 : FVec Ideal S8192 .f32) :
    FVec Ideal S8192x8192 .f32 :=
  addf (Host.dotGeneral (F := Ideal) dot_S8192x4096_S4096x8192_S8192x8192_1_0_0_1_n_n none hd Wd2)
    (broadcastInDim S8192x8192 ![0, 1] bcast_S1x8192_S8192x8192_0_1 (broadcastInDim S1x8192 ![1] bcast_S8192_S1x8192_1 bd2))

/-- The loss, for any float values: with m | s the column halves of dec, v = max (exp (2 s)) tiny, mu | logvar the
    column halves of enc and std = exp logvar,

      (∑ ½ (log v + (x - m)² / v)) / 8192  +  (∑ ½ (std² + mu² - 1 - 2 logvar)) / 8192,

    each sum taken along the rows and then down the column of row sums. -/
def tailR {F : FTy → Type} [FloatOps F] (dec : FVec F S8192x8192 .f32) (enc : FVec F S8192x2048 .f32)
    (x : FVec F S8192x4096 .f32) : FVec F S_ .f32 :=
  addf (Host.divf (Host.reduceAdd (Host.reduceAdd (mulf (broadcastInDim S8192x4096 ![] bcast_S_S8192x4096 (constant S_ .f32 0x3F000000#32)) (addf
  (Host.log (maximumf (Host.exp (mulf (broadcastInDim S8192x4096 ![] bcast_S_S8192x4096 (constant S_ .f32 0x40000000#32)) (extractStridedSlice
  S8192x4096 ![0, 4096] dec slices_S8192x8192_S8192x4096_0_4096))) (broadcastInDim S8192x4096 ![] bcast_S_S8192x4096 (constant S_ .f32 0x358637BD#32))))
  (Host.divf (mulf (subf x (extractStridedSlice S8192x4096 ![0, 0] dec slices_S8192x8192_S8192x4096_0_0)) (subf x (extractStridedSlice S8192x4096 ![0,
  0] dec slices_S8192x8192_S8192x4096_0_0))) (maximumf (Host.exp (mulf (broadcastInDim S8192x4096 ![] bcast_S_S8192x4096 (constant S_ .f32
  0x40000000#32)) (extractStridedSlice S8192x4096 ![0, 4096] dec slices_S8192x8192_S8192x4096_0_4096))) (broadcastInDim S8192x4096 ![]
  bcast_S_S8192x4096 (constant S_ .f32 0x358637BD#32)))))) (constant S_ .f32 0x00000000#32) reducesTo_S8192x4096_S8192_d1 h_S_) (constant S_ .f32
  0x00000000#32) reducesTo_S8192_S_d0 h_S_) (constant S_ .f32 0x46000000#32)) (Host.divf (Host.reduceAdd (Host.reduceAdd (mulf (broadcastInDim
  S8192x1024 ![] bcast_S_S8192x1024 (constant S_ .f32 0x3F000000#32)) (subf (subf (addf (mulf (Host.exp (extractStridedSlice S8192x1024 ![0, 1024] enc
  slices_S8192x2048_S8192x1024_0_1024)) (Host.exp (extractStridedSlice S8192x1024 ![0, 1024] enc slices_S8192x2048_S8192x1024_0_1024))) (mulf
  (extractStridedSlice S8192x1024 ![0, 0] enc slices_S8192x2048_S8192x1024_0_0) (extractStridedSlice S8192x1024 ![0, 0] enc
  slices_S8192x2048_S8192x1024_0_0))) (broadcastInDim S8192x1024 ![] bcast_S_S8192x1024 (constant S_ .f32 0x3F800000#32))) (mulf (broadcastInDim
  S8192x1024 ![] bcast_S_S8192x1024 (constant S_ .f32 0x40000000#32)) (extractStridedSlice S8192x1024 ![0, 1024] enc
  slices_S8192x2048_S8192x1024_0_1024)))) (constant S_ .f32 0x00000000#32) reducesTo_S8192x1024_S8192_d1 h_S_) (constant S_ .f32 0x00000000#32)
  reducesTo_S8192_S_d0 h_S_) (constant S_ .f32 0x46000000#32))

/-! ## The run -/

/-- The run's result term is the loss of the stages of the arguments: the stages are that term's own subterms. -/
theorem res_eq (m : (ℓ : Loc nD τ sig) → Buf (Elt Ideal) ℓ) (c : Dev nD) :
    Value.res_main_v53 (F := Ideal) m c
      = tailR (decR (hdR (zR (encR (hR (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg1))) (m ((c.tc : Thread nD τ).loc main_arg6)) (m ((c.tc : Thread nD τ).loc main_arg7))) (m ((c.tc : Thread nD τ).loc main_arg8)) (m ((c.tc : Thread nD τ).loc main_arg9))) (encR (hR (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg0)) := by
  unfold Value.res_main_v53 tailR decR hdR zR encR hR
  rfl

/-- On every device, from any memory with zero counters: every weakly fair execution of the reference terminates
    with its result the loss of the stages of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
          = tailR (decR (hdR (zR (encR (hR (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg1))) (m ((c.tc : Thread nD τ).loc main_arg6)) (m ((c.tc : Thread nD τ).loc main_arg7))) (m ((c.tc : Thread nD τ).loc main_arg8)) (m ((c.tc : Thread nD τ).loc main_arg9))) (encR (hR (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (res_eq m c), (h c).2⟩) (Value.run (F := Ideal) m ρ)

/-! ## The layers read at an index -/

/-- Each of the program's four products is the rows-by-columns one. -/
theorem dot_enc1 : dot_S8192x4096_S4096x4096_S8192x4096_1_0_0_1_n_n = DotDims.plain 8192 4096 4096 := rfl
theorem dot_enc2 : dot_S8192x4096_S4096x2048_S8192x2048_1_0_0_1_n_n = DotDims.plain 8192 4096 2048 := rfl
theorem dot_dec1 : dot_S8192x1024_S1024x4096_S8192x4096_1_0_0_1_n_n = DotDims.plain 8192 1024 4096 := rfl
theorem dot_dec2 : dot_S8192x4096_S4096x8192_S8192x8192_1_0_0_1_n_n = DotDims.plain 8192 4096 8192 := rfl

/-- A host program's layer without ReLU — the product, plus a bias vector laid along a one-row matrix and that row
    down the rows — read at (e, j): the sum over the contracted coordinate plus the bias vector's entry j. -/
theorem host_affine_apply {M K N : ℕ} {φ₁ φ₂ : FTy} (d : DotDims ⟨2, ![M, K]⟩ ⟨2, ![K, N]⟩ ⟨2, ![M, N]⟩)
    (hd : d = DotDims.plain M K N) (prec : Option ContractPrecision) (h : FVec Ideal ⟨2, ![M, K]⟩ φ₁)
    (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (e : Fin M) (j : Fin N) :
    addf (Host.dotGeneral d prec h W)
        (broadcastInDim ⟨2, ![M, N]⟩ ![0, 1] h2 (broadcastInDim ⟨2, ![1, N]⟩ ![1] h1 b)) (ix2 e j)
      = ∑ k : Fin K, h (ix2 e k) * W (ix2 k j) + b (ix1 j) := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  show FloatOps.dotGeneral (DotDims.plain M K N) prec .single h W (ix2 e j)
      + broadcastInDim ⟨2, ![M, N]⟩ ![0, 1] h2 (broadcastInDim ⟨2, ![1, N]⟩ ![1] h1 b) (ix2 e j) = _
  rw [Cert.LibDense.dotGeneral_plain_apply, e2, e1]

/-- The encoder's hidden layer at (r, j): the dense layer with ReLU of x's row r. -/
theorem hR_apply (x : FVec Ideal S8192x4096 .f32) (We1 : FVec Ideal S4096x4096 .f32) (be1 : FVec Ideal S4096 .f32)
    (r : Fin 8192) (j : Fin 4096) :
    hR x We1 be1 (ix2 r j)
      = Cert.LibDense.dense (fun k : Fin 4096 => x (ix2 r k)) (fun k j => We1 (ix2 k j)) (fun j => be1 (ix1 j)) j := by
  unfold hR
  exact Cert.LibDense.host_layer_apply dot_S8192x4096_S4096x4096_S8192x4096_1_0_0_1_n_n dot_enc1 none x We1 be1
    bcast_S4096_S1x4096_1 bcast_S1x4096_S8192x4096_0_1 bcast_S_S8192x4096 r j _ (fun _ => rfl)

/-- The decoder's hidden layer at (r, j): the dense layer with ReLU of z's row r. -/
theorem hdR_apply (z : FVec Ideal S8192x1024 .f32) (Wd1 : FVec Ideal S1024x4096 .f32) (bd1 : FVec Ideal S4096 .f32)
    (r : Fin 8192) (j : Fin 4096) :
    hdR z Wd1 bd1 (ix2 r j)
      = Cert.LibDense.dense (fun k : Fin 1024 => z (ix2 r k)) (fun k j => Wd1 (ix2 k j)) (fun j => bd1 (ix1 j)) j := by
  unfold hdR
  exact Cert.LibDense.host_layer_apply dot_S8192x1024_S1024x4096_S8192x4096_1_0_0_1_n_n dot_dec1 none z Wd1 bd1
    bcast_S4096_S1x4096_1 bcast_S1x4096_S8192x4096_0_1 bcast_S_S8192x4096 r j _ (fun _ => rfl)

/-- The encoder's output at (r, j). -/
theorem encR_apply (h : FVec Ideal S8192x4096 .f32) (We2 : FVec Ideal S4096x2048 .f32) (be2 : FVec Ideal S2048 .f32)
    (r : Fin 8192) (j : Fin 2048) :
    encR h We2 be2 (ix2 r j) = ∑ k : Fin 4096, h (ix2 r k) * We2 (ix2 k j) + be2 (ix1 j) := by
  unfold encR
  exact host_affine_apply dot_S8192x4096_S4096x2048_S8192x2048_1_0_0_1_n_n dot_enc2 none h We2 be2
    bcast_S2048_S1x2048_1 bcast_S1x2048_S8192x2048_0_1 r j

/-- The decoder's output at (r, j). -/
theorem decR_apply (hd : FVec Ideal S8192x4096 .f32) (Wd2 : FVec Ideal S4096x8192 .f32) (bd2 : FVec Ideal S8192 .f32)
    (r : Fin 8192) (j : Fin 8192) :
    decR hd Wd2 bd2 (ix2 r j) = ∑ k : Fin 4096, hd (ix2 r k) * Wd2 (ix2 k j) + bd2 (ix1 j) := by
  unfold decR
  exact host_affine_apply dot_S8192x4096_S4096x8192_S8192x8192_1_0_0_1_n_n dot_dec2 none hd Wd2 bd2
    bcast_S8192_S1x8192_1 bcast_S1x8192_S8192x8192_0_1 r j

end Cert.ReferenceIdeal.RefSide

end
-- ==== Proof.Algebraic.lean ====
/-
  The algebraic claim: on the extended reals the kernel program and the reference end with the same scalar.

  Both compute a variational autoencoder's forward pass and its loss. The reference's stages are

      h = relu (x · We1 + be1),  enc = h · We2 + be2,  z = mu + exp(logvar) · eps  (mu | logvar the halves of enc),
      hd = relu (z · Wd1 + bd1),  dec = hd · Wd2 + bd2,  loss = tail (dec, enc, x).

  The kernel program computes each of the four layers by a tiled matmul region and everything between them by the
  same host operations. Region by region, the array a region leaves is read entry by entry: entry (r, j) is the
  layer's formula over row r of the region's left operand. The left operand is the argument (narrowed to bf16,
  which changes nothing on the extended reals) or the previous stage; the weights are the arguments narrowed the
  same way; the bias row is the bias vector laid out as one row. So the four arrays are h, enc, hd, dec of the
  arguments, stage by stage, and the last host stretch is the reference's tail, operation for operation.
-/
import proofs.«177351_j58944131170770_1_alg».proof.Proof.KernelIdeal.ValueRun
import proofs.«177351_j58944131170770_1_alg».proof.Proof.KernelIdeal.Glue
import proofs.«177351_j58944131170770_1_alg».proof.Proof.KernelIdeal.R0.Value
import proofs.«177351_j58944131170770_1_alg».proof.Proof.KernelIdeal.R1.Value
import proofs.«177351_j58944131170770_1_alg».proof.Proof.KernelIdeal.R2.Value
import proofs.«177351_j58944131170770_1_alg».proof.Proof.KernelIdeal.R3.Value
import proofs.«177351_j58944131170770_1_alg».proof.Proof.RefSide
import proofs.«177351_j58944131170770_1_alg».proof.Proof.LibDense
import proofs.«177351_j58944131170770_1_alg».proof.Proof.Gen.Pre_finite_inputs
import Idealize.ShloMosaic.Lib.ValueIdx
import Idealize.ShloMosaic.Lib.ValueLayout
import Idealize.ShloMosaic.PureOps.Ideal.Laws

set_option maxRecDepth 16384

noncomputable section

namespace Cert.Proof.Algebraic

open Idealize.ShloMosaic Idealize.ShloMosaic.TcCoe Idealize.SL.Sem
open Idealize.ShloMosaic.ValueIdx
open Cert.KernelIdeal Cert.KernelIdeal.Gen Cert.KernelIdeal.Whole Cert.KernelIdeal.Glue
open Cert.ReferenceIdeal.RefSide (hR encR zR hdR decR tailR hR_apply encR_apply hdR_apply decR_apply ref_run)
open Cert.LibDense (dense)

/-! ## Two congruences -/

/-- The dense layer with ReLU depends on its row, its weights and its bias only through their entries. -/
theorem dense_congr3 {K N : ℕ} {h h' : Fin K → EReal} {W W' : Fin K → Fin N → EReal} {b b' : Fin N → EReal}
    (eh : ∀ k, h k = h' k) (eW : ∀ k j, W k j = W' k j) (eb : ∀ j, b j = b' j) (j : Fin N) :
    dense h W b j = dense h' W' b' j := by
  rw [show h = h' from funext eh, show W = W' from funext fun k => funext (eW k), show b = b' from funext eb]

/-- The same for a layer without ReLU at one entry: a sum of products plus a bias entry. -/
theorem affine_congr {K : ℕ} {h h' W W' : Fin K → EReal} {b b' : EReal}
    (eh : ∀ k, h k = h' k) (eW : ∀ k, W k = W' k) (eb : b = b') :
    ∑ k : Fin K, h k * W k + b = ∑ k : Fin K, h' k * W' k + b' := by
  rw [show h = h' from funext eh, show W = W' from funext eW, eb]

/-! ## The arguments and the reference's stages over them -/

variable (m : (ℓ : Loc nD τ sig) → Buf (Elt Ideal) ℓ)

/-- The ten arguments at their literal types: the input batch, the noise, and the four layers' weights and biases. -/
abbrev xA (c : Dev nD) : FVec Ideal S8192x4096 .f32 := m ((c : Thread nD τ).loc main_arg0)
abbrev epsA (c : Dev nD) : FVec Ideal S8192x1024 .f32 := m ((c : Thread nD τ).loc main_arg1)
abbrev We1A (c : Dev nD) : FVec Ideal S4096x4096 .f32 := m ((c : Thread nD τ).loc main_arg2)
abbrev be1A (c : Dev nD) : FVec Ideal S4096 .f32 := m ((c : Thread nD τ).loc main_arg3)
abbrev We2A (c : Dev nD) : FVec Ideal S4096x2048 .f32 := m ((c : Thread nD τ).loc main_arg4)
abbrev be2A (c : Dev nD) : FVec Ideal S2048 .f32 := m ((c : Thread nD τ).loc main_arg5)
abbrev Wd1A (c : Dev nD) : FVec Ideal S1024x4096 .f32 := m ((c : Thread nD τ).loc main_arg6)
abbrev bd1A (c : Dev nD) : FVec Ideal S4096 .f32 := m ((c : Thread nD τ).loc main_arg7)
abbrev Wd2A (c : Dev nD) : FVec Ideal S4096x8192 .f32 := m ((c : Thread nD τ).loc main_arg8)
abbrev bd2A (c : Dev nD) : FVec Ideal S8192 .f32 := m ((c : Thread nD τ).loc main_arg9)

/-- The reference's stages of the arguments. -/
abbrev hS (c : Dev nD) : FVec Ideal S8192x4096 .f32 := hR (xA m c) (We1A m c) (be1A m c)
abbrev encS (c : Dev nD) : FVec Ideal S8192x2048 .f32 := encR (hS m c) (We2A m c) (be2A m c)
abbrev zS (c : Dev nD) : FVec Ideal S8192x1024 .f32 := zR (encS m c) (epsA m c)
abbrev hdS (c : Dev nD) : FVec Ideal S8192x4096 .f32 := hdR (zS m c) (Wd1A m c) (bd1A m c)
abbrev decS (c : Dev nD) : FVec Ideal S8192x8192 .f32 := decR (hdS m c) (Wd2A m c) (bd2A m c)

/-- The arrays the four regions leave, at their literal types. -/
abbrev out0 (c : Dev nD) : FVec Ideal S8192x4096 .bf16 := X2 m c main_v3
abbrev out1 (c : Dev nD) : FVec Ideal S8192x2048 .f32 := X4 m c main_v6
abbrev out2 (c : Dev nD) : FVec Ideal S8192x4096 .bf16 := X6 m c main_v15
abbrev out3 (c : Dev nD) : FVec Ideal S8192x8192 .f32 := X8 m c main_v18

/-! ## What each region is entered with -/

theorem in1_v3 (c : Dev nD) : Xin1 m c main_v3 = X2 m c main_v3 :=
  (congrFun (entry_eq1 m c) main_v3).symm.trans (V3_main_v3 m (outs m) c)
theorem in1_v4 (c : Dev nD) : (Xin1 m c main_v4 : FVec Ideal S4096x2048 .bf16) = truncf .bf16 (We2A m c) bitsLt_bf16_f32 :=
  (congrFun (entry_eq1 m c) main_v4).symm.trans (V3_main_v4 m (outs m) c)
theorem in1_v5 (c : Dev nD) : (Xin1 m c main_v5 : FVec Ideal S1x2048 .f32) = shapeCast S1x2048 (be2A m c) shapeCasts_S2048_S1x2048 :=
  (congrFun (entry_eq1 m c) main_v5).symm.trans (V3_main_v5 m (outs m) c)

theorem in2_v12 (c : Dev nD) : (Xin2 m c main_v12 : FVec Ideal S8192x1024 .bf16) = zK (out1 m c) (epsA m c) :=
  (congrFun (entry_eq2 m c) main_v12).symm.trans (V5_main_v12 m (outs m) c)
theorem in2_v13 (c : Dev nD) : (Xin2 m c main_v13 : FVec Ideal S1024x4096 .bf16) = truncf .bf16 (Wd1A m c) bitsLt_bf16_f32 :=
  (congrFun (entry_eq2 m c) main_v13).symm.trans (V5_main_v13 m (outs m) c)
theorem in2_v14 (c : Dev nD) : (Xin2 m c main_v14 : FVec Ideal S1x4096 .f32) = shapeCast S1x4096 (bd1A m c) shapeCasts_S4096_S1x4096 :=
  (congrFun (entry_eq2 m c) main_v14).symm.trans (V5_main_v14 m (outs m) c)

theorem in3_v15 (c : Dev nD) : Xin3 m c main_v15 = X6 m c main_v15 :=
  (congrFun (entry_eq3 m c) main_v15).symm.trans (V7_main_v15 m (outs m) c)
theorem in3_v16 (c : Dev nD) : (Xin3 m c main_v16 : FVec Ideal S4096x8192 .bf16) = truncf .bf16 (Wd2A m c) bitsLt_bf16_f32 :=
  (congrFun (entry_eq3 m c) main_v16).symm.trans (V7_main_v16 m (outs m) c)
theorem in3_v17 (c : Dev nD) : (Xin3 m c main_v17 : FVec Ideal S1x8192 .f32) = shapeCast S1x8192 (bd2A m c) shapeCasts_S8192_S1x8192 :=
  (congrFun (entry_eq3 m c) main_v17).symm.trans (V7_main_v17 m (outs m) c)

/-! ## The four arrays are the reference's stages -/

/-- Region 0 leaves the encoder's hidden layer. -/
theorem out0_eq (c : Dev nD) : out0 m c = hS m c := by
  funext i
  obtain ⟨r, j, rfl⟩ : ∃ (r : Fin 8192) (j : Fin 4096), i = ix2 r j := ⟨i 0, i 1, eq_ix2 i⟩
  refine ((congrFun (exit_self0 m c) (ix2 r j)).trans (R0.out_apply (fun c b => Xin0 m c b) c r j)).trans ?_
  refine Eq.trans ?_ (hR_apply (xA m c) (We1A m c) (be1A m c) r j).symm
  exact dense_congr3 (fun k => congrFun (V1_main_v0 m c) (ix2 r k)) (fun k j => congrFun (V1_main_v1 m c) (ix2 k j))
    (fun j => (congrFun (V1_main_v2 m c) (ix2 (0 : Fin 1) j)).trans (shapeCast_a_1a_apply _ _ 0 j)) j

/-- Region 1 leaves the encoder's output. -/
theorem out1_eq (c : Dev nD) : out1 m c = encS m c := by
  funext i
  obtain ⟨r, j, rfl⟩ : ∃ (r : Fin 8192) (j : Fin 2048), i = ix2 r j := ⟨i 0, i 1, eq_ix2 i⟩
  refine ((congrFun (exit_self1 m c) (ix2 r j)).trans (R1.out_apply (fun c b => Xin1 m c b) c r j)).trans ?_
  refine Eq.trans ?_ (encR_apply (hS m c) (We2A m c) (be2A m c) r j).symm
  exact affine_congr
    (fun k => (congrFun (in1_v3 m c) (ix2 r k)).trans (congrFun (out0_eq m c) (ix2 r k)))
    (fun k => congrFun (in1_v4 m c) (ix2 k j))
    ((congrFun (in1_v5 m c) (ix2 (0 : Fin 1) j)).trans (shapeCast_a_1a_apply _ _ 0 j))

/-- The sample the decoder is fed is the reference's: narrowing to bf16 changes nothing on the extended reals. -/
theorem zK_eq_zR (enc : FVec Ideal S8192x2048 .f32) (eps : FVec Ideal S8192x1024 .f32) :
    (zK (F := Ideal) enc eps : S8192x1024.Idx → EReal) = zR enc eps := rfl

/-- Region 2 leaves the decoder's hidden layer. -/
theorem out2_eq (c : Dev nD) : out2 m c = hdS m c := by
  funext i
  obtain ⟨r, j, rfl⟩ : ∃ (r : Fin 8192) (j : Fin 4096), i = ix2 r j := ⟨i 0, i 1, eq_ix2 i⟩
  refine ((congrFun (exit_self2 m c) (ix2 r j)).trans (R2.out_apply (fun c b => Xin2 m c b) c r j)).trans ?_
  refine Eq.trans ?_ (hdR_apply (zS m c) (Wd1A m c) (bd1A m c) r j).symm
  have ez : (Xin2 m c main_v12 : S8192x1024.Idx → EReal) = zS m c :=
    (in2_v12 m c).trans ((zK_eq_zR (out1 m c) (epsA m c)).trans (congrArg (fun e => zR e (epsA m c)) (out1_eq m c)))
  exact dense_congr3 (fun k => congrFun ez (ix2 r k)) (fun k j => congrFun (in2_v13 m c) (ix2 k j))
    (fun j => (congrFun (in2_v14 m c) (ix2 (0 : Fin 1) j)).trans (shapeCast_a_1a_apply _ _ 0 j)) j

/-- Region 3 leaves the decoder's output. -/
theorem out3_eq (c : Dev nD) : out3 m c = decS m c := by
  funext i
  obtain ⟨r, j, rfl⟩ : ∃ (r : Fin 8192) (j : Fin 8192), i = ix2 r j := ⟨i 0, i 1, eq_ix2 i⟩
  refine ((congrFun (exit_self3 m c) (ix2 r j)).trans (R3.out_apply (fun c b => Xin3 m c b) c r j)).trans ?_
  refine Eq.trans ?_ (decR_apply (hdS m c) (Wd2A m c) (bd2A m c) r j).symm
  exact affine_congr
    (fun k => (congrFun (in3_v15 m c) (ix2 r k)).trans (congrFun (out2_eq m c) (ix2 r k)))
    (fun k => congrFun (in3_v16 m c) (ix2 k j))
    ((congrFun (in3_v17 m c) (ix2 (0 : Fin 1) j)).trans (shapeCast_a_1a_apply _ _ 0 j))

/-! ## The loss -/

/-- The kernel program's last host stretch is the reference's tail, operation for operation, for any float values. -/
theorem tail_eq {F : FTy → Type} [FloatOps F] (dec : FVec F S8192x8192 .f32) (enc : FVec F S8192x2048 .f32)
    (x : FVec F S8192x4096 .f32) : tailK dec enc x = tailR dec enc x := rfl

/-- So the kernel program's result is the reference's loss of the reference's stages. -/
theorem v49_eq (c : Dev nD) :
    V9 m (outs m) c main_v49 = tailR (decS m c) (encS m c) (xA m c) := by
  refine (V9_main_v49 m (outs m) c).trans ?_
  show tailK (out3 m c) (out1 m c) (xA m c) = _
  rw [out3_eq, out1_eq]
  exact tail_eq _ _ _

/-! ## The claim -/

/-- The reference's result as one function of the ten arguments. -/
def lossOf (x : FVec Ideal S8192x4096 .f32) (eps : FVec Ideal S8192x1024 .f32) (We1 : FVec Ideal S4096x4096 .f32)
    (be1 : FVec Ideal S4096 .f32) (We2 : FVec Ideal S4096x2048 .f32) (be2 : FVec Ideal S2048 .f32)
    (Wd1 : FVec Ideal S1024x4096 .f32) (bd1 : FVec Ideal S4096 .f32) (Wd2 : FVec Ideal S4096x8192 .f32)
    (bd2 : FVec Ideal S8192 .f32) : FVec Ideal S_ .f32 :=
  tailR (decR (hdR (zR (encR (hR x We1 be1) We2 be2) eps) Wd1 bd1) Wd2 bd2) (encR (hR x We1 be1) We2 be2) x

/-- At the ideal instance, from memories that agree on the arguments, both programs run, end with the same scalar
    (the reference's loss of the reference's stages of the arguments) and leave the arguments unchanged. -/
theorem algebraic : Cert.algebraic_KernelIdeal_ReferenceIdeal := by
  intro m g m' g' _ hagree
  refine ⟨fun c => lossOf (xA m c) (epsA m c) (We1A m c) (be1A m c) (We2A m c) (be2A m c) (Wd1A m c) (bd1A m c)
    (Wd2A m c) (bd2A m c), ?_, ?_⟩
  · refine (θ_run Cert.KernelIdeal.defs _ _).mono (fun r h c => ?_) (run_all m g)
    have hb : ∀ (b : Ref sig .tc) (hs : ¬ (Proc.devRef .tc b : DevRef τ sig).isScoped),
        r.2.mem ((c.tc : Thread nD τ).loc b) = V9 m (outs m) c b := fun b hs => h c _ (mem_uc b hs)
    exact ⟨(hb main_v49 (by decide)).trans (v49_eq m c),
      (hb main_arg0 (by decide)).trans (V9_main_arg0 m (outs m) c),
      (hb main_arg1 (by decide)).trans (V9_main_arg1 m (outs m) c),
      (hb main_arg2 (by decide)).trans (V9_main_arg2 m (outs m) c),
      (hb main_arg3 (by decide)).trans (V9_main_arg3 m (outs m) c),
      (hb main_arg4 (by decide)).trans (V9_main_arg4 m (outs m) c),
      (hb main_arg5 (by decide)).trans (V9_main_arg5 m (outs m) c),
      (hb main_arg6 (by decide)).trans (V9_main_arg6 m (outs m) c),
      (hb main_arg7 (by decide)).trans (V9_main_arg7 m (outs m) c),
      (hb main_arg8 (by decide)).trans (V9_main_arg8 m (outs m) c),
      (hb main_arg9 (by decide)).trans (V9_main_arg9 m (outs m) c)⟩
  · refine (θ_run Cert.ReferenceIdeal.defs _ _).mono (fun r h c => ⟨(h c).1.trans ?_, (h c).2⟩) (ref_run m' g')
    obtain ⟨e0, e1, e2, e3, e4, e5, e6, e7, e8, e9⟩ := hagree c
    show lossOf _ _ _ _ _ _ _ _ _ _ = lossOf _ _ _ _ _ _ _ _ _ _
    rw [e0, e1, e2, e3, e4, e5, e6, e7, e8, e9]

end Cert.Proof.Algebraic

end
-- ==== Proof.lean ====
/-
  The certificate: the kernel and its jnp reference compute the same loss over the extended reals.

  The program is a variational autoencoder's forward pass. The kernel runs its four dense layers as K-blocked
  matmul kernels (a 1024×1024 accumulator in scratch memory, the bias and the activation applied at the last
  contraction step) with the reparameterisation and the loss as host operations between and after them; the
  reference is the same network in plain array operations. At the ideal instance a change of float format is the
  identity and a blocked sum of tile products is the whole product, so every layer of the kernel is the
  reference's layer, and the elementwise parts are the same operations on both sides.

  The three frames: each kernel region is run point by point over its grid (the accumulator carried by the
  region's invariant), the regions and the host stretches are chained through @main; the reference is a host
  program, whose run is read off operation by operation. The idealization rewrote nothing, so it preserves the
  kernel trivially.
-/
import proofs.«177351_j58944131170770_1_alg».proof.Defs
import proofs.«177351_j58944131170770_1_alg».proof.Proof.Gen.Kernel
import proofs.«177351_j58944131170770_1_alg».proof.Proof.Gen.KernelIdeal
import proofs.«177351_j58944131170770_1_alg».proof.Proof.Gen.ReferenceIdeal
import proofs.«177351_j58944131170770_1_alg».proof.Proof.Gen.Pre_finite_inputs
import proofs.«177351_j58944131170770_1_alg».proof.Proof.Kernel.Frame
import proofs.«177351_j58944131170770_1_alg».proof.Proof.KernelIdeal.Frame
import proofs.«177351_j58944131170770_1_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Whole.frame m ρ,
  fun m ρ _ => Cert.KernelIdeal.Whole.frame m ρ,
  fun m ρ _ => (θ_run Cert.ReferenceIdeal.defs _ _).mono (fun _ h c => (h c).2) (Cert.ReferenceIdeal.Value.run (F := Ideal) m ρ),
  trivial,
  Cert.Proof.Algebraic.algebraic⟩

end Cert.Proof

end
